-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S2x1024x1024 : Shape := ⟨3, ![2, 1024, 1024]⟩
abbrev S2 : Shape := ⟨1, ![2]⟩
abbrev S_ : Shape := ⟨0, ![]⟩
abbrev S8192x1024 : Shape := ⟨2, ![8192, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S2x1024x1024, .f32⟩
  | _, _ => ⟨S8192x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v19 : BitVec 32 := Scalar.muli v8 c8192_i32
  let c0_i32_14 : BitVec 32 := 0#32
  ![v19.toNat, 0]
def k0_off2 (d0 : Dev nD) : Fin 2 → Nat :=
  let c0_i32_15 : BitVec 32 := 0#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1024_i32 : BitVec 32 := 1024#32
  let v18 : BitVec 32 := Scalar.muli v17 c1024_i32
  ![0, v18.toNat]
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v20 : BitVec 32 := Scalar.muli v2 c4_i32_10
  let v21 : BitVec 32 := Scalar.addi c0_i32_11 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v22 : BitVec 32 := Scalar.muli v5 c2_i32_12
  let v23 : BitVec 32 := Scalar.addi v21 v22
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v24 : BitVec 32 := Scalar.muli v9 c1_i32_13
  let v25 : BitVec 32 := Scalar.addi v23 v24
  v25.toNat
def k0_off3 (d0 : Dev nD) : Fin 2 → Nat :=
  let c0_i32_28 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_16 : BitVec 32 := 1024#32
  let v28 : BitVec 32 := Scalar.muli v8 c1024_i32_16
  ![0, v28.toNat]
def k0_off4 (d0 : Dev nD) : Fin 2 → Nat :=
  let c1024_i32_33 : BitVec 32 := 1024#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_17 : BitVec 32 := 1024#32
  let v29 : BitVec 32 := Scalar.muli v8 c1024_i32_17
  ![1024, v29.toNat]
def k0_off5 (d0 : Dev nD) (c0_i32_40 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32_39 : BitVec 32 := 8192#32
  let v51 : BitVec 32 := Scalar.muli v8 c8192_i32_39
  let v52 : BitVec 32 := Scalar.addi v51 c0_i32_40
  let c0_i32_43 : BitVec 32 := 0#32
  ![v52.toNat, 0]
def k0_off6 (d0 : Dev nD) : Fin 2 → Nat :=
  let c2048_i32 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_18 : BitVec 32 := 1024#32
  let v30 : BitVec 32 := Scalar.muli v8 c1024_i32_18
  ![2048, v30.toNat]
def k0_off7 (d0 : Dev nD) : Fin 2 → Nat :=
  let c3072_i32 : BitVec 32 := 3072#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_19 : BitVec 32 := 1024#32
  let v31 : BitVec 32 := Scalar.muli v8 c1024_i32_19
  ![3072, v31.toNat]
def k0_off8 (d0 : Dev nD) : Fin 2 → Nat :=
  let c4096_i32 : BitVec 32 := 4096#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_20 : BitVec 32 := 1024#32
  let v32 : BitVec 32 := Scalar.muli v8 c1024_i32_20
  ![4096, v32.toNat]
def k0_off9 (d0 : Dev nD) : Fin 2 → Nat :=
  let c5120_i32 : BitVec 32 := 5120#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_21 : BitVec 32 := 1024#32
  let v33 : BitVec 32 := Scalar.muli v8 c1024_i32_21
  ![5120, v33.toNat]
def k0_off10 (d0 : Dev nD) : Fin 2 → Nat :=
  let c6144_i32 : BitVec 32 := 6144#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_22 : BitVec 32 := 1024#32
  let v34 : BitVec 32 := Scalar.muli v8 c1024_i32_22
  ![6144, v34.toNat]
def k0_off11 (d0 : Dev nD) : Fin 2 → Nat :=
  let c7168_i32 : BitVec 32 := 7168#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_23 : BitVec 32 := 1024#32
  let v35 : BitVec 32 := Scalar.muli v8 c1024_i32_23
  ![7168, v35.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S8192x1024.size a ≤ S16384x1024.size a
  k0_off2_inb : ∀ d0 : Dev nD, ∀ a, (k0_off2 d0) a + S8192x1024.size a ≤ S8192x2048.size a
  k0_dev2_lt : ∀ d0 : Dev nD, (k0_dev2 d0) < nD
  k0_off3_inb : ∀ d0 : Dev nD, ∀ a, (k0_off3 d0) a + S1024x1024.size a ≤ S8192x2048.size a
  k0_off4_inb : ∀ d0 : Dev nD, ∀ a, (k0_off4 d0) a + S1024x1024.size a ≤ S8192x2048.size a
  k0_off5_inb : ∀ d0 : Dev nD, ∀ (r : Fin 8), ∀ a, (k0_off5 d0 (BitVec.ofNat 32 (1024 * r.val))) a + S1024x1024.size a ≤ S16384x1024.size a
  k0_off6_inb : ∀ d0 : Dev nD, ∀ a, (k0_off6 d0) a + S1024x1024.size a ≤ S8192x2048.size a
  k0_off7_inb : ∀ d0 : Dev nD, ∀ a, (k0_off7 d0) a + S1024x1024.size a ≤ S8192x2048.size a
  k0_off8_inb : ∀ d0 : Dev nD, ∀ a, (k0_off8 d0) a + S1024x1024.size a ≤ S8192x2048.size a
  k0_off9_inb : ∀ d0 : Dev nD, ∀ a, (k0_off9 d0) a + S1024x1024.size a ≤ S8192x2048.size a
  k0_off10_inb : ∀ d0 : Dev nD, ∀ a, (k0_off10 d0) a + S1024x1024.size a ≤ S8192x2048.size a
  k0_off11_inb : ∀ d0 : Dev nD, ∀ a, (k0_off11 d0) a + S1024x1024.size a ≤ S8192x2048.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdeal.Proto.lean ====
/-
  The all-to-all step on the mesh axis z, as a protocol of cells.

  Device c holds rows [8192 z, 8192 z + 8192) of the whole 16384 × 2048 array (z = c mod 2) and must end with
  columns [1024 z, 1024 z + 1024) of it.  Its peer is the device with the other z and the same x, y.  The body
  signals the peer's barrier semaphore and waits for the peer's signal; sends the column half the peer wants
  into the peer's result rows; copies its own column half, eight row chunks of 1024, through a two-slot
  scratch into its own result rows; and waits for its send and for the peer's landing.

  This module fixes the vocabulary: the peer involution, the memrefs each transfer goes through, the
  semaphore cells, and what each array must hold at the end.
-/
import proofs.«900632_g7700000000000633_dist_a2a_v7x_xyz2x2x2_z_m8192_n1024_f32_1_alg».proof.Proof.Gen.KernelIdeal
import proofs.«900632_g7700000000000633_dist_a2a_v7x_xyz2x2x2_z_m8192_n1024_f32_1_alg».proof.Proof.Gen.KernelIdeal.Skeleton
import proofs.«900632_g7700000000000633_dist_a2a_v7x_xyz2x2x2_z_m8192_n1024_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peer: the device with the other z coordinate -/

def peer (c : Dev nD) : Dev nD := ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide
theorem peer_mod (c : Dev nD) : (peer c).val % 2 = 1 - c.val % 2 := by revert c; decide
theorem mod_two_le (c : Dev nD) : c.val % 2 ≤ 1 := by omega

/-- The kernel's two device chains both name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def peerEquiv : Dev nD ≃ Dev nD := ⟨peer, peer, peer_peer, peer_peer⟩

/-! ## The memrefs -/

abbrev xM : Memref sig .tc .hbm S8192x2048 .f32 := Memref.whole main_arg0
abbrev oM : Memref sig .tc .hbm S16384x1024 .f32 := Memref.whole main_v1
abbrev vM : Memref sig .tc .vmem S2x1024x1024 .f32 := Memref.whole cc0_scratch0

/-- The remote transfer's source on device c: the columns of its rows that the peer wants. -/
abbrev sndSrc (c : Dev nD) : Memref sig .tc .hbm S8192x1024 .f32 :=
  xM.slice (Rect.unit (s := S8192x2048) (k0_off2 c) S8192x1024.size (k0_off2_inb c)) (fun _ => rfl)
/-- Its destination, a row half of the PEER's result: the rows device c holds. -/
abbrev sndDst (c : Dev nD) : Memref sig .tc .hbm S8192x1024 .f32 :=
  oM.slice (Rect.unit (s := S16384x1024) (k0_off1 c) S8192x1024.size (k0_off1_inb c)) (fun _ => rfl)

/-- Row chunk k of the columns device c keeps: the offsets the eight local loads read at. -/
def ldOff (c : Dev nD) : Fin 8 → Fin 2 → Nat
  | 0 => k0_off3 c | 1 => k0_off4 c | 2 => k0_off6 c | 3 => k0_off7 c
  | 4 => k0_off8 c | 5 => k0_off9 c | 6 => k0_off10 c | 7 => k0_off11 c
theorem ldOff_inb (c : Dev nD) : ∀ (k : Fin 8) a, ldOff c k a + S1024x1024.size a ≤ S8192x2048.size a
  | 0 => k0_off3_inb c | 1 => k0_off4_inb c | 2 => k0_off6_inb c | 3 => k0_off7_inb c
  | 4 => k0_off8_inb c | 5 => k0_off9_inb c | 6 => k0_off10_inb c | 7 => k0_off11_inb c
theorem ldOff_eq (c : Dev nD) : ∀ k : Fin 8, ldOff c k = ![1024 * k.val, 1024 * (c.val % 2)]
  | 0 => k0_off3_eq c | 1 => k0_off4_eq c | 2 => k0_off6_eq c | 3 => k0_off7_eq c
  | 4 => k0_off8_eq c | 5 => k0_off9_eq c | 6 => k0_off10_eq c | 7 => k0_off11_eq c

abbrev ldSrc (c : Dev nD) (k : Fin 8) : Memref sig .tc .hbm S1024x1024 .f32 :=
  xM.slice (Rect.unit (s := S8192x2048) (ldOff c k) S1024x1024.size (ldOff_inb c k)) (fun _ => rfl)

/-- The two scratch slots. -/
abbrev slot0 : Memref sig .tc .vmem S1024x1024 .f32 :=
  (vM.slice (Rect.unit (s := S2x1024x1024) ![0, 0, 0] S1x1024x1024.size inb_S2x1024x1024_S1x1024x1024_0_0_0) (fun _ => rfl)).squeeze S1024x1024 squeezes_S1x1024x1024_S1024x1024
abbrev slot1 : Memref sig .tc .vmem S1024x1024 .f32 :=
  (vM.slice (Rect.unit (s := S2x1024x1024) ![1, 0, 0] S1x1024x1024.size inb_S2x1024x1024_S1x1024x1024_1_0_0) (fun _ => rfl)).squeeze S1024x1024 squeezes_S1x1024x1024_S1024x1024
def slot : Fin 2 → Memref sig .tc .vmem S1024x1024 .f32
  | 0 => slot0 | 1 => slot1

/-- Row chunk k of the result rows device c fills itself. -/
abbrev stDst (c : Dev nD) (k : Fin 8) : Memref sig .tc .hbm S1024x1024 .f32 :=
  oM.slice (Rect.unit (s := S16384x1024) (k0_off5 c (BitVec.ofNat 32 (1024 * k.val))) S1024x1024.size (k0_off5_inb c k)) (fun _ => rfl)

/-! ## The semaphores and cells -/

abbrev barS : Sem sig := (SemArray.scalar (sig.barrier 0 rfl) : Sems sig S_).sem
abbrev sendS : DmaSems sig S_ := cc0_scratch3
abbrev recvS : DmaSems sig S_ := cc0_scratch4
abbrev ldS0 : DmaSems sig S_ := (cc0_scratch1.slice (Rect.unit (s := S2) ![0] S1.size inb_S2_S1_0)).squeeze S_ squeezes_S1_S_
abbrev ldS1 : DmaSems sig S_ := (cc0_scratch1.slice (Rect.unit (s := S2) ![1] S1.size inb_S2_S1_1)).squeeze S_ squeezes_S1_S_
abbrev stS0 : DmaSems sig S_ := (cc0_scratch2.slice (Rect.unit (s := S2) ![0] S1.size inb_S2_S1_0)).squeeze S_ squeezes_S1_S_
abbrev stS1 : DmaSems sig S_ := (cc0_scratch2.slice (Rect.unit (s := S2) ![1] S1.size inb_S2_S1_1)).squeeze S_ squeezes_S1_S_

theorem ldS0_sem : ldS0.sem = (⟨0, by decide⟩ : DmaSem sig) := by decide
theorem ldS1_sem : ldS1.sem = (⟨1, by decide⟩ : DmaSem sig) := by decide
theorem stS0_sem : stS0.sem = (⟨2, by decide⟩ : DmaSem sig) := by decide
theorem stS1_sem : stS1.sem = (⟨3, by decide⟩ : DmaSem sig) := by decide
theorem sendS_sem : sendS.sem = (⟨4, by decide⟩ : DmaSem sig) := by decide
theorem recvS_sem : recvS.sem = (⟨5, by decide⟩ : DmaSem sig) := by decide

abbrev ldS : Fin 2 → DmaSems sig S_
  | 0 => ldS0 | 1 => ldS1
abbrev stS : Fin 2 → DmaSems sig S_
  | 0 => stS0 | 1 => stS1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev ldCell (c : Dev nD) (i : Fin 2) : GSem nD τ sig := ((c : Thread nD τ), .dma (ldS i).sem)
abbrev stCell (c : Dev nD) (i : Fin 2) : GSem nD τ sig := ((c : Thread nD τ), .dma (stS i).sem)

/-- The kernel's OWN (scoped) semaphores, as the launch theorem indexes them: the two load cells, the two store cells,
    send, receive; -/
abbrev osem : Fin 6 → SemLoc sig := fun
  | 0 => .dma ldS0.sem | 1 => .dma ldS1.sem | 2 => .dma stS0.sem | 3 => .dma stS1.sem | 4 => .dma sendS.sem | 5 => .dma recvS.sem
/-- all seven of the protocol's, as this proof indexes them: the barrier first. -/
abbrev csem : Fin 7 → SemLoc sig := fun
  | 0 => .reg barS | 1 => .dma ldS0.sem | 2 => .dma ldS1.sem | 3 => .dma stS0.sem | 4 => .dma stS1.sem | 5 => .dma sendS.sem | 6 => .dma recvS.sem
abbrev kcell (ck : Dev nD × Fin 7) : GSem nD τ sig := ((ck.1 : Thread nD τ), csem ck.2)

/-- The credit of the remote transfer (8192 × 1024 words) and of a local chunk copy (1024 × 1024 words). -/
abbrev N8 : ℕ := (sndDst (0 : Dev nD)).view.dmaCredit
abbrev N1 : ℕ := (slot0 : Memref sig .tc .vmem S1024x1024 .f32).view.dmaCredit
theorem N8_pos : 0 < N8 := View.dmaCredit_pos _ (by decide)
theorem N1_pos : 0 < N1 := View.dmaCredit_pos _ (by decide)

/-- The chunk a local cell moves in its round r: slot i carries chunks i, i + 2, i + 4, i + 6. -/
def chunk (i : Fin 2) (r : ℕ) : Fin 8 := ⟨(2 * r + i.val) % 8, Nat.mod_lt _ (by decide)⟩

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device c's rows of the array, as launched. -/
def xC (c : Dev nD) : Buf (Elt F) ((c : Thread nD τ).loc main_arg0) := m ((c : Thread nD τ).loc main_arg0)

/-- What device c's result must hold in the end: on its own rows its own columns 1024 z …, on the other rows the
    peer's columns 1024 z … (the peer holds those rows). -/
def outFinal (c : Dev nD) : Buf (Elt F) ((c : Thread nD τ).loc main_v1) := fun (i : S16384x1024.Idx) =>
  have h0 : (i 0).val < 16384 := ValueIdx.idx2_lt0 i
  have h1 : (i 1).val < 1024 := ValueIdx.idx2_lt1 i
  have hz : c.val % 2 ≤ 1 := mod_two_le c
  if h : 8192 * (c.val % 2) ≤ (i 0).val ∧ (i 0).val < 8192 * (c.val % 2) + 8192 then
    xC m c (ValueIdx.ix2 (n0 := 8192) (n1 := 2048) ⟨(i 0).val - 8192 * (c.val % 2), by omega⟩ ⟨1024 * (c.val % 2) + (i 1).val, by omega⟩)
  else
    xC m (peer c) (ValueIdx.ix2 (n0 := 8192) (n1 := 2048) ⟨(i 0).val - (8192 - 8192 * (c.val % 2)), by omega⟩ ⟨1024 * (c.val % 2) + (i 1).val, by omega⟩)

/-! ## The pieces of the three buffers the protocol hands around -/

/-- The rows of device d's result that device c's transfer fills (d is c's peer), at contents f. -/
def landPts (c d : Dev nD) (f : Buf (Elt F) ((d : Thread nD τ).loc main_v1)) : sProp 𝕄 :=
  (sndDst c).view.loc (d : Thread nD τ) ↦[(sndDst c).view.set]{fullShare} f
/-- The columns of device c's rows that its transfer reads. -/
def sndPts (c : Dev nD) : sProp 𝕄 :=
  (sndSrc c).view.loc (c : Thread nD τ) ↦[(sndSrc c).view.set]{fullShare} xC m c
/-- Row chunk k of the columns device c keeps. -/
def ldPts (c : Dev nD) (k : Fin 8) : sProp 𝕄 :=
  (ldSrc c k).view.loc (c : Thread nD τ) ↦[(ldSrc c k).view.set]{fullShare} xC m c
/-- Scratch slot i at contents f. -/
def slotPts (c : Dev nD) : Fin 2 → Buf (Elt F) ((c : Thread nD τ).loc cc0_scratch0) → sProp 𝕄
  | 0, f => slot0.view.loc (c : Thread nD τ) ↦[slot0.view.set]{fullShare} f
  | 1, f => slot1.view.loc (c : Thread nD τ) ↦[slot1.view.set]{fullShare} f
/-- What scratch contents f show through slot i. -/
def slotRead (c : Dev nD) : Fin 2 → Buf (Elt F) ((c : Thread nD τ).loc cc0_scratch0) → S1024x1024.Idx → Elt F .f32
  | 0, f => slot0.view.read (Elt F) f
  | 1, f => slot1.view.read (Elt F) f
/-- Row chunk k of the result rows device c fills itself, at contents f. -/
def stPts (c : Dev nD) (k : Fin 8) (f : Buf (Elt F) ((c : Thread nD τ).loc main_v1)) : sProp 𝕄 :=
  (stDst c k).view.loc (c : Thread nD τ) ↦[(stDst c k).view.set]{fullShare} f

/-- Slot i holding chunk k of device c's kept columns, read through the slot. -/
def slotHolds (c : Dev nD) (i : Fin 2) (k : Fin 8) : sProp 𝕄 :=
  iprop(∃ f, slotPts c i f ∗ ⌜slotRead c i f = (ldSrc c k).view.read (Elt F) (xC m c)⌝)

/-! ## The schedule -/

/-- What the peer's signal hands c: the peer's landing rows and that the peer has reached round 0 of its receive cell. -/
def barPay (c : Dev nD) : sProp 𝕄 := iprop((∃ f, landPts c (peer c) f) ∗ reached ER (recvCell (peer c)) 0)
/-- What the peer's transfer hands c on landing: c's other rows at their final contents. -/
def recvPay (c : Dev nD) : sProp 𝕄 := landPts (peer c) c (outFinal m c)
def sendPay (c : Dev nD) : sProp 𝕄 := sndPts m c
/-- A load hands back the slot holding the chunk and the chunk's source; -/
def ldPay (c : Dev nD) (i : Fin 2) (k : Fin 8) : sProp 𝕄 := iprop(slotHolds m c i k ∗ ldPts m c k)
/-- a store the result's chunk at its final contents and the slot. -/
def stPay (c : Dev nD) (i : Fin 2) (k : Fin 8) : sProp 𝕄 := iprop(stPts c k (outFinal m c) ∗ ∃ f, slotPts c i f)

theorem csem_inj : Function.Injective (csem : Fin 7 → SemLoc sig) := by decide
theorem csem_ne (a b : Fin 7) (h : a ≠ b := by decide) : csem a ≠ csem b := fun e => h (csem_inj e)

/-- How many rounds a cell has: the barrier, send and receive cells one, each local cell four. -/
def rounds (sm : SemLoc sig) : ℕ :=
  if sm = csem 0 ∨ sm = csem 5 ∨ sm = csem 6 then 1 else if sm = csem 1 ∨ sm = csem 2 ∨ sm = csem 3 ∨ sm = csem 4 then 4 else 0
theorem rounds_csem : ∀ j : Fin 7, rounds (csem j) = if j = 0 ∨ j = 5 ∨ j = 6 then 1 else 4 := by decide

/-- Every round of every cell has one duty. -/
def Rd : Rounds.Schedule (GSem nD τ sig) Unit 𝕄 where
  duties g r := if g.1.2 = .tc ∧ r < rounds g.2 then {()} else ∅
  unitless _ := False
  amount g _ _ := if g.2 = .reg barS then 1 else if g.2 = .dma sendS.sem ∨ g.2 = .dma recvS.sem then N8 else N1
  payload g r _ :=
    if g.2 = .reg barS then barPay g.1.1
    else if g.2 = .dma recvS.sem then recvPay m g.1.1
    else if g.2 = .dma sendS.sem then sendPay m g.1.1
    else if g.2 = .dma ldS0.sem then ldPay m g.1.1 0 (chunk 0 r)
    else if g.2 = .dma ldS1.sem then ldPay m g.1.1 1 (chunk 1 r)
    else if g.2 = .dma stS0.sem then stPay m g.1.1 0 (chunk 0 r)
    else if g.2 = .dma stS1.sem then stPay m g.1.1 1 (chunk 1 r)
    else iprop(emp)
  amount_pos g _ _ _ := by
    by_cases h : g.2 = .reg barS
    · rw [if_pos h]; exact Nat.one_pos
    · rw [if_neg h]; split
      · exact N8_pos
      · exact N1_pos

instance Rd_payload_storable (g : GSem nD τ sig) (r : ℕ) (d : Unit) :
    BI.Storable (upEmb : UEmb _ 𝕄) ((Rd (F := F) m).payload g r d) := by
  dsimp only [Rd]
  unfold barPay recvPay sendPay ldPay stPay slotHolds landPts sndPts ldPts slotPts stPts
  (repeat' split) <;> infer_instance

section Sched
variable (c : Dev nD)

omit [FloatOps F] in
theorem duties_of (j : Fin 7) (r : ℕ) (h : r < rounds (csem j)) : (Rd (F := F) m).duties (kcell (c, j)) r = {()} := by
  dsimp only [Rd]; exact if_pos ⟨rfl, h⟩
omit [FloatOps F] in
theorem duties_later (j : Fin 7) (R : ℕ) (hR : rounds (csem j) ≤ R) : ∀ r, R ≤ r → (Rd (F := F) m).duties (kcell (c, j)) r = ∅ :=
  fun r hr => by dsimp only [Rd]; exact if_neg fun h => by have := h.2; omega

omit [FloatOps F] in
theorem duties_bar : (Rd (F := F) m).duties (barCell c) 0 = {()} := duties_of m c 0 0 (by decide)
omit [FloatOps F] in
theorem duties_send : (Rd (F := F) m).duties (sendCell c) 0 = {()} := duties_of m c 5 0 (by decide)
omit [FloatOps F] in
theorem duties_recv : (Rd (F := F) m).duties (recvCell c) 0 = {()} := duties_of m c 6 0 (by decide)
omit [FloatOps F] in
theorem duties_ld (i : Fin 2) (r : ℕ) (hr : r < 4) : (Rd (F := F) m).duties (ldCell c i) r = {()} := by
  match i with
  | 0 => exact duties_of m c 1 r (by rw [rounds_csem]; exact hr)
  | 1 => exact duties_of m c 2 r (by rw [rounds_csem]; exact hr)
omit [FloatOps F] in
theorem duties_st (i : Fin 2) (r : ℕ) (hr : r < 4) : (Rd (F := F) m).duties (stCell c i) r = {()} := by
  match i with
  | 0 => exact duties_of m c 3 r (by rw [rounds_csem]; exact hr)
  | 1 => exact duties_of m c 4 r (by rw [rounds_csem]; exact hr)

omit [FloatOps F] in
theorem amount_bar (r : ℕ) (d : Unit) : (Rd (F := F) m).amount (barCell c) r d = 1 := by dsimp only [Rd]; exact if_pos rfl
omit [FloatOps F] in
theorem amount_send (r : ℕ) (d : Unit) : (Rd (F := F) m).amount (sendCell c) r d = N8 := by
  dsimp only [Rd]; rw [if_neg (csem_ne 5 0)]; exact if_pos (.inl rfl)
omit [FloatOps F] in
theorem amount_recv (r : ℕ) (d : Unit) : (Rd (F := F) m).amount (recvCell c) r d = N8 := by
  dsimp only [Rd]; rw [if_neg (csem_ne 6 0)]; exact if_pos (.inr rfl)
omit [FloatOps F] in
theorem amount_ld (i : Fin 2) (r : ℕ) (d : Unit) : (Rd (F := F) m).amount (ldCell c i) r d = N1 := by
  match i with
  | 0 => dsimp only [Rd]; rw [if_neg (csem_ne 1 0), if_neg (fun h => h.elim (csem_ne 1 5) (csem_ne 1 6))]
  | 1 => dsimp only [Rd]; rw [if_neg (csem_ne 2 0), if_neg (fun h => h.elim (csem_ne 2 5) (csem_ne 2 6))]
omit [FloatOps F] in
theorem amount_st (i : Fin 2) (r : ℕ) (d : Unit) : (Rd (F := F) m).amount (stCell c i) r d = N1 := by
  match i with
  | 0 => dsimp only [Rd]; rw [if_neg (csem_ne 3 0), if_neg (fun h => h.elim (csem_ne 3 5) (csem_ne 3 6))]
  | 1 => dsimp only [Rd]; rw [if_neg (csem_ne 4 0), if_neg (fun h => h.elim (csem_ne 4 5) (csem_ne 4 6))]

omit [FloatOps F] in
theorem expect_eq (g : GSem nD τ sig) (r : ℕ) (h : (Rd (F := F) m).duties g r = {()}) : (Rd (F := F) m).expect g r = (Rd (F := F) m).amount g r () := by
  unfold Schedule.expect Schedule.amountOf; rw [h, Finset.sum_singleton]
omit [FloatOps F] in
theorem expect_bar : (Rd (F := F) m).expect (barCell c) 0 = 1 := (expect_eq m _ _ (duties_bar m c)).trans (amount_bar m c 0 ())
omit [FloatOps F] in
theorem expect_send : (Rd (F := F) m).expect (sendCell c) 0 = N8 := (expect_eq m _ _ (duties_send m c)).trans (amount_send m c 0 ())
omit [FloatOps F] in
theorem expect_recv : (Rd (F := F) m).expect (recvCell c) 0 = N8 := (expect_eq m _ _ (duties_recv m c)).trans (amount_recv m c 0 ())
omit [FloatOps F] in
theorem expect_ld (i : Fin 2) (r : ℕ) (hr : r < 4) : (Rd (F := F) m).expect (ldCell c i) r = N1 := (expect_eq m _ _ (duties_ld m c i r hr)).trans (amount_ld m c i r ())
omit [FloatOps F] in
theorem expect_st (i : Fin 2) (r : ℕ) (hr : r < 4) : (Rd (F := F) m).expect (stCell c i) r = N1 := (expect_eq m _ _ (duties_st m c i r hr)).trans (amount_st m c i r ())

omit [FloatOps F] in
theorem payload_bar (r : ℕ) (d : Unit) : (Rd (F := F) m).payload (barCell c) r d = barPay c := by dsimp only [Rd]; exact if_pos rfl
omit [FloatOps F] in
theorem payload_recv (r : ℕ) (d : Unit) : (Rd (F := F) m).payload (recvCell c) r d = recvPay m c := by
  dsimp only [Rd]; rw [if_neg (csem_ne 6 0), if_pos rfl]
omit [FloatOps F] in
theorem payload_send (r : ℕ) (d : Unit) : (Rd (F := F) m).payload (sendCell c) r d = sendPay m c := by
  dsimp only [Rd]; rw [if_neg (csem_ne 5 0), if_neg (csem_ne 5 6), if_pos rfl]
omit [FloatOps F] in
theorem payload_ld (i : Fin 2) (r : ℕ) (d : Unit) : (Rd (F := F) m).payload (ldCell c i) r d = ldPay m c i (chunk i r) := by
  match i with
  | 0 => dsimp only [Rd]; rw [if_neg (csem_ne 1 0), if_neg (csem_ne 1 6), if_neg (csem_ne 1 5), if_pos rfl]
  | 1 => dsimp only [Rd]; rw [if_neg (csem_ne 2 0), if_neg (csem_ne 2 6), if_neg (csem_ne 2 5), if_neg (csem_ne 2 1), if_pos rfl]
omit [FloatOps F] in
theorem payload_st (i : Fin 2) (r : ℕ) (d : Unit) : (Rd (F := F) m).payload (stCell c i) r d = stPay m c i (chunk i r) := by
  match i with
  | 0 => dsimp only [Rd]; rw [if_neg (csem_ne 3 0), if_neg (csem_ne 3 6), if_neg (csem_ne 3 5), if_neg (csem_ne 3 1), if_neg (csem_ne 3 2), if_pos rfl]
  | 1 => dsimp only [Rd]; rw [if_neg (csem_ne 4 0), if_neg (csem_ne 4 6), if_neg (csem_ne 4 5), if_neg (csem_ne 4 1), if_neg (csem_ne 4 2), if_neg (csem_ne 4 3), if_pos rfl]

omit [FloatOps F] in
/-- The rest of a round no duty of which has been taken: its one payload. -/
theorem rest_eq (g : GSem nD τ sig) (r : ℕ) (h : (Rd (F := F) m).duties g r = {()}) :
    bigSep ((Rd (F := F) m).duties g r \ ∅) (fun d => (Rd (F := F) m).payload g r d) = (Rd (F := F) m).payload g r () := by
  rw [Finset.sdiff_empty, h, bigSep_singleton]

end Sched

/-! ## What each device owes at launch; the levels -/

/-- Device c owes its peer's receive cell the transfer's credit and its peer's barrier cell one unit — summed so that
    the signal peels the last summand. -/
def O₁ (c : Dev nD) : CellTallies nD τ sig Unit := tallyAt (recvCell (peer c)) () N8
def O₀ (c : Dev nD) : CellTallies nD τ sig Unit := O₁ c + tallyAt (barCell (peer c)) () 1

def L (g : GSem nD τ sig) : Finset Unit := if g.1.2 = .tc then {()} else ∅
/-- barrier cells at 1, receive cells at 2, everything else at 0. -/
def lv (g : GSem nD τ sig) (_ : Unit) : ℕ := if g.2 = .reg barS then 1 else if g.2 = .dma recvS.sem then 2 else 0

/-! ## The ghost state a device's body starts from -/

/-- The cells' invariants device c's body opens, under the names K the launch allocated them at: its own seven, and its
    peer's barrier cell (its signal) and receive cell (its transfer). -/
def invs (K : Dev nD × Fin 7 → ℕ) (c : Dev nD) : sProp 𝕄 :=
  iprop(cellInv ER (Rd m) (K (c, 0)) (barCell c)
    ∗ cellInv ER (Rd m) (K (c, 1)) (ldCell c 0) ∗ cellInv ER (Rd m) (K (c, 2)) (ldCell c 1)
    ∗ cellInv ER (Rd m) (K (c, 3)) (stCell c 0) ∗ cellInv ER (Rd m) (K (c, 4)) (stCell c 1)
    ∗ cellInv ER (Rd m) (K (c, 5)) (sendCell c) ∗ cellInv ER (Rd m) (K (c, 6)) (recvCell c)
    ∗ cellInv ER (Rd m) (K (peer c, 0)) (barCell (peer c)) ∗ cellInv ER (Rd m) (K (peer c, 6)) (recvCell (peer c)))

instance invs_persistent (K : Dev nD × Fin 7 → ℕ) (c : Dev nD) : BI.Persistent (invs m K c) := by unfold invs; infer_instance

/-- Its positions: round 0 of each of its seven cells. -/
def poss (c : Dev nD) : sProp 𝕄 :=
  iprop(atPos ER (barCell c) 0 ∅ 0
    ∗ atPos ER (ldCell c 0) 0 ∅ 0 ∗ atPos ER (ldCell c 1) 0 ∅ 0 ∗ atPos ER (stCell c 0) 0 ∅ 0 ∗ atPos ER (stCell c 1) 0 ∅ 0
    ∗ atPos ER (sendCell c) 0 ∅ 0 ∗ atPos ER (recvCell c) 0 ∅ 0)

/-- The rounds it knows reached: round 0 of the four local cells, of its send and receive cells, and of the two cells of
    its peer that it pays. -/
def reacheds (c : Dev nD) : sProp 𝕄 :=
  iprop(reached ER (ldCell c 0) 0 ∗ reached ER (ldCell c 1) 0 ∗ reached ER (stCell c 0) 0 ∗ reached ER (stCell c 1) 0
    ∗ reached ER (sendCell c) 0 ∗ reached ER (recvCell c) 0
    ∗ reached ER (barCell (peer c)) 0 ∗ reached ER (recvCell (peer c)) 0)

instance reacheds_persistent (c : Dev nD) : BI.Persistent (reacheds (F := F) c) := by unfold reacheds; infer_instance

/-- The tokens of the duties it pays: its peer's barrier and receive duties, its own send duty, -/
def payToks (c : Dev nD) : sProp 𝕄 :=
  iprop(dutyTok ER (barCell (peer c)) 0 () ∗ dutyTok ER (recvCell (peer c)) 0 () ∗ dutyTok ER (sendCell c) 0 ())
/-- and, by chunk, the eight load duties and the eight store duties of its local cells. -/
def ldToks (c : Dev nD) : sProp 𝕄 :=
  iprop(dutyTok ER (ldCell c 0) 0 ()
    ∗ dutyTok ER (ldCell c 1) 0 ()
    ∗ dutyTok ER (ldCell c 0) 1 ()
    ∗ dutyTok ER (ldCell c 1) 1 ()
    ∗ dutyTok ER (ldCell c 0) 2 ()
    ∗ dutyTok ER (ldCell c 1) 2 ()
    ∗ dutyTok ER (ldCell c 0) 3 ()
    ∗ dutyTok ER (ldCell c 1) 3 ())
def stToks (c : Dev nD) : sProp 𝕄 :=
  iprop(dutyTok ER (stCell c 0) 0 ()
    ∗ dutyTok ER (stCell c 1) 0 ()
    ∗ dutyTok ER (stCell c 0) 1 ()
    ∗ dutyTok ER (stCell c 1) 1 ()
    ∗ dutyTok ER (stCell c 0) 2 ()
    ∗ dutyTok ER (stCell c 1) 2 ()
    ∗ dutyTok ER (stCell c 0) 3 ()
    ∗ dutyTok ER (stCell c 1) 3 ())

def ghost (K : Dev nD × Fin 7 → ℕ) (c : Dev nD) : sProp 𝕄 :=
  iprop(invs m K c ∗ poss c ∗ reacheds c ∗ payToks c ∗ ldToks c ∗ stToks c)

/-- What device c's body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N8) ∗ levAts L lv)

/-- Before the point: that, its rows of the array, its result at any contents, its scratch at any contents. -/
def Φ₀ (c : Dev nD) : sProp 𝕄 :=
  iprop(start m c ∗ (((c : Thread nD τ).loc main_arg0) ↦{fullShare} xC m c)
    ∗ (∃ f : Buf (Elt F) ((c : Thread nD τ).loc main_v1), ((c : Thread nD τ).loc main_v1) ↦{fullShare} f)
    ∗ (∃ f : Buf (Elt F) ((c : Thread nD τ).loc cc0_scratch0), ((c : Thread nD τ).loc cc0_scratch0) ↦{fullShare} f))
/-- After it: its rows unchanged, its result at its final contents, its scratch, and its six own cells at zero, closed. -/
def Φ₁ (c : Dev nD) : sProp 𝕄 :=
  iprop((((c : Thread nD τ).loc main_arg0) ↦{fullShare} xC m c)
    ∗ (((c : Thread nD τ).loc main_v1) ↦{fullShare} outFinal m c)
    ∗ (∃ f : Buf (Elt F) ((c : Thread nD τ).loc cc0_scratch0), ((c : Thread nD τ).loc cc0_scratch0) ↦{fullShare} f)
    ∗ semVal (ldCell c 0) 0 ∗ semVal (ldCell c 1) 0 ∗ semVal (stCell c 0) 0 ∗ semVal (stCell c 1) 0
    ∗ semVal (sendCell c) 0 ∗ semVal (recvCell c) 0)

/-! ## The pipeline's proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's interface

The buffers arrive whole and are cut into the pieces the transfers move; the body runs over the pieces; the pieces are
joined again. `bodyPre` / `bodyPost` are the body's triple over the pieces. -/

/-- The pieces of the array: the columns sent, and the eight chunks kept. -/
def xParts (c : Dev nD) : sProp 𝕄 :=
  iprop(sndPts m c ∗ ldPts m c 0 ∗ ldPts m c 1 ∗ ldPts m c 2 ∗ ldPts m c 3 ∗ ldPts m c 4 ∗ ldPts m c 5 ∗ ldPts m c 6 ∗ ldPts m c 7)
/-- The pieces of the result at contents f: the rows the peer fills, and the eight chunks the device fills. -/
def oParts (c : Dev nD) (f : Buf (Elt F) ((c : Thread nD τ).loc main_v1)) : sProp 𝕄 :=
  iprop(landPts (peer c) c f ∗ stPts c 0 f ∗ stPts c 1 f ∗ stPts c 2 f ∗ stPts c 3 f ∗ stPts c 4 f ∗ stPts c 5 f ∗ stPts c 6 f ∗ stPts c 7 f)
/-- The two slots of the scratch at contents f. -/
def vParts (c : Dev nD) (f : Buf (Elt F) ((c : Thread nD τ).loc cc0_scratch0)) : sProp 𝕄 :=
  iprop(slotPts c 0 f ∗ slotPts c 1 f)

def bodyPre (K : Dev nD × Fin 7 → ℕ) (c : Dev nD) : sProp 𝕄 :=
  iprop(ghost m K c ∗ cred (tallyAt (barCell c) () 1) ∗ cred (tallyAt (recvCell c) () N8) ∗ levAts L lv
    ∗ (dats m 0 c).owesAt () t₀.castSucc
    ∗ xParts m c ∗ (∃ f, oParts c f) ∗ (∃ f, vParts c f))

def bodyPost (c : Dev nD) : sProp 𝕄 :=
  iprop((dats m 0 c).owesAt () t₀.succ
    ∗ xParts m c ∗ oParts c (outFinal m c) ∗ (∃ f₀, slotPts c 0 f₀) ∗ (∃ f₁, slotPts c 1 f₁)
    ∗ semVal (ldCell c 0) 0 ∗ semVal (ldCell c 1) 0 ∗ semVal (stCell c 0) 0 ∗ semVal (stCell c 1) 0
    ∗ semVal (sendCell c) 0 ∗ semVal (recvCell c) 0)

/-- The body as the pipeline calls it. -/
abbrev theBody : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) cc0_scratch1 cc0_scratch2 cc0_scratch3 cc0_scratch4

end Cert.KernelIdealProof

end
-- ==== Proof.KernelIdeal.Geom.lean ====
/-
  The geometry of the transfers: where each memref's indices sit in its buffer, and what each transfer's landing
  writes, read at an index.
-/
import proofs.«900632_g7700000000000633_dist_a2a_v7x_xyz2x2x2_z_m8192_n1024_f32_1_alg».proof.Proof.KernelIdeal.Proto
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots, by number -/

omit [FloatOps F] in
theorem slotPts_zero (c : Dev nD) (f : Buf (Elt F) ((c : Thread nD τ).loc cc0_scratch0)) :
    (slotPts c 0 f : sProp 𝕄) = (slot0.view.loc (c : Thread nD τ) ↦[slot0.view.set]{fullShare} f) := rfl
omit [FloatOps F] in
theorem slotPts_one (c : Dev nD) (f : Buf (Elt F) ((c : Thread nD τ).loc cc0_scratch0)) :
    (slotPts c 1 f : sProp 𝕄) = (slot1.view.loc (c : Thread nD τ) ↦[slot1.view.set]{fullShare} f) := rfl
omit [FloatOps F] in
theorem slotRead_zero (c : Dev nD) (f : Buf (Elt F) ((c : Thread nD τ).loc cc0_scratch0)) :
    slotRead c 0 f = slot0.view.read (Elt F) f := rfl
omit [FloatOps F] in
theorem slotRead_one (c : Dev nD) (f : Buf (Elt F) ((c : Thread nD τ).loc cc0_scratch0)) :
    slotRead c 1 f = slot1.view.read (Elt F) f := rfl

/-! ## Where each memref's indices sit, by coordinates -/

omit [FloatOps F] in
theorem stDst_emb (c : Dev nD) (k : Fin 8) (y : S1024x1024.Idx) :
    (((stDst c k).view.emb y : S16384x1024.Idx) 0 : ℕ) = 8192 * (c.val % 2) + 1024 * k.val + (y 0).val
      ∧ (((stDst c k).view.emb y : S16384x1024.Idx) 1 : ℕ) = (y 1).val := by
  constructor
  · show (k0_off5 c (BitVec.ofNat 32 (1024 * k.val))) 0 + 1 * (y 0).val = _
    rw [k0_off5_eq]; show 8192 * (c.val % 2) + 1024 * k.val + 1 * (y 0).val = _; omega
  · show (k0_off5 c (BitVec.ofNat 32 (1024 * k.val))) 1 + 1 * (y 1).val = _
    rw [k0_off5_eq]; show 0 + 1 * (y 1).val = _; omega

omit [FloatOps F] in
theorem ldSrc_emb (c : Dev nD) (k : Fin 8) (y : S1024x1024.Idx) :
    (((ldSrc c k).view.emb y : S8192x2048.Idx) 0 : ℕ) = 1024 * k.val + (y 0).val
      ∧ (((ldSrc c k).view.emb y : S8192x2048.Idx) 1 : ℕ) = 1024 * (c.val % 2) + (y 1).val := by
  constructor
  · show (ldOff c k) 0 + 1 * (y 0).val = _
    rw [ldOff_eq]; show 1024 * k.val + 1 * (y 0).val = _; omega
  · show (ldOff c k) 1 + 1 * (y 1).val = _
    rw [ldOff_eq]; show 1024 * (c.val % 2) + 1 * (y 1).val = _; omega

omit [FloatOps F] in
theorem sndDst_emb (c : Dev nD) (y : S8192x1024.Idx) :
    (((sndDst c).view.emb y : S16384x1024.Idx) 0 : ℕ) = 8192 * (c.val % 2) + (y 0).val
      ∧ (((sndDst c).view.emb y : S16384x1024.Idx) 1 : ℕ) = (y 1).val := by
  constructor
  · show (k0_off1 c) 0 + 1 * (y 0).val = _
    rw [k0_off1_eq]; show 8192 * (c.val % 2) + 1 * (y 0).val = _; omega
  · show (k0_off1 c) 1 + 1 * (y 1).val = _
    rw [k0_off1_eq]; show 0 + 1 * (y 1).val = _; omega

omit [FloatOps F] in
theorem sndSrc_emb (c : Dev nD) (y : S8192x1024.Idx) :
    (((sndSrc c).view.emb y : S8192x2048.Idx) 0 : ℕ) = (y 0).val
      ∧ (((sndSrc c).view.emb y : S8192x2048.Idx) 1 : ℕ) = 1024 - 1024 * (c.val % 2) + (y 1).val := by
  constructor
  · show (k0_off2 c) 0 + 1 * (y 0).val = _
    rw [k0_off2_eq]; show 0 + 1 * (y 0).val = _; omega
  · show (k0_off2 c) 1 + 1 * (y 1).val = _
    rw [k0_off2_eq]; show 1024 - 1024 * (c.val % 2) + 1 * (y 1).val = _; omega

omit [FloatOps F] in
/-- Two indices of the array with the same coordinates are the same. -/
theorem idx2_ext {n0 n1 : ℕ} (i j : (⟨2, ![n0, n1]⟩ : Shape).Idx) (h0 : (i 0).val = (j 0).val) (h1 : (i 1).val = (j 1).val) : i = j := by
  funext a; match a with
  | ⟨0, _⟩ => exact Fin.ext h0
  | ⟨1, _⟩ => exact Fin.ext h1

omit [FloatOps F] in
/-- A chunk store writes the chunk's final contents. -/
theorem st_val (c : Dev nD) (k : Fin 8) (fd : Buf (Elt F) ((c : Thread nD τ).loc main_v1)) (w : S1024x1024.Idx → Elt F .f32)
    (hw : w = (ldSrc c k).view.read (Elt F) (xC m c)) :
    ∀ i ∈ (stDst c k).view.set, (stDst c k).view.write (Elt F) fd w Finset.univ i = outFinal m c i := by
  intro i hi
  obtain ⟨y, rfl⟩ := View.exists_emb_of_mem_set _ hi
  rw [View.write_emb_of_mem _ _ (Finset.mem_univ y), hw, View.read_apply]
  obtain ⟨d0, d1⟩ := stDst_emb c k y
  obtain ⟨s0, s1⟩ := ldSrc_emb c k y
  have y0 : (y 0).val < 1024 := ValueIdx.idx2_lt0 y
  have y1 : (y 1).val < 1024 := ValueIdx.idx2_lt1 y
  have hz := mod_two_le c
  have hk : k.val < 8 := k.isLt
  unfold outFinal
  rw [dif_pos ⟨by omega, by omega⟩]
  rw [cast_cast, cast_eq]
  congr 1
  refine idx2_ext _ _ ?_ ?_
  · show _ = (((stDst c k).view.emb y : S16384x1024.Idx) 0 : ℕ) - 8192 * (c.val % 2); omega
  · show _ = 1024 * (c.val % 2) + (((stDst c k).view.emb y : S16384x1024.Idx) 1 : ℕ); omega

omit [FloatOps F] in
theorem xC_peer_peer (c : Dev nD) (d : Dev nD) (hd : d = c) (j : S8192x2048.Idx) : xC m d j = xC m c j := by
  subst hd; rfl

omit [FloatOps F] in
/-- The remote transfer writes the final contents of the peer's other rows. -/
theorem land_val (c : Dev nD) (fd : Buf (Elt F) ((sndDst c).view.loc (peer c : Thread nD τ))) :
    ∀ i ∈ (sndDst c).view.set,
      (sndDst c).view.write (Elt F) fd ((sndSrc c).view.read (Elt F) (xC m c)) Finset.univ i = outFinal m (peer c) i := by
  intro i hi
  obtain ⟨y, rfl⟩ := View.exists_emb_of_mem_set _ hi
  rw [View.write_emb_of_mem _ _ (Finset.mem_univ y), View.read_apply]
  obtain ⟨d0, d1⟩ := sndDst_emb c y
  obtain ⟨s0, s1⟩ := sndSrc_emb c y
  have y0 : (y 0).val < 8192 := ValueIdx.idx2_lt0 y
  have y1 : (y 1).val < 1024 := ValueIdx.idx2_lt1 y
  have hz := mod_two_le c
  have hp := peer_mod c
  unfold outFinal
  rw [dif_neg (by omega)]
  rw [cast_cast, cast_eq, xC_peer_peer m c (peer (peer c)) (peer_peer c)]
  congr 1
  refine idx2_ext _ _ ?_ ?_
  · show _ = (((sndDst c).view.emb y : S16384x1024.Idx) 0 : ℕ) - (8192 - 8192 * ((peer c).val % 2)); omega
  · show _ = 1024 * ((peer c).val % 2) + (((sndDst c).view.emb y : S16384x1024.Idx) 1 : ℕ); omega

/-! ## What each landing leaves -/

omit [FloatOps F] in
/-- The remote transfer's landing: the peer's other rows now hold their final contents, whatever they held. -/
theorem land_pay (c : Dev nD) (fd : Buf (Elt F) ((sndDst c).view.loc (peer c : Thread nD τ))) :
    (((sndDst c).view.loc (peer c : Thread nD τ) ↦[(sndDst c).view.set]{fullShare}
        ((sndDst c).view.write (Elt F) fd ((sndSrc c).view.read (Elt F) (xC m c)) Finset.univ)) : sProp 𝕄)
      ⊢ recvPay m (peer c) := by
  unfold recvPay
  rw [peer_peer]
  unfold landPts
  rw [pointsTo_congr (land_val m c fd)]

omit [FloatOps F] in
/-- A load's landing in slot 0: the slot shows the chunk, and the chunk's source comes back. -/
theorem ld_pay0 (c : Dev nD) (k : Fin 8) (fd : Buf (Elt F) ((c : Thread nD τ).loc cc0_scratch0)) :
    iprop((slot0.view.loc (c : Thread nD τ) ↦[slot0.view.set]{fullShare}
          (slot0.view.write (Elt F) fd ((ldSrc c k).view.read (Elt F) (xC m c)) Finset.univ))
        ∗ ((ldSrc c k).view.loc (c : Thread nD τ) ↦[(ldSrc c k).view.set]{fullShare} xC m c))
      ⊢ (ldPay m c 0 k : sProp 𝕄) := by
  unfold ldPay slotHolds ldPts
  iintro ⟨H1, H2⟩
  isplitl [H1]
  · iexists (slot0.view.write (Elt F) fd ((ldSrc c k).view.read (Elt F) (xC m c)) Finset.univ)
    rw [slotPts_zero, slotRead_zero]
    isplitl [H1]
    · iexact H1
    · ipureintro; exact View.read_write_univ _ _
  · iexact H2

omit [FloatOps F] in
theorem ld_pay1 (c : Dev nD) (k : Fin 8) (fd : Buf (Elt F) ((c : Thread nD τ).loc cc0_scratch0)) :
    iprop((slot1.view.loc (c : Thread nD τ) ↦[slot1.view.set]{fullShare}
          (slot1.view.write (Elt F) fd ((ldSrc c k).view.read (Elt F) (xC m c)) Finset.univ))
        ∗ ((ldSrc c k).view.loc (c : Thread nD τ) ↦[(ldSrc c k).view.set]{fullShare} xC m c))
      ⊢ (ldPay m c 1 k : sProp 𝕄) := by
  unfold ldPay slotHolds ldPts
  iintro ⟨H1, H2⟩
  isplitl [H1]
  · iexists (slot1.view.write (Elt F) fd ((ldSrc c k).view.read (Elt F) (xC m c)) Finset.univ)
    rw [slotPts_one, slotRead_one]
    isplitl [H1]
    · iexact H1
    · ipureintro; exact View.read_write_univ _ _
  · iexact H2

omit [FloatOps F] in
/-- A store's landing from slot 0 showing chunk k: the result's chunk k holds its final contents, and the slot comes back. -/
theorem st_pay0 (c : Dev nD) (k : Fin 8) (f : Buf (Elt F) ((c : Thread nD τ).loc cc0_scratch0))
    (fd : Buf (Elt F) ((c : Thread nD τ).loc main_v1))
    (hf : slotRead c 0 f = (ldSrc c k).view.read (Elt F) (xC m c)) :
    iprop(((stDst c k).view.loc (c : Thread nD τ) ↦[(stDst c k).view.set]{fullShare}
          ((stDst c k).view.write (Elt F) fd (slot0.view.read (Elt F) f) Finset.univ))
        ∗ (slot0.view.loc (c : Thread nD τ) ↦[slot0.view.set]{fullShare} f))
      ⊢ (stPay m c 0 k : sProp 𝕄) := by
  unfold stPay stPts
  rw [pointsTo_congr (st_val m c k fd (slot0.view.read (Elt F) f) hf)]
  iintro ⟨H1, H2⟩
  isplitl [H1]
  · iexact H1
  · iexists f; rw [slotPts_zero]; iexact H2

omit [FloatOps F] in
theorem st_pay1 (c : Dev nD) (k : Fin 8) (f : Buf (Elt F) ((c : Thread nD τ).loc cc0_scratch0))
    (fd : Buf (Elt F) ((c : Thread nD τ).loc main_v1))
    (hf : slotRead c 1 f = (ldSrc c k).view.read (Elt F) (xC m c)) :
    iprop(((stDst c k).view.loc (c : Thread nD τ) ↦[(stDst c k).view.set]{fullShare}
          ((stDst c k).view.write (Elt F) fd (slot1.view.read (Elt F) f) Finset.univ))
        ∗ (slot1.view.loc (c : Thread nD τ) ↦[slot1.view.set]{fullShare} f))
      ⊢ (stPay m c 1 k : sProp 𝕄) := by
  unfold stPay stPts
  rw [pointsTo_congr (st_val m c k fd (slot1.view.read (Elt F) f) hf)]
  iintro ⟨H1, H2⟩
  isplitl [H1]
  · iexact H1
  · iexists f; rw [slotPts_one]; iexact H2

/-- info: 'Cert.KernelIdealProof.land_pay' depends on axioms: [propext, Classical.choice, Quot.sound] -/
#guard_msgs in #print axioms land_pay
/-- info: 'Cert.KernelIdealProof.ld_pay0' depends on axioms: [propext, Classical.choice, Quot.sound] -/
#guard_msgs in #print axioms ld_pay0
/-- info: 'Cert.KernelIdealProof.ld_pay1' depends on axioms: [propext, Classical.choice, Quot.sound] -/
#guard_msgs in #print axioms ld_pay1
/-- info: 'Cert.KernelIdealProof.st_pay0' depends on axioms: [propext, Classical.choice, Quot.sound] -/
#guard_msgs in #print axioms st_pay0
/-- info: 'Cert.KernelIdealProof.st_pay1' depends on axioms: [propext, Classical.choice, Quot.sound] -/
#guard_msgs in #print axioms st_pay1

end Cert.KernelIdealProof

end
-- ==== Proof.KernelIdeal.Remote.lean ====
/-
  The three steps of the body that reach the peer: the signal to the peer's barrier cell, the wait on the device's own,
  and the transfer into the peer's result rows.
-/
import proofs.«900632_g7700000000000633_dist_a2a_v7x_xyz2x2x2_z_m8192_n1024_f32_1_alg».proof.Proof.KernelIdeal.Geom

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- At its barrier wait a device owes its peer's receive credit only: a receive cell, above its barrier cell. -/
theorem mayWait_bar (c : Dev nD) :
    (levAts L lv : sProp 𝕄) ⊢ MayWait (c : Thread nD τ) (.reg barS) () (O₁ c) := by
  have hL : ∀ d : Dev nD, ∀ sm : SemLoc sig, () ∈ L (((d : Thread nD τ), sm) : GSem nD τ sig) := fun d sm => by
    unfold L; rw [if_pos rfl]; exact Finset.mem_singleton_self _
  refine Pipeline.mayWait_of_levAts (hL c _) fun g i h => ?_
  have h' : 0 < (tallyAt (recvCell (peer c)) () N8 : CellTallies nD τ sig Unit) g i := h
  obtain ⟨rfl, rfl⟩ := Pipeline.tallyAt_pos h'
  refine ⟨hL (peer c) _, ?_⟩
  show lv (barCell c) () < lv (recvCell (peer c)) ()
  unfold lv
  rw [if_pos rfl, if_neg (csem_ne 6 0), if_pos rfl]
  exact Nat.lt_succ_self 1

section Steps

/-- The signal to the peer's barrier cell: it hands the peer this device's landing rows (at whatever they hold) and that
    this device has reached round 0 of its receive cell; the device then owes the transfer's credit only. -/
theorem wp_signal_peer {α : Type} {Q : α → sProp 𝕄} {k : PUnit → Prog (TpuEff nD τ sig (Elt F) Λ₀ .tc) α} (c : Dev nD) (κ : ℕ) (f : Buf (Elt F) ((c : Thread nD τ).loc main_v1)) {W : Waits sig Unit} :
    iprop(cellInv ER (Rd m) κ (barCell (peer c)) ∗ owes (c : Thread nD τ) (O₀ c) W ∗ dutyTok ER (barCell (peer c)) 0 ()
        ∗ landPts (peer c) c f ∗ reached ER (recvCell c) 0 ∗ reached ER (barCell (peer c)) 0)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (((⟨k0_dev1 c, k0_dev1_lt c⟩ : Dev nD) : Thread nD τ)) barS (1#32 : BitVec 32).toNat) k) Q) := by
  rw [dev1_eq, show (1#32 : BitVec 32).toNat = 1 from rfl]
  have hpay : (Rd m).payload (barCell (peer c)) 0 () = iprop((∃ f, landPts (peer c) c f) ∗ reached ER (recvCell c) 0) := by
    rw [payload_bar]; unfold barPay; rw [peer_peer]
  have key := Rounds.wp_signal (defs := defs₀ (F := F)) 𝒱₀ ER (Rd m) (c : Thread nD τ) none (Γ := .empty) (Q := Q)
    (dst := (peer c : Thread nD τ)) (sem := barS) (r := 0) (d := ()) (k' := 1) (k := k) (κ := κ)
    (by rw [duties_bar]; exact Finset.mem_singleton_self _) (amount_bar m (peer c) 0 ()) () (O₀ := O₀ c) (O₁ c) rfl (W := W) (Es := Set.univ)
  rw [hpay] at key
  iintro ⟨Hinv, Howes, Htok, Hland, Hr1, Hr2⟩
  iapply key
  isplitl [Hinv]; · iexact Hinv
  isplitl [Howes]; · iexact Howes
  isplitl [Htok]; · iexact Htok
  isplitl [Hland Hr1]
  · isplitl [Hland]
    · iexists f; iexact Hland
    · iexact Hr1
  · iexact Hr2

/-- The wait on the device's own barrier cell, owing the transfer's credit: the peer's landing rows come with it. -/
theorem wp_bar_wait {α : Type} {Q : α → sProp 𝕄} {k : PUnit → Prog (TpuEff nD τ sig (Elt F) Λ₀ .tc) α} (c : Dev nD) (κ : ℕ) {W : Waits sig Unit} :
    iprop(cellInv ER (Rd m) κ (barCell c) ∗ cred (tallyAt (barCell c) () 1) ∗ owes (c : Thread nD τ) (O₁ c) W ∗ levAts L lv
        ∗ atPos ER (barCell c) 0 ∅ 0)
      ⊢ iprop(((owes (c : Thread nD τ) (O₁ c) (insert (SemLoc.reg barS, ()) W) ∗ atPos ER (barCell c) 1 ∅ 0 ∗ reached ER (barCell c) 1 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32 : BitVec 32).toNat) k) Q) := by
  rw [show (1#32 : BitVec 32).toNat = 1 from rfl]
  have key := Rounds.wp_wait_rest_token (defs := defs₀ (F := F)) 𝒱₀ ER (Rd m) (c : Thread nD τ) none (Γ := .empty) (Q := Q)
    (w := .semWait barS 1) (sm := .reg barS) (k' := 1) (Es := Set.univ) (κ := κ)
    (fun K => wpE_semWait_eq (defs := defs₀ (F := F)) 𝒱₀ (c : Thread nD τ) none Set.univ K) (Set.mem_univ κ) (k := k) () (O := O₁ c) (W := W) (R := 0) (m := 0) (T := ∅)
    (by rw [expect_bar])
  rw [rest_eq m _ _ (duties_bar m c), payload_bar] at key
  iintro ⟨Hinv, Hcred, Howes, Hlev, Hat⟩
  iapply key
  isplitl [Hinv]; · iexact Hinv
  isplitl [Hcred]; · iexact Hcred
  isplitl [Howes]; · iexact Howes
  isplitl [Hlev]
  · iapply (mayWait_bar c); iexact Hlev
  · iexact Hat

/-- The transfer, at a device n that is the peer. -/
theorem wp_send_at {α : Type} {Q : α → sProp 𝕄} {k : PUnit → Prog (TpuEff nD τ sig (Elt F) Λ₀ .tc) α} (c n : Dev nD) (hn : n = peer c) (κ₁ κ₂ : ℕ)
    (fd : Buf (Elt F) ((peer c : Thread nD τ).loc main_v1)) {W : Waits sig Unit}
    {hsc : (sndDst c : Memref sig (Dev.tc n : Thread nD τ).2.kind .hbm S8192x1024 .f32).view.ref.isScScratch = false}
    {hsrc : (sndSrc c).view.WordExact} {hdst : (sndDst c).view.WordExact}
    {hsem : DmaTarget.Typed .hbm (.dma recvS.sem) (.remote (Dev.tc n : Thread nD τ) (sndDst c) (.dma sendS.sem) hsc)} :
    iprop(cellInv ER (Rd m) κ₁ (sendCell c) ∗ cellInv ER (Rd m) κ₂ (recvCell (peer c))
        ∗ sndPts m c ∗ landPts c (peer c) fd
        ∗ owes (c : Thread nD τ) (O₁ c) W
        ∗ dutyTok ER (sendCell c) 0 () ∗ reached ER (sendCell c) 0
        ∗ dutyTok ER (recvCell (peer c)) 0 () ∗ reached ER (recvCell (peer c)) 0)
      ⊢ iprop(((cred (tallyAt (sendCell c) () N8) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSrc c) (.remote (Dev.tc n : Thread nD τ) (sndDst c) (.dma sendS.sem) hsc)
                (.dma recvS.sem) hsrc hdst hsem) k) Q) := by
  subst hn
  unfold sndPts landPts
  exact Rounds.wp_send_pointsTo (defs := defs₀ (F := F)) 𝒱₀ ER (Rd m) (c : Thread nD τ) none (Γ := .empty) (Q := Q)
    (c' := (peer c : Thread nD τ)) (src := sndSrc c) (dst := sndDst c) (hsc := hsc) (sS := .dma sendS.sem) (sem := .dma recvS.sem)
    (hsrc := hsrc) (hdst := hdst) (hsem := hsem) (k := k) (q := fullShare) (fs := xC m c) (fd := fd)
    (r₁ := 0) (r₂ := 0) (d₁ := ()) (d₂ := ()) (κ₁ := κ₁) (κ₂ := κ₂)
    (by rw [duties_send]; exact Finset.mem_singleton_self _) (by rw [duties_recv]; exact Finset.mem_singleton_self _)
    () () N8 rfl (amount_send m c 0 ()) (amount_recv m (peer c) 0 ()) (O₀ := O₁ c) 0 (zero_add _).symm (W := W)
    (by rw [payload_send]; exact Entails.refl _)
    (by rw [payload_recv]; exact land_pay m c fd) (Es := Set.univ)

/-- The transfer into the peer's result rows: the sent columns go away until the send cell's wait, the peer's rows until
    the peer's receive wait; the device then owes nothing. -/
theorem wp_send_peer {α : Type} {Q : α → sProp 𝕄} {k : PUnit → Prog (TpuEff nD τ sig (Elt F) Λ₀ .tc) α} (c : Dev nD) (κ₁ κ₂ : ℕ) (fd : Buf (Elt F) ((peer c : Thread nD τ).loc main_v1)) {W : Waits sig Unit}
    {hsc : (sndDst c : Memref sig (Dev.tc (⟨k0_dev2 c, k0_dev2_lt c⟩ : Dev nD) : Thread nD τ).2.kind .hbm S8192x1024 .f32).view.ref.isScScratch = false}
    {hsrc : (sndSrc c).view.WordExact} {hdst : (sndDst c).view.WordExact}
    {hsem : DmaTarget.Typed .hbm (.dma recvS.sem) (.remote (Dev.tc (⟨k0_dev2 c, k0_dev2_lt c⟩ : Dev nD) : Thread nD τ) (sndDst c) (.dma sendS.sem) hsc)} :
    iprop(cellInv ER (Rd m) κ₁ (sendCell c) ∗ cellInv ER (Rd m) κ₂ (recvCell (peer c))
        ∗ sndPts m c ∗ landPts c (peer c) fd
        ∗ owes (c : Thread nD τ) (O₁ c) W
        ∗ dutyTok ER (sendCell c) 0 () ∗ reached ER (sendCell c) 0
        ∗ dutyTok ER (recvCell (peer c)) 0 () ∗ reached ER (recvCell (peer c)) 0)
      ⊢ iprop(((cred (tallyAt (sendCell c) () N8) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSrc c) (.remote (Dev.tc (⟨k0_dev2 c, k0_dev2_lt c⟩ : Dev nD) : Thread nD τ) (sndDst c) (.dma sendS.sem) hsc)
                (.dma recvS.sem) hsrc hdst hsem) k) Q) :=
  wp_send_at m c ⟨k0_dev2 c, k0_dev2_lt c⟩ (dev2_eq c) κ₁ κ₂ fd

end Steps

/-- info: 'Cert.KernelIdealProof.mayWait_bar' depends on axioms: [propext, Classical.choice, Quot.sound] -/
#guard_msgs in #print axioms mayWait_bar
/-- info: 'Cert.KernelIdealProof.wp_signal_peer' depends on axioms: [propext, Classical.choice, Quot.sound] -/
#guard_msgs in #print axioms wp_signal_peer
/-- info: 'Cert.KernelIdealProof.wp_bar_wait' depends on axioms: [propext, Classical.choice, Quot.sound] -/
#guard_msgs in #print axioms wp_bar_wait
/-- info: 'Cert.KernelIdealProof.wp_send_peer' depends on axioms: [propext, Classical.choice, Quot.sound] -/
#guard_msgs in #print axioms wp_send_peer

end Cert.KernelIdealProof

end
-- ==== Proof.KernelIdeal.Steps.lean ====
/-
  The rules for the local copies through the two scratch slots and for a wait on one of the device's own DMA cells,
  at this protocol's cells.
-/
import proofs.«900632_g7700000000000633_dist_a2a_v7x_xyz2x2x2_z_m8192_n1024_f32_1_alg».proof.Proof.KernelIdeal.Remote

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rules at this protocol's cells -/

section Steps

/-- A load into slot 0, round r of its cell: chunk `chunk 0 r` of the kept columns goes into the slot. -/
theorem wp_ld0 {α : Type} {Q : α → sProp 𝕄} {k : PUnit → Prog (TpuEff nD τ sig (Elt F) Λ₀ .tc) α} (c : Dev nD) (r : ℕ) (hr : r < 4) (k' : Fin 8) (κ : ℕ) (fd : Buf (Elt F) ((c : Thread nD τ).loc cc0_scratch0)) (hk : chunk 0 r = k')
    {hsrc : (ldSrc c k').view.WordExact} {hdst : (slot0 : Memref sig .tc .vmem S1024x1024 .f32).view.WordExact}
    {hsem : DmaTarget.Typed (nD := nD) .hbm (.dma ldS0.sem) (.here slot0 : DmaTarget nD τ sig Proc.tc .vmem S1024x1024 .f32)} :
    iprop(cellInv ER (Rd m) κ (ldCell c 0) ∗ ldPts m c k' ∗ slotPts c 0 fd
        ∗ dutyTok ER (ldCell c 0) r () ∗ reached ER (ldCell c 0) r)
      ⊢ iprop((cred (tallyAt (ldCell c 0) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ldSrc c k') (.here slot0) (.dma ldS0.sem) hsrc hdst hsem) k) Q) := by
  unfold ldPts
  show iprop(cellInv ER (Rd m) κ (ldCell c 0) ∗ ((ldSrc c k').view.loc (c : Thread nD τ) ↦[(ldSrc c k').view.set]{fullShare} xC m c)
        ∗ (slot0.view.loc (c : Thread nD τ) ↦[slot0.view.set]{fullShare} fd)
        ∗ dutyTok ER (ldCell c 0) r () ∗ reached ER (ldCell c 0) r) ⊢ _
  exact Rounds.wp_copy_pointsTo 𝒱₀ ER (Rd m) (c : Thread nD τ) none (src := ldSrc c k') (dst := slot0) (sem := .dma ldS0.sem) (q := fullShare) (fs := xC m c) (κ := κ) (r := r) (d := ()) (fd := fd)
    (by rw [duties_ld m c 0 r hr]; exact Finset.mem_singleton_self _) () N1 rfl (amount_ld m c 0 r ())
    ((ld_pay0 m c k' fd).trans (Entails.of_eq (by rw [← hk]; exact (payload_ld m c 0 r ()).symm)))

theorem wp_ld1 {α : Type} {Q : α → sProp 𝕄} {k : PUnit → Prog (TpuEff nD τ sig (Elt F) Λ₀ .tc) α} (c : Dev nD) (r : ℕ) (hr : r < 4) (k' : Fin 8) (κ : ℕ) (fd : Buf (Elt F) ((c : Thread nD τ).loc cc0_scratch0)) (hk : chunk 1 r = k')
    {hsrc : (ldSrc c k').view.WordExact} {hdst : (slot1 : Memref sig .tc .vmem S1024x1024 .f32).view.WordExact}
    {hsem : DmaTarget.Typed (nD := nD) .hbm (.dma ldS1.sem) (.here slot1 : DmaTarget nD τ sig Proc.tc .vmem S1024x1024 .f32)} :
    iprop(cellInv ER (Rd m) κ (ldCell c 1) ∗ ldPts m c k' ∗ slotPts c 1 fd
        ∗ dutyTok ER (ldCell c 1) r () ∗ reached ER (ldCell c 1) r)
      ⊢ iprop((cred (tallyAt (ldCell c 1) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ldSrc c k') (.here slot1) (.dma ldS1.sem) hsrc hdst hsem) k) Q) := by
  unfold ldPts
  show iprop(cellInv ER (Rd m) κ (ldCell c 1) ∗ ((ldSrc c k').view.loc (c : Thread nD τ) ↦[(ldSrc c k').view.set]{fullShare} xC m c)
        ∗ (slot1.view.loc (c : Thread nD τ) ↦[slot1.view.set]{fullShare} fd)
        ∗ dutyTok ER (ldCell c 1) r () ∗ reached ER (ldCell c 1) r) ⊢ _
  exact Rounds.wp_copy_pointsTo 𝒱₀ ER (Rd m) (c : Thread nD τ) none (src := ldSrc c k') (dst := slot1) (sem := .dma ldS1.sem) (q := fullShare) (fs := xC m c) (κ := κ) (r := r) (d := ()) (fd := fd)
    (by rw [duties_ld m c 1 r hr]; exact Finset.mem_singleton_self _) () N1 rfl (amount_ld m c 1 r ())
    ((ld_pay1 m c k' fd).trans (Entails.of_eq (by rw [← hk]; exact (payload_ld m c 1 r ()).symm)))

/-- A store out of slot 0 showing chunk `chunk 0 r`, round r of its cell: the result's chunk gets its final contents. -/
theorem wp_st0 {α : Type} {Q : α → sProp 𝕄} {k : PUnit → Prog (TpuEff nD τ sig (Elt F) Λ₀ .tc) α} (c : Dev nD) (r : ℕ) (hr : r < 4) (k' : Fin 8) (κ : ℕ) (f : Buf (Elt F) ((c : Thread nD τ).loc cc0_scratch0))
    (fd : Buf (Elt F) ((c : Thread nD τ).loc main_v1))
    (hk : chunk 0 r = k') (hf : slotRead c 0 f = (ldSrc c k').view.read (Elt F) (xC m c))
    {hsrc : (slot0 : Memref sig .tc .vmem S1024x1024 .f32).view.WordExact} {hdst : (stDst c k').view.WordExact}
    {hsem : DmaTarget.Typed (nD := nD) .vmem (.dma stS0.sem) (.here (stDst c k') : DmaTarget nD τ sig Proc.tc .hbm S1024x1024 .f32)} :
    iprop(cellInv ER (Rd m) κ (stCell c 0) ∗ slotPts c 0 f ∗ stPts c k' fd
        ∗ dutyTok ER (stCell c 0) r () ∗ reached ER (stCell c 0) r)
      ⊢ iprop((cred (tallyAt (stCell c 0) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.here (stDst c k')) (.dma stS0.sem) hsrc hdst hsem) k) Q) := by
  unfold stPts
  show iprop(cellInv ER (Rd m) κ (stCell c 0) ∗ (slot0.view.loc (c : Thread nD τ) ↦[slot0.view.set]{fullShare} f)
        ∗ ((stDst c k').view.loc (c : Thread nD τ) ↦[(stDst c k').view.set]{fullShare} fd)
        ∗ dutyTok ER (stCell c 0) r () ∗ reached ER (stCell c 0) r) ⊢ _
  exact Rounds.wp_copy_pointsTo 𝒱₀ ER (Rd m) (c : Thread nD τ) none (src := slot0) (dst := stDst c k') (sem := .dma stS0.sem) (q := fullShare) (fs := f) (κ := κ) (r := r) (d := ()) (fd := fd)
    (by rw [duties_st m c 0 r hr]; exact Finset.mem_singleton_self _) () N1 rfl (amount_st m c 0 r ())
    ((st_pay0 m c k' f fd hf).trans (Entails.of_eq (by rw [← hk]; exact (payload_st m c 0 r ()).symm)))

theorem wp_st1 {α : Type} {Q : α → sProp 𝕄} {k : PUnit → Prog (TpuEff nD τ sig (Elt F) Λ₀ .tc) α} (c : Dev nD) (r : ℕ) (hr : r < 4) (k' : Fin 8) (κ : ℕ) (f : Buf (Elt F) ((c : Thread nD τ).loc cc0_scratch0))
    (fd : Buf (Elt F) ((c : Thread nD τ).loc main_v1))
    (hk : chunk 1 r = k') (hf : slotRead c 1 f = (ldSrc c k').view.read (Elt F) (xC m c))
    {hsrc : (slot1 : Memref sig .tc .vmem S1024x1024 .f32).view.WordExact} {hdst : (stDst c k').view.WordExact}
    {hsem : DmaTarget.Typed (nD := nD) .vmem (.dma stS1.sem) (.here (stDst c k') : DmaTarget nD τ sig Proc.tc .hbm S1024x1024 .f32)} :
    iprop(cellInv ER (Rd m) κ (stCell c 1) ∗ slotPts c 1 f ∗ stPts c k' fd
        ∗ dutyTok ER (stCell c 1) r () ∗ reached ER (stCell c 1) r)
      ⊢ iprop((cred (tallyAt (stCell c 1) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot1 (.here (stDst c k')) (.dma stS1.sem) hsrc hdst hsem) k) Q) := by
  unfold stPts
  show iprop(cellInv ER (Rd m) κ (stCell c 1) ∗ (slot1.view.loc (c : Thread nD τ) ↦[slot1.view.set]{fullShare} f)
        ∗ ((stDst c k').view.loc (c : Thread nD τ) ↦[(stDst c k').view.set]{fullShare} fd)
        ∗ dutyTok ER (stCell c 1) r () ∗ reached ER (stCell c 1) r) ⊢ _
  exact Rounds.wp_copy_pointsTo 𝒱₀ ER (Rd m) (c : Thread nD τ) none (src := slot1) (dst := stDst c k') (sem := .dma stS1.sem) (q := fullShare) (fs := f) (κ := κ) (r := r) (d := ()) (fd := fd)
    (by rw [duties_st m c 1 r hr]; exact Finset.mem_singleton_self _) () N1 rfl (amount_st m c 1 r ())
    ((st_pay1 m c k' f fd hf).trans (Entails.of_eq (by rw [← hk]; exact (payload_st m c 1 r ()).symm)))

/-- A wait for the whole of round R of one of the device's own DMA cells, owing nothing: the round's payload P comes back. -/
theorem wp_wait_own {α : Type} {Q : α → sProp 𝕄} {k : PUnit → Prog (TpuEff nD τ sig (Elt F) Λ₀ .tc) α} (c : Dev nD) (sem : DmaSem sig) (R : ℕ) (κ : ℕ) (N : ℕ)
    (hd : (Rd (F := F) m).duties ((c : Thread nD τ), .dma sem) R = {()}) (hN : (Rd (F := F) m).amount ((c : Thread nD τ), .dma sem) R () = N)
    (P : sProp 𝕄) (hP : (Rd (F := F) m).payload ((c : Thread nD τ), .dma sem) R () = P)
    {sp sp' : Space} {s s' : Shape} {e e' : EltTy} {src : Memref sig .tc sp' s' e'} {dst : Memref sig .tc sp s e}
    {hsrc : src.view.WordExact} {hdst : dst.view.WordExact} (hc : dst.view.dmaCredit = N) {W : Waits sig Unit} :
    iprop(cellInv ER (Rd m) κ ((c : Thread nD τ), .dma sem) ∗ cred (tallyAt ((c : Thread nD τ), .dma sem) () N) ∗ owes (c : Thread nD τ) 0 W
        ∗ atPos ER ((c : Thread nD τ), .dma sem) R ∅ 0)
      ⊢ iprop(((owes (c : Thread nD τ) 0 (insert (SemLoc.dma sem, ()) W) ∗ atPos ER ((c : Thread nD τ), .dma sem) (R + 1) ∅ 0
              ∗ reached ER ((c : Thread nD τ), .dma sem) (R + 1) ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hc
  iintro ⟨#HI, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := R) (m := 0) (T := ∅)
      (by rw [Nat.zero_add, expect_eq m _ _ hd, hN])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  iapply Hk
  isplitl [HO]; · iexact HO
  isplitl [Hat]; · iexact Hat
  isplitl [Hr]; · iexact Hr
  iapply (Entails.of_eq ((rest_eq m _ _ hd).trans hP)) $$ Hpay

end Steps

end Cert.KernelIdealProof

end
-- ==== Proof.KernelIdeal.Seg1.lean ====
/-
  The body, printed part 1 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg1 {α : Type} {Q : α → sProp 𝕄} {k : (Σ' (d0 : Dev nD) (v2 : BitVec 32) (v5 : BitVec 32) (v8 : BitVec 32) (v9 : BitVec 32), BitVec 32) → Prog (TpuEff nD τ sig (Elt F) Λ₀ .tc) α} (K : Dev nD × Fin 7 → ℕ) (c : Dev nD) (fo : Buf (Elt F) ((c : Thread nD τ).loc main_v1)) (W : Waits sig Unit) :
    iprop(cellInv ER (Rd m) (K (peer c, 0)) (barCell (peer c))
        ∗ owes (c : Thread nD τ) (O₀ c) W
        ∗ dutyTok ER (barCell (peer c)) 0 ()
        ∗ landPts (peer c) c fo
        ∗ reached ER (recvCell c) 0
        ∗ reached ER (barCell (peer c)) 0
        ∗ cellInv ER (Rd m) (K (c, 0)) (barCell c)
        ∗ cred (tallyAt (barCell c) () 1)
        ∗ levAts L lv
        ∗ atPos ER (barCell c) 0 ∅ 0
        ∗ cellInv ER (Rd m) (K (c, 5)) (sendCell c)
        ∗ cellInv ER (Rd m) (K (peer c, 6)) (recvCell (peer c))
        ∗ sndPts m c
        ∗ dutyTok ER (sendCell c) 0 ()
        ∗ reached ER (sendCell c) 0
        ∗ dutyTok ER (recvCell (peer c)) 0 ()
        ∗ reached ER (recvCell (peer c)) 0)
      ⊢ iprop((((∃ W', owes (c : Thread nD τ) 0 W')
              ∗ atPos ER (barCell c) 1 ∅ 0
              ∗ reached ER (barCell c) 1
              ∗ cred (tallyAt (sendCell c) () N8))
            -∗ wp frame (wpE (defs₀ (F := F)) 𝒱₀ (c : Thread nD τ) none) Set.univ (k ⟨c, Scalar.remsi (Scalar.divsi (Dev.word c) 4#32) 2#32, Scalar.remsi (Scalar.divsi (Dev.word c) 2#32) 2#32, Scalar.remsi (Scalar.divsi (Dev.word c) 1#32) 2#32, Scalar.subi 1#32 (Scalar.remsi (Scalar.divsi (Dev.word c) 1#32) 2#32), 1024#32⟩) Q)
          -∗ wp frame (wpE (defs₀ (F := F)) 𝒱₀ (c : Thread nD τ) none) Set.univ (k0_part1 (Memref.whole main_arg0) (Memref.isWhole_whole _) (Memref.whole main_v1) (Memref.isWhole_whole _) (Memref.whole cc0_scratch0) (Memref.isWhole_whole _) cc0_scratch1 cc0_scratch2 cc0_scratch3 cc0_scratch4 >>= k) Q) := by
  simp only [k0_part1_eq_skeleton]; unfold k0_part1_skel
  simp only [semSignalWord, semWaitWord, Prog.lift, Prog.bind_op, Prog.bind_ret, Prog.pure_eq_ret, wp_deviceId]
  iintro ⟨#HIbP, HO, HtBP, Hland, #HrRc, #HrBP, #HIb, HcB, #Hlev, HaB, #HIsn, #HIrcP, Hsnd, HtSn, #HrSn, HtRcP, #HrRcP⟩ Hk
  iapply (wp_signal_peer m c (K (peer c, 0)) fo) $$ [HO HtBP Hland]
  · isplitr; · iexact HIbP
    isplitl [HO]; · iexact HO
    isplitl [HtBP]; · iexact HtBP
    isplitl [Hland]; · iexact Hland
    isplitr; · iexact HrRc
    iexact HrBP
  iintro HO
  iapply (wp_bar_wait m c (K (c, 0))) $$ [HcB HO HaB]
  · isplitr; · iexact HIb
    isplitl [HcB]; · iexact HcB
    isplitl [HO]; · iexact HO
    isplitr; · iexact Hlev
    iexact HaB
  iintro ⟨HO, HaB, #HrB1, Hpay⟩
  unfold barPay
  icases Hpay with ⟨⟨%fp, HlandP⟩, #HrRcP'⟩
  iapply (wp_send_peer m c (K (c, 5)) (K (peer c, 6)) fp) $$ [Hsnd HlandP HO HtSn HtRcP]
  · isplitr; · iexact HIsn
    isplitr; · iexact HIrcP
    isplitl [Hsnd]; · iexact Hsnd
    isplitl [HlandP]; · iexact HlandP
    isplitl [HO]; · iexact HO
    isplitl [HtSn]; · iexact HtSn
    isplitr; · iexact HrSn
    isplitl [HtRcP]; · iexact HtRcP
    iexact HrRcP
  iintro ⟨HcSn, HO⟩
  iapply Hk
  isplitl [HO]
  · iexists _; iexact HO
  isplitl [HaB]
  · iexact HaB
  isplitr
  · iexact HrB1
  iexact HcSn

end Cert.KernelIdealProof

end
-- ==== Proof.KernelIdeal.Seg2.lean ====
/-
  The body, printed part 2 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg2 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (fv : Buf (Elt F) ((c : Thread nD τ).loc cc0_scratch0)) (v8 c18 : BitVec 32) :
    iprop(cellInv ER (Rd m) (K (c, 1)) (ldCell c 0)
        ∗ ldPts m c 0
        ∗ slotPts c 0 fv
        ∗ dutyTok ER (ldCell c 0) 0 ()
        ∗ reached ER (ldCell c 0) 0
        ∗ cellInv ER (Rd m) (K (c, 2)) (ldCell c 1)
        ∗ ldPts m c 1
        ∗ slotPts c 1 fv
        ∗ dutyTok ER (ldCell c 1) 0 ()
        ∗ reached ER (ldCell c 1) 0
        ∗ (∃ W', owes (c : Thread nD τ) 0 W')
        ∗ atPos ER (ldCell c 0) 0 ∅ 0
        ∗ cellInv ER (Rd m) (K (c, 3)) (stCell c 0)
        ∗ stPts c 0 fo
        ∗ dutyTok ER (stCell c 0) 0 ()
        ∗ reached ER (stCell c 0) 0)
      ⊢ iprop(((cred (tallyAt (ldCell c 1) () N1)
              ∗ (∃ W', owes (c : Thread nD τ) 0 W')
              ∗ atPos ER (ldCell c 0) 1 ∅ 0
              ∗ reached ER (ldCell c 0) 1
              ∗ ldPts m c 0
              ∗ cred (tallyAt (stCell c 0) () N1))
            -∗ wp frame (wpE (defs₀ (F := F)) 𝒱₀ (c : Thread nD τ) none) Set.univ (k ⟨⟩) Q)
          -∗ wp frame (wpE (defs₀ (F := F)) 𝒱₀ (c : Thread nD τ) none) Set.univ (k0_part2 (Memref.whole main_arg0) (Memref.isWhole_whole _) (Memref.whole main_v1) (Memref.isWhole_whole _) (Memref.whole cc0_scratch0) (Memref.isWhole_whole _) cc0_scratch1 cc0_scratch2 cc0_scratch3 cc0_scratch4 c v8 c18 >>= k) Q) := by
  simp only [k0_part2_eq_skeleton]; unfold k0_part2_skel
  simp only [semSignalWord, semWaitWord, Prog.lift, Prog.bind_op, Prog.bind_ret, Prog.pure_eq_ret, wp_deviceId]
  iintro ⟨#HIl0, Hx0, Hv0, HtL0, #HrL0_0, #HIl1, Hx1, Hv1, HtL1, #HrL1_0, HO, HaL0, #HIs0, Ho0, HtS0, #HrS0_0⟩ Hk
  icases HO with ⟨%W, HO⟩
  iapply (wp_ld0 m c 0 (by decide) 0 (K (c, 1)) fv rfl) $$ [Hx0 Hv0 HtL0]
  · isplitr; · iexact HIl0
    isplitl [Hx0]; · iexact Hx0
    isplitl [Hv0]; · iexact Hv0
    isplitl [HtL0]; · iexact HtL0
    iexact HrL0_0
  iintro HcL0
  iapply (wp_ld1 m c 0 (by decide) 1 (K (c, 2)) fv rfl) $$ [Hx1 Hv1 HtL1]
  · isplitr; · iexact HIl1
    isplitl [Hx1]; · iexact Hx1
    isplitl [Hv1]; · iexact Hv1
    isplitl [HtL1]; · iexact HtL1
    iexact HrL1_0
  iintro HcL1
  iapply (wp_wait_own m c (ldS 0).sem 0 (K (c, 1)) N1 (duties_ld m c 0 0 (by decide)) (amount_ld m c 0 0 ()) (ldPay m c 0 0) (payload_ld m c 0 0 ()) (dst := slot0) rfl) $$ [HcL0 HO HaL0]
  · isplitr; · iexact HIl0
    isplitl [HcL0]; · iexact HcL0
    isplitl [HO]; · iexact HO
    iexact HaL0
  iintro ⟨HO, HaL0, #HrL0_1, Hp⟩
  unfold ldPay slotHolds
  icases Hp with ⟨⟨%f0, Hv0, %hf0⟩, Hx0⟩
  iapply (wp_st0 m c 0 (by decide) 0 (K (c, 3)) f0 fo rfl hf0) $$ [Hv0 Ho0 HtS0]
  · isplitr; · iexact HIs0
    isplitl [Hv0]; · iexact Hv0
    isplitl [Ho0]; · iexact Ho0
    isplitl [HtS0]; · iexact HtS0
    iexact HrS0_0
  iintro HcS0
  iapply Hk
  isplitl [HcL1]
  · iexact HcL1
  isplitl [HO]
  · iexists _; iexact HO
  isplitl [HaL0]
  · iexact HaL0
  isplitr
  · iexact HrL0_1
  isplitl [Hx0]
  · iexact Hx0
  iexact HcS0

end Cert.KernelIdealProof

end
-- ==== Proof.KernelIdeal.Seg3.lean ====
/-
  The body, printed part 3 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg3 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 3)) (stCell c 0)
        ∗ cred (tallyAt (stCell c 0) () N1)
        ∗ (∃ W', owes (c : Thread nD τ) 0 W')
        ∗ atPos ER (stCell c 0) 0 ∅ 0
        ∗ cellInv ER (Rd m) (K (c, 1)) (ldCell c 0)
        ∗ ldPts m c 2
        ∗ dutyTok ER (ldCell c 0) 1 ()
        ∗ reached ER (ldCell c 0) 1
        ∗ cellInv ER (Rd m) (K (c, 2)) (ldCell c 1)
        ∗ cred (tallyAt (ldCell c 1) () N1)
        ∗ atPos ER (ldCell c 1) 0 ∅ 0
        ∗ cellInv ER (Rd m) (K (c, 4)) (stCell c 1)
        ∗ stPts c 1 fo
        ∗ dutyTok ER (stCell c 1) 0 ()
        ∗ reached ER (stCell c 1) 0
        ∗ atPos ER (stCell c 1) 0 ∅ 0)
      ⊢ iprop((((∃ W', owes (c : Thread nD τ) 0 W')
              ∗ atPos ER (stCell c 0) 1 ∅ 0
              ∗ reached ER (stCell c 0) 1
              ∗ stPts c 0 (outFinal m c)
              ∗ cred (tallyAt (ldCell c 0) () N1)
              ∗ atPos ER (ldCell c 1) 1 ∅ 0
              ∗ reached ER (ldCell c 1) 1
              ∗ (∃ g, slotPts c 1 g)
              ∗ ldPts m c 1
              ∗ atPos ER (stCell c 1) 1 ∅ 0
              ∗ reached ER (stCell c 1) 1
              ∗ stPts c 1 (outFinal m c))
            -∗ wp frame (wpE (defs₀ (F := F)) 𝒱₀ (c : Thread nD τ) none) Set.univ (k ⟨⟩) Q)
          -∗ wp frame (wpE (defs₀ (F := F)) 𝒱₀ (c : Thread nD τ) none) Set.univ (k0_part3 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part3_eq_skeleton]; unfold k0_part3_skel
  simp only [semSignalWord, semWaitWord, Prog.lift, Prog.bind_op, Prog.bind_ret, Prog.pure_eq_ret, wp_deviceId]
  iintro ⟨#HIs0, HcS0, HO, HaS0, #HIl0, Hx2, HtL2, #HrL0_1, #HIl1, HcL1, HaL1, #HIs1, Ho1, HtS1, #HrS1_0, HaS1⟩ Hk
  icases HO with ⟨%W, HO⟩
  iapply (wp_wait_own m c (stS 0).sem 0 (K (c, 3)) N1 (duties_st m c 0 0 (by decide)) (amount_st m c 0 0 ()) (stPay m c 0 0) (payload_st m c 0 0 ()) (dst := stDst c 0) rfl) $$ [HcS0 HO HaS0]
  · isplitr; · iexact HIs0
    isplitl [HcS0]; · iexact HcS0
    isplitl [HO]; · iexact HO
    iexact HaS0
  iintro ⟨HO, HaS0, #HrS0_1, Hp⟩
  unfold stPay
  icases Hp with ⟨Ho0, ⟨%g0, Hv0⟩⟩
  iapply (wp_ld0 m c 1 (by decide) 2 (K (c, 1)) g0 rfl) $$ [Hx2 Hv0 HtL2]
  · isplitr; · iexact HIl0
    isplitl [Hx2]; · iexact Hx2
    isplitl [Hv0]; · iexact Hv0
    isplitl [HtL2]; · iexact HtL2
    iexact HrL0_1
  iintro HcL0
  iapply (wp_wait_own m c (ldS 1).sem 0 (K (c, 2)) N1 (duties_ld m c 1 0 (by decide)) (amount_ld m c 1 0 ()) (ldPay m c 1 1) (payload_ld m c 1 0 ()) (dst := slot1) rfl) $$ [HcL1 HO HaL1]
  · isplitr; · iexact HIl1
    isplitl [HcL1]; · iexact HcL1
    isplitl [HO]; · iexact HO
    iexact HaL1
  iintro ⟨HO, HaL1, #HrL1_1, Hp⟩
  unfold ldPay slotHolds
  icases Hp with ⟨⟨%f1, Hv1, %hf1⟩, Hx1⟩
  iapply (wp_st1 m c 0 (by decide) 1 (K (c, 4)) f1 fo rfl hf1) $$ [Hv1 Ho1 HtS1]
  · isplitr; · iexact HIs1
    isplitl [Hv1]; · iexact Hv1
    isplitl [Ho1]; · iexact Ho1
    isplitl [HtS1]; · iexact HtS1
    iexact HrS1_0
  iintro HcS1
  iapply (wp_wait_own m c (stS 1).sem 0 (K (c, 4)) N1 (duties_st m c 1 0 (by decide)) (amount_st m c 1 0 ()) (stPay m c 1 1) (payload_st m c 1 0 ()) (dst := stDst c 1) rfl) $$ [HcS1 HO HaS1]
  · isplitr; · iexact HIs1
    isplitl [HcS1]; · iexact HcS1
    isplitl [HO]; · iexact HO
    iexact HaS1
  iintro ⟨HO, HaS1, #HrS1_1, Hp⟩
  unfold stPay
  icases Hp with ⟨Ho1, ⟨%g1, Hv1⟩⟩
  iapply Hk
  isplitl [HO]
  · iexists _; iexact HO
  isplitl [HaS0]
  · iexact HaS0
  isplitr
  · iexact HrS0_1
  isplitl [Ho0]
  · iexact Ho0
  isplitl [HcL0]
  · iexact HcL0
  isplitl [HaL1]
  · iexact HaL1
  isplitr
  · iexact HrL1_1
  isplitl [Hv1]
  · iexists g1; iexact Hv1
  isplitl [Hx1]
  · iexact Hx1
  isplitl [HaS1]
  · iexact HaS1
  isplitr
  · iexact HrS1_1
  iexact Ho1

end Cert.KernelIdealProof

end
-- ==== Proof.KernelIdeal.Seg4.lean ====
/-
  The body, printed part 4 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg4 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 2)) (ldCell c 1)
        ∗ ldPts m c 3
        ∗ (∃ g, slotPts c 1 g)
        ∗ dutyTok ER (ldCell c 1) 1 ()
        ∗ reached ER (ldCell c 1) 1
        ∗ cellInv ER (Rd m) (K (c, 1)) (ldCell c 0)
        ∗ cred (tallyAt (ldCell c 0) () N1)
        ∗ (∃ W', owes (c : Thread nD τ) 0 W')
        ∗ atPos ER (ldCell c 0) 1 ∅ 0
        ∗ cellInv ER (Rd m) (K (c, 3)) (stCell c 0)
        ∗ stPts c 2 fo
        ∗ dutyTok ER (stCell c 0) 1 ()
        ∗ reached ER (stCell c 0) 1
        ∗ atPos ER (stCell c 0) 1 ∅ 0
        ∗ ldPts m c 4
        ∗ dutyTok ER (ldCell c 0) 2 ())
      ⊢ iprop(((cred (tallyAt (ldCell c 1) () N1)
              ∗ (∃ W', owes (c : Thread nD τ) 0 W')
              ∗ atPos ER (ldCell c 0) 2 ∅ 0
              ∗ reached ER (ldCell c 0) 2
              ∗ ldPts m c 2
              ∗ atPos ER (stCell c 0) 2 ∅ 0
              ∗ reached ER (stCell c 0) 2
              ∗ stPts c 2 (outFinal m c)
              ∗ cred (tallyAt (ldCell c 0) () N1))
            -∗ wp frame (wpE (defs₀ (F := F)) 𝒱₀ (c : Thread nD τ) none) Set.univ (k ⟨⟩) Q)
          -∗ wp frame (wpE (defs₀ (F := F)) 𝒱₀ (c : Thread nD τ) none) Set.univ (k0_part4 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part4_eq_skeleton]; unfold k0_part4_skel
  simp only [semSignalWord, semWaitWord, Prog.lift, Prog.bind_op, Prog.bind_ret, Prog.pure_eq_ret, wp_deviceId]
  iintro ⟨#HIl1, Hx3, Hv1, HtL3, #HrL1_1, #HIl0, HcL0, HO, HaL0, #HIs0, Ho2, HtS2, #HrS0_1, HaS0, Hx4, HtL4⟩ Hk
  icases Hv1 with ⟨%g1, Hv1⟩
  icases HO with ⟨%W, HO⟩
  iapply (wp_ld1 m c 1 (by decide) 3 (K (c, 2)) g1 rfl) $$ [Hx3 Hv1 HtL3]
  · isplitr; · iexact HIl1
    isplitl [Hx3]; · iexact Hx3
    isplitl [Hv1]; · iexact Hv1
    isplitl [HtL3]; · iexact HtL3
    iexact HrL1_1
  iintro HcL1
  iapply (wp_wait_own m c (ldS 0).sem 1 (K (c, 1)) N1 (duties_ld m c 0 1 (by decide)) (amount_ld m c 0 1 ()) (ldPay m c 0 2) (payload_ld m c 0 1 ()) (dst := slot0) rfl) $$ [HcL0 HO HaL0]
  · isplitr; · iexact HIl0
    isplitl [HcL0]; · iexact HcL0
    isplitl [HO]; · iexact HO
    iexact HaL0
  iintro ⟨HO, HaL0, #HrL0_2, Hp⟩
  unfold ldPay slotHolds
  icases Hp with ⟨⟨%f2, Hv0, %hf2⟩, Hx2⟩
  iapply (wp_st0 m c 1 (by decide) 2 (K (c, 3)) f2 fo rfl hf2) $$ [Hv0 Ho2 HtS2]
  · isplitr; · iexact HIs0
    isplitl [Hv0]; · iexact Hv0
    isplitl [Ho2]; · iexact Ho2
    isplitl [HtS2]; · iexact HtS2
    iexact HrS0_1
  iintro HcS0
  iapply (wp_wait_own m c (stS 0).sem 1 (K (c, 3)) N1 (duties_st m c 0 1 (by decide)) (amount_st m c 0 1 ()) (stPay m c 0 2) (payload_st m c 0 1 ()) (dst := stDst c 2) rfl) $$ [HcS0 HO HaS0]
  · isplitr; · iexact HIs0
    isplitl [HcS0]; · iexact HcS0
    isplitl [HO]; · iexact HO
    iexact HaS0
  iintro ⟨HO, HaS0, #HrS0_2, Hp⟩
  unfold stPay
  icases Hp with ⟨Ho2, ⟨%g2, Hv0⟩⟩
  iapply (wp_ld0 m c 2 (by decide) 4 (K (c, 1)) g2 rfl) $$ [Hx4 Hv0 HtL4]
  · isplitr; · iexact HIl0
    isplitl [Hx4]; · iexact Hx4
    isplitl [Hv0]; · iexact Hv0
    isplitl [HtL4]; · iexact HtL4
    iexact HrL0_2
  iintro HcL0
  iapply Hk
  isplitl [HcL1]
  · iexact HcL1
  isplitl [HO]
  · iexists _; iexact HO
  isplitl [HaL0]
  · iexact HaL0
  isplitr
  · iexact HrL0_2
  isplitl [Hx2]
  · iexact Hx2
  isplitl [HaS0]
  · iexact HaS0
  isplitr
  · iexact HrS0_2
  isplitl [Ho2]
  · iexact Ho2
  iexact HcL0

end Cert.KernelIdealProof

end
-- ==== Proof.KernelIdeal.Seg5.lean ====
/-
  The body, printed part 5 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg5 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 2)) (ldCell c 1)
        ∗ cred (tallyAt (ldCell c 1) () N1)
        ∗ (∃ W', owes (c : Thread nD τ) 0 W')
        ∗ atPos ER (ldCell c 1) 1 ∅ 0
        ∗ cellInv ER (Rd m) (K (c, 4)) (stCell c 1)
        ∗ stPts c 3 fo
        ∗ dutyTok ER (stCell c 1) 1 ()
        ∗ reached ER (stCell c 1) 1
        ∗ atPos ER (stCell c 1) 1 ∅ 0
        ∗ ldPts m c 5
        ∗ dutyTok ER (ldCell c 1) 2 ()
        ∗ cellInv ER (Rd m) (K (c, 1)) (ldCell c 0)
        ∗ cred (tallyAt (ldCell c 0) () N1)
        ∗ atPos ER (ldCell c 0) 2 ∅ 0)
      ⊢ iprop((((∃ W', owes (c : Thread nD τ) 0 W')
              ∗ atPos ER (ldCell c 1) 2 ∅ 0
              ∗ reached ER (ldCell c 1) 2
              ∗ ldPts m c 3
              ∗ atPos ER (stCell c 1) 2 ∅ 0
              ∗ reached ER (stCell c 1) 2
              ∗ stPts c 3 (outFinal m c)
              ∗ cred (tallyAt (ldCell c 1) () N1)
              ∗ atPos ER (ldCell c 0) 3 ∅ 0
              ∗ reached ER (ldCell c 0) 3
              ∗ slotHolds m c 0 4
              ∗ ldPts m c 4)
            -∗ wp frame (wpE (defs₀ (F := F)) 𝒱₀ (c : Thread nD τ) none) Set.univ (k ⟨⟩) Q)
          -∗ wp frame (wpE (defs₀ (F := F)) 𝒱₀ (c : Thread nD τ) none) Set.univ (k0_part5 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part5_eq_skeleton]; unfold k0_part5_skel
  simp only [semSignalWord, semWaitWord, Prog.lift, Prog.bind_op, Prog.bind_ret, Prog.pure_eq_ret, wp_deviceId]
  iintro ⟨#HIl1, HcL1, HO, HaL1, #HIs1, Ho3, HtS3, #HrS1_1, HaS1, Hx5, HtL5, #HIl0, HcL0, HaL0⟩ Hk
  icases HO with ⟨%W, HO⟩
  iapply (wp_wait_own m c (ldS 1).sem 1 (K (c, 2)) N1 (duties_ld m c 1 1 (by decide)) (amount_ld m c 1 1 ()) (ldPay m c 1 3) (payload_ld m c 1 1 ()) (dst := slot1) rfl) $$ [HcL1 HO HaL1]
  · isplitr; · iexact HIl1
    isplitl [HcL1]; · iexact HcL1
    isplitl [HO]; · iexact HO
    iexact HaL1
  iintro ⟨HO, HaL1, #HrL1_2, Hp⟩
  unfold ldPay slotHolds
  icases Hp with ⟨⟨%f3, Hv1, %hf3⟩, Hx3⟩
  iapply (wp_st1 m c 1 (by decide) 3 (K (c, 4)) f3 fo rfl hf3) $$ [Hv1 Ho3 HtS3]
  · isplitr; · iexact HIs1
    isplitl [Hv1]; · iexact Hv1
    isplitl [Ho3]; · iexact Ho3
    isplitl [HtS3]; · iexact HtS3
    iexact HrS1_1
  iintro HcS1
  iapply (wp_wait_own m c (stS 1).sem 1 (K (c, 4)) N1 (duties_st m c 1 1 (by decide)) (amount_st m c 1 1 ()) (stPay m c 1 3) (payload_st m c 1 1 ()) (dst := stDst c 3) rfl) $$ [HcS1 HO HaS1]
  · isplitr; · iexact HIs1
    isplitl [HcS1]; · iexact HcS1
    isplitl [HO]; · iexact HO
    iexact HaS1
  iintro ⟨HO, HaS1, #HrS1_2, Hp⟩
  unfold stPay
  icases Hp with ⟨Ho3, ⟨%g3, Hv1⟩⟩
  iapply (wp_ld1 m c 2 (by decide) 5 (K (c, 2)) g3 rfl) $$ [Hx5 Hv1 HtL5]
  · isplitr; · iexact HIl1
    isplitl [Hx5]; · iexact Hx5
    isplitl [Hv1]; · iexact Hv1
    isplitl [HtL5]; · iexact HtL5
    iexact HrL1_2
  iintro HcL1
  iapply (wp_wait_own m c (ldS 0).sem 2 (K (c, 1)) N1 (duties_ld m c 0 2 (by decide)) (amount_ld m c 0 2 ()) (ldPay m c 0 4) (payload_ld m c 0 2 ()) (dst := slot0) rfl) $$ [HcL0 HO HaL0]
  · isplitr; · iexact HIl0
    isplitl [HcL0]; · iexact HcL0
    isplitl [HO]; · iexact HO
    iexact HaL0
  iintro ⟨HO, HaL0, #HrL0_3, Hp⟩
  unfold ldPay slotHolds
  icases Hp with ⟨⟨%f4, Hv0, %hf4⟩, Hx4⟩
  iapply Hk
  isplitl [HO]
  · iexists _; iexact HO
  isplitl [HaL1]
  · iexact HaL1
  isplitr
  · iexact HrL1_2
  isplitl [Hx3]
  · iexact Hx3
  isplitl [HaS1]
  · iexact HaS1
  isplitr
  · iexact HrS1_2
  isplitl [Ho3]
  · iexact Ho3
  isplitl [HcL1]
  · iexact HcL1
  isplitl [HaL0]
  · iexact HaL0
  isplitr
  · iexact HrL0_3
  isplitl [Hv0]
  · iexists f4
    isplitl [Hv0]; · iexact Hv0
    ipureintro; exact hf4
  iexact Hx4

end Cert.KernelIdealProof

end
-- ==== Proof.KernelIdeal.Seg6.lean ====
/-
  The body, printed part 6 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg6 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 3)) (stCell c 0)
        ∗ slotHolds m c 0 4
        ∗ stPts c 4 fo
        ∗ dutyTok ER (stCell c 0) 2 ()
        ∗ reached ER (stCell c 0) 2
        ∗ (∃ W', owes (c : Thread nD τ) 0 W')
        ∗ atPos ER (stCell c 0) 2 ∅ 0
        ∗ cellInv ER (Rd m) (K (c, 1)) (ldCell c 0)
        ∗ ldPts m c 6
        ∗ dutyTok ER (ldCell c 0) 3 ()
        ∗ reached ER (ldCell c 0) 3
        ∗ cellInv ER (Rd m) (K (c, 2)) (ldCell c 1)
        ∗ cred (tallyAt (ldCell c 1) () N1)
        ∗ atPos ER (ldCell c 1) 2 ∅ 0
        ∗ cellInv ER (Rd m) (K (c, 4)) (stCell c 1)
        ∗ stPts c 5 fo
        ∗ dutyTok ER (stCell c 1) 2 ()
        ∗ reached ER (stCell c 1) 2)
      ⊢ iprop((((∃ W', owes (c : Thread nD τ) 0 W')
              ∗ atPos ER (stCell c 0) 3 ∅ 0
              ∗ reached ER (stCell c 0) 3
              ∗ stPts c 4 (outFinal m c)
              ∗ cred (tallyAt (ldCell c 0) () N1)
              ∗ atPos ER (ldCell c 1) 3 ∅ 0
              ∗ reached ER (ldCell c 1) 3
              ∗ ldPts m c 5
              ∗ cred (tallyAt (stCell c 1) () N1))
            -∗ wp frame (wpE (defs₀ (F := F)) 𝒱₀ (c : Thread nD τ) none) Set.univ (k ⟨⟩) Q)
          -∗ wp frame (wpE (defs₀ (F := F)) 𝒱₀ (c : Thread nD τ) none) Set.univ (k0_part6 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part6_eq_skeleton]; unfold k0_part6_skel
  simp only [semSignalWord, semWaitWord, Prog.lift, Prog.bind_op, Prog.bind_ret, Prog.pure_eq_ret, wp_deviceId]
  iintro ⟨#HIs0, Hv0, Ho4, HtS4, #HrS0_2, HO, HaS0, #HIl0, Hx6, HtL6, #HrL0_3, #HIl1, HcL1, HaL1, #HIs1, Ho5, HtS5, #HrS1_2⟩ Hk
  unfold slotHolds
  icases Hv0 with ⟨%f4, Hv0, %hf4⟩
  icases HO with ⟨%W, HO⟩
  iapply (wp_st0 m c 2 (by decide) 4 (K (c, 3)) f4 fo rfl hf4) $$ [Hv0 Ho4 HtS4]
  · isplitr; · iexact HIs0
    isplitl [Hv0]; · iexact Hv0
    isplitl [Ho4]; · iexact Ho4
    isplitl [HtS4]; · iexact HtS4
    iexact HrS0_2
  iintro HcS0
  iapply (wp_wait_own m c (stS 0).sem 2 (K (c, 3)) N1 (duties_st m c 0 2 (by decide)) (amount_st m c 0 2 ()) (stPay m c 0 4) (payload_st m c 0 2 ()) (dst := stDst c 4) rfl) $$ [HcS0 HO HaS0]
  · isplitr; · iexact HIs0
    isplitl [HcS0]; · iexact HcS0
    isplitl [HO]; · iexact HO
    iexact HaS0
  iintro ⟨HO, HaS0, #HrS0_3, Hp⟩
  unfold stPay
  icases Hp with ⟨Ho4, ⟨%g4, Hv0⟩⟩
  iapply (wp_ld0 m c 3 (by decide) 6 (K (c, 1)) g4 rfl) $$ [Hx6 Hv0 HtL6]
  · isplitr; · iexact HIl0
    isplitl [Hx6]; · iexact Hx6
    isplitl [Hv0]; · iexact Hv0
    isplitl [HtL6]; · iexact HtL6
    iexact HrL0_3
  iintro HcL0
  iapply (wp_wait_own m c (ldS 1).sem 2 (K (c, 2)) N1 (duties_ld m c 1 2 (by decide)) (amount_ld m c 1 2 ()) (ldPay m c 1 5) (payload_ld m c 1 2 ()) (dst := slot1) rfl) $$ [HcL1 HO HaL1]
  · isplitr; · iexact HIl1
    isplitl [HcL1]; · iexact HcL1
    isplitl [HO]; · iexact HO
    iexact HaL1
  iintro ⟨HO, HaL1, #HrL1_3, Hp⟩
  unfold ldPay slotHolds
  icases Hp with ⟨⟨%f5, Hv1, %hf5⟩, Hx5⟩
  iapply (wp_st1 m c 2 (by decide) 5 (K (c, 4)) f5 fo rfl hf5) $$ [Hv1 Ho5 HtS5]
  · isplitr; · iexact HIs1
    isplitl [Hv1]; · iexact Hv1
    isplitl [Ho5]; · iexact Ho5
    isplitl [HtS5]; · iexact HtS5
    iexact HrS1_2
  iintro HcS1
  iapply Hk
  isplitl [HO]
  · iexists _; iexact HO
  isplitl [HaS0]
  · iexact HaS0
  isplitr
  · iexact HrS0_3
  isplitl [Ho4]
  · iexact Ho4
  isplitl [HcL0]
  · iexact HcL0
  isplitl [HaL1]
  · iexact HaL1
  isplitr
  · iexact HrL1_3
  isplitl [Hx5]
  · iexact Hx5
  iexact HcS1

end Cert.KernelIdealProof

end
-- ==== Proof.KernelIdeal.Seg7.lean ====
/-
  The body, printed part 7 of eight: its transfers and waits stepped in program order.
-/
import proofs.«900632_g7700000000000633_dist_a2a_v7x_xyz2x2x2_z_m8192_n1024_f32_1_alg».proof.Proof.KernelIdeal.Steps

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg7 {α : Type} {Q : α → sProp 𝕄} {k : BitVec 32 → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 4)) (stCell c 1)
        ∗ cred (tallyAt (stCell c 1) () N1)
        ∗ (∃ W', owes (c : Thread nD τ) 0 W')
        ∗ atPos ER (stCell c 1) 2 ∅ 0
        ∗ cellInv ER (Rd m) (K (c, 2)) (ldCell c 1)
        ∗ ldPts m c 7
        ∗ dutyTok ER (ldCell c 1) 3 ()
        ∗ reached ER (ldCell c 1) 3
        ∗ cellInv ER (Rd m) (K (c, 1)) (ldCell c 0)
        ∗ cred (tallyAt (ldCell c 0) () N1)
        ∗ atPos ER (ldCell c 0) 3 ∅ 0
        ∗ cellInv ER (Rd m) (K (c, 3)) (stCell c 0)
        ∗ stPts c 6 fo
        ∗ dutyTok ER (stCell c 0) 3 ()
        ∗ reached ER (stCell c 0) 3
        ∗ atPos ER (ldCell c 1) 3 ∅ 0)
      ⊢ iprop((((∃ W', owes (c : Thread nD τ) 0 W')
              ∗ atPos ER (stCell c 1) 3 ∅ 0
              ∗ reached ER (stCell c 1) 3
              ∗ stPts c 5 (outFinal m c)
              ∗ slotHolds m c 1 7
              ∗ atPos ER (ldCell c 0) 4 ∅ 0
              ∗ reached ER (ldCell c 0) 4
              ∗ ldPts m c 6
              ∗ cred (tallyAt (stCell c 0) () N1)
              ∗ atPos ER (ldCell c 1) 4 ∅ 0
              ∗ reached ER (ldCell c 1) 4
              ∗ ldPts m c 7)
            -∗ wp frame (wpE (defs₀ (F := F)) 𝒱₀ (c : Thread nD τ) none) Set.univ (k (Scalar.muli v8 8192#32)) Q)
          -∗ wp frame (wpE (defs₀ (F := F)) 𝒱₀ (c : Thread nD τ) none) Set.univ (k0_part7 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part7_eq_skeleton]; unfold k0_part7_skel
  simp only [semSignalWord, semWaitWord, Prog.lift, Prog.bind_op, Prog.bind_ret, Prog.pure_eq_ret, wp_deviceId]
  iintro ⟨#HIs1, HcS1, HO, HaS1, #HIl1, Hx7, HtL7, #HrL1_3, #HIl0, HcL0, HaL0, #HIs0, Ho6, HtS6, #HrS0_3, HaL1⟩ Hk
  icases HO with ⟨%W, HO⟩
  iapply (wp_wait_own m c (stS 1).sem 2 (K (c, 4)) N1 (duties_st m c 1 2 (by decide)) (amount_st m c 1 2 ()) (stPay m c 1 5) (payload_st m c 1 2 ()) (dst := stDst c 5) rfl) $$ [HcS1 HO HaS1]
  · isplitr; · iexact HIs1
    isplitl [HcS1]; · iexact HcS1
    isplitl [HO]; · iexact HO
    iexact HaS1
  iintro ⟨HO, HaS1, #HrS1_3, Hp⟩
  unfold stPay
  icases Hp with ⟨Ho5, ⟨%g5, Hv1⟩⟩
  iapply (wp_ld1 m c 3 (by decide) 7 (K (c, 2)) g5 rfl) $$ [Hx7 Hv1 HtL7]
  · isplitr; · iexact HIl1
    isplitl [Hx7]; · iexact Hx7
    isplitl [Hv1]; · iexact Hv1
    isplitl [HtL7]; · iexact HtL7
    iexact HrL1_3
  iintro HcL1
  iapply (wp_wait_own m c (ldS 0).sem 3 (K (c, 1)) N1 (duties_ld m c 0 3 (by decide)) (amount_ld m c 0 3 ()) (ldPay m c 0 6) (payload_ld m c 0 3 ()) (dst := slot0) rfl) $$ [HcL0 HO HaL0]
  · isplitr; · iexact HIl0
    isplitl [HcL0]; · iexact HcL0
    isplitl [HO]; · iexact HO
    iexact HaL0
  iintro ⟨HO, HaL0, #HrL0_4, Hp⟩
  unfold ldPay slotHolds
  icases Hp with ⟨⟨%f6, Hv0, %hf6⟩, Hx6⟩
  iapply (wp_st0 m c 3 (by decide) 6 (K (c, 3)) f6 fo rfl hf6) $$ [Hv0 Ho6 HtS6]
  · isplitr; · iexact HIs0
    isplitl [Hv0]; · iexact Hv0
    isplitl [Ho6]; · iexact Ho6
    isplitl [HtS6]; · iexact HtS6
    iexact HrS0_3
  iintro HcS0
  iapply (wp_wait_own m c (ldS 1).sem 3 (K (c, 2)) N1 (duties_ld m c 1 3 (by decide)) (amount_ld m c 1 3 ()) (ldPay m c 1 7) (payload_ld m c 1 3 ()) (dst := slot1) rfl) $$ [HcL1 HO HaL1]
  · isplitr; · iexact HIl1
    isplitl [HcL1]; · iexact HcL1
    isplitl [HO]; · iexact HO
    iexact HaL1
  iintro ⟨HO, HaL1, #HrL1_4, Hp⟩
  unfold ldPay slotHolds
  icases Hp with ⟨⟨%f7, Hv1, %hf7⟩, Hx7⟩
  iapply Hk
  isplitl [HO]
  · iexists _; iexact HO
  isplitl [HaS1]
  · iexact HaS1
  isplitr
  · iexact HrS1_3
  isplitl [Ho5]
  · iexact Ho5
  isplitl [Hv1]
  · iexists f7
    isplitl [Hv1]; · iexact Hv1
    ipureintro; exact hf7
  isplitl [HaL0]
  · iexact HaL0
  isplitr
  · iexact HrL0_4
  isplitl [Hx6]
  · iexact Hx6
  isplitl [HcS0]
  · iexact HcS0
  isplitl [HaL1]
  · iexact HaL1
  isplitr
  · iexact HrL1_4
  iexact Hx7

end Cert.KernelIdealProof

end
-- ==== Proof.KernelIdeal.Body.lean ====
/-
  One device's whole body: the printed parts in order, then the last store, the waits for the last two stores, for the
  send and for the peer's landing; the six own cells close.
-/
import proofs.«900632_g7700000000000633_dist_a2a_v7x_xyz2x2x2_z_m8192_n1024_f32_1_alg».proof.Proof.KernelIdeal.Seg1
import proofs.«900632_g7700000000000633_dist_a2a_v7x_xyz2x2x2_z_m8192_n1024_f32_1_alg».proof.Proof.KernelIdeal.Seg2
import proofs.«900632_g7700000000000633_dist_a2a_v7x_xyz2x2x2_z_m8192_n1024_f32_1_alg».proof.Proof.KernelIdeal.Seg3
import proofs.«900632_g7700000000000633_dist_a2a_v7x_xyz2x2x2_z_m8192_n1024_f32_1_alg».proof.Proof.KernelIdeal.Seg4
import proofs.«900632_g7700000000000633_dist_a2a_v7x_xyz2x2x2_z_m8192_n1024_f32_1_alg».proof.Proof.KernelIdeal.Seg5
import proofs.«900632_g7700000000000633_dist_a2a_v7x_xyz2x2x2_z_m8192_n1024_f32_1_alg».proof.Proof.KernelIdeal.Seg6
import proofs.«900632_g7700000000000633_dist_a2a_v7x_xyz2x2x2_z_m8192_n1024_f32_1_alg».proof.Proof.KernelIdeal.Seg7

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
set_option maxRecDepth 65536 in
/-- The body, from the pieces and the ghost state at names K, to the pieces at their final contents. -/
theorem sound_body (K : Dev nD × Fin 7 → ℕ) (c : Dev nD) (Kt : PUnit → sProp 𝕄) :
    iprop(bodyPre m K c ∗ (bodyPost m c -∗ Kt ⟨⟩))
      ⊢ wp frame (wpE (defs₀ (F := F)) 𝒱₀ c none) Set.univ (theBody (F := F)) Kt := by
  unfold theBody
  simp only [cc0_body_eq_skeleton]; unfold cc0_body_skel
  simp only [k0_part8_eq_skeleton]; unfold k0_part8_skel
  unfold bodyPre ghost invs poss reacheds payToks ldToks stToks xParts oParts vParts
  iintro ⟨⟨⟨⟨#HIb, #HIl0, #HIl1, #HIs0, #HIs1, #HIsn, #HIrc, #HIbP, #HIrcP⟩,
      ⟨HaB, HaL0, HaL1, HaS0, HaS1, HaSn, HaRc⟩,
      ⟨#HrL0_0, #HrL1_0, #HrS0_0, #HrS1_0, #HrSn, #HrRc, #HrBP, #HrRcP⟩,
      ⟨HtBP, HtRcP, HtSn⟩,
      ⟨HtL0, HtL1, HtL2, HtL3, HtL4, HtL5, HtL6, HtL7⟩,
      ⟨HtS0, HtS1, HtS2, HtS3, HtS4, HtS5, HtS6, HtS7⟩⟩,
    HcB, HcR, #Hlev, Ho,
    ⟨Hsnd, Hx0, Hx1, Hx2, Hx3, Hx4, Hx5, Hx6, Hx7⟩,
    ⟨%fo, Hland, Ho0, Ho1, Ho2, Ho3, Ho4, Ho5, Ho6, Ho7⟩,
    ⟨%fv, Hv0, Hv1⟩⟩, Hk⟩
  unfold Dat.owesAt Pipeline.owesWithin
  icases Ho with ⟨%W, %hW, HO⟩
  rw [show (dats m 0 c).owed t₀.castSucc = O₀ c from rfl]
  -- printed part 1
  rw [Prog.bind_assoc]
  iapply (seg1 m K c fo W) $$ [HO HtBP Hland HcB HaB Hsnd HtSn HtRcP]
  · isplitr; · iexact HIbP
    isplitl [HO]; · iexact HO
    isplitl [HtBP]; · iexact HtBP
    isplitl [Hland]; · iexact Hland
    isplitr; · iexact HrRc
    isplitr; · iexact HrBP
    isplitr; · iexact HIb
    isplitl [HcB]; · iexact HcB
    isplitr; · iexact Hlev
    isplitl [HaB]; · iexact HaB
    isplitr; · iexact HIsn
    isplitr; · iexact HIrcP
    isplitl [Hsnd]; · iexact Hsnd
    isplitl [HtSn]; · iexact HtSn
    isplitr; · iexact HrSn
    isplitl [HtRcP]; · iexact HtRcP
    iexact HrRcP
  iintro ⟨HO, HaB, #HrB1, HcSn⟩
  dsimp only
  -- printed part 2
  rw [Prog.bind_assoc]
  iapply (seg2 m K c fo fv _ _) $$ [Hx0 Hv0 HtL0 Hx1 Hv1 HtL1 HO HaL0 Ho0 HtS0]
  · isplitr; · iexact HIl0
    isplitl [Hx0]; · iexact Hx0
    isplitl [Hv0]; · iexact Hv0
    isplitl [HtL0]; · iexact HtL0
    isplitr; · iexact HrL0_0
    isplitr; · iexact HIl1
    isplitl [Hx1]; · iexact Hx1
    isplitl [Hv1]; · iexact Hv1
    isplitl [HtL1]; · iexact HtL1
    isplitr; · iexact HrL1_0
    isplitl [HO]; · iexact HO
    isplitl [HaL0]; · iexact HaL0
    isplitr; · iexact HIs0
    isplitl [Ho0]; · iexact Ho0
    isplitl [HtS0]; · iexact HtS0
    iexact HrS0_0
  iintro ⟨HcL1, HO, HaL0, #HrL0_1, Hx0, HcS0⟩
  -- printed part 3
  rw [Prog.bind_assoc]
  iapply (seg3 m K c fo _) $$ [HcS0 HO HaS0 Hx2 HtL2 HcL1 HaL1 Ho1 HtS1 HaS1]
  · isplitr; · iexact HIs0
    isplitl [HcS0]; · iexact HcS0
    isplitl [HO]; · iexact HO
    isplitl [HaS0]; · iexact HaS0
    isplitr; · iexact HIl0
    isplitl [Hx2]; · iexact Hx2
    isplitl [HtL2]; · iexact HtL2
    isplitr; · iexact HrL0_1
    isplitr; · iexact HIl1
    isplitl [HcL1]; · iexact HcL1
    isplitl [HaL1]; · iexact HaL1
    isplitr; · iexact HIs1
    isplitl [Ho1]; · iexact Ho1
    isplitl [HtS1]; · iexact HtS1
    isplitr; · iexact HrS1_0
    iexact HaS1
  iintro ⟨HO, HaS0, #HrS0_1, Ho0, HcL0, HaL1, #HrL1_1, Hv1, Hx1, HaS1, #HrS1_1, Ho1⟩
  -- printed part 4
  rw [Prog.bind_assoc]
  iapply (seg4 m K c fo _) $$ [Hx3 Hv1 HtL3 HcL0 HO HaL0 Ho2 HtS2 HaS0 Hx4 HtL4]
  · isplitr; · iexact HIl1
    isplitl [Hx3]; · iexact Hx3
    isplitl [Hv1]; · iexact Hv1
    isplitl [HtL3]; · iexact HtL3
    isplitr; · iexact HrL1_1
    isplitr; · iexact HIl0
    isplitl [HcL0]; · iexact HcL0
    isplitl [HO]; · iexact HO
    isplitl [HaL0]; · iexact HaL0
    isplitr; · iexact HIs0
    isplitl [Ho2]; · iexact Ho2
    isplitl [HtS2]; · iexact HtS2
    isplitr; · iexact HrS0_1
    isplitl [HaS0]; · iexact HaS0
    isplitl [Hx4]; · iexact Hx4
    iexact HtL4
  iintro ⟨HcL1, HO, HaL0, #HrL0_2, Hx2, HaS0, #HrS0_2, Ho2, HcL0⟩
  -- printed part 5
  rw [Prog.bind_assoc]
  iapply (seg5 m K c fo _) $$ [HcL1 HO HaL1 Ho3 HtS3 HaS1 Hx5 HtL5 HcL0 HaL0]
  · isplitr; · iexact HIl1
    isplitl [HcL1]; · iexact HcL1
    isplitl [HO]; · iexact HO
    isplitl [HaL1]; · iexact HaL1
    isplitr; · iexact HIs1
    isplitl [Ho3]; · iexact Ho3
    isplitl [HtS3]; · iexact HtS3
    isplitr; · iexact HrS1_1
    isplitl [HaS1]; · iexact HaS1
    isplitl [Hx5]; · iexact Hx5
    isplitl [HtL5]; · iexact HtL5
    isplitr; · iexact HIl0
    isplitl [HcL0]; · iexact HcL0
    iexact HaL0
  iintro ⟨HO, HaL1, #HrL1_2, Hx3, HaS1, #HrS1_2, Ho3, HcL1, HaL0, #HrL0_3, Hv0, Hx4⟩
  -- printed part 6
  rw [Prog.bind_assoc]
  iapply (seg6 m K c fo _) $$ [Hv0 Ho4 HtS4 HO HaS0 Hx6 HtL6 HcL1 HaL1 Ho5 HtS5]
  · isplitr; · iexact HIs0
    isplitl [Hv0]; · iexact Hv0
    isplitl [Ho4]; · iexact Ho4
    isplitl [HtS4]; · iexact HtS4
    isplitr; · iexact HrS0_2
    isplitl [HO]; · iexact HO
    isplitl [HaS0]; · iexact HaS0
    isplitr; · iexact HIl0
    isplitl [Hx6]; · iexact Hx6
    isplitl [HtL6]; · iexact HtL6
    isplitr; · iexact HrL0_3
    isplitr; · iexact HIl1
    isplitl [HcL1]; · iexact HcL1
    isplitl [HaL1]; · iexact HaL1
    isplitr; · iexact HIs1
    isplitl [Ho5]; · iexact Ho5
    isplitl [HtS5]; · iexact HtS5
    iexact HrS1_2
  iintro ⟨HO, HaS0, #HrS0_3, Ho4, HcL0, HaL1, #HrL1_3, Hx5, HcS1⟩
  -- printed part 7
  rw [Prog.bind_assoc]
  iapply (seg7 m K c fo _) $$ [HcS1 HO HaS1 Hx7 HtL7 HcL0 HaL0 Ho6 HtS6 HaL1]
  · isplitr; · iexact HIs1
    isplitl [HcS1]; · iexact HcS1
    isplitl [HO]; · iexact HO
    isplitl [HaS1]; · iexact HaS1
    isplitr; · iexact HIl1
    isplitl [Hx7]; · iexact Hx7
    isplitl [HtL7]; · iexact HtL7
    isplitr; · iexact HrL1_3
    isplitr; · iexact HIl0
    isplitl [HcL0]; · iexact HcL0
    isplitl [HaL0]; · iexact HaL0
    isplitr; · iexact HIs0
    isplitl [Ho6]; · iexact Ho6
    isplitl [HtS6]; · iexact HtS6
    isplitr; · iexact HrS0_3
    iexact HaL1
  iintro ⟨HO, HaS1, #HrS1_3, Ho5, Hv1, HaL0, #HrL0_4, Hx6, HcS0, HaL1, #HrL1_4, Hx7⟩
  -- the rest of the last part, and the wait for the peer's landing
  simp only [Prog.lift, Prog.bind_op, Prog.bind_ret, Prog.pure_eq_ret]
  unfold slotHolds
  icases Hv1 with ⟨%f7, Hv1, %hf7⟩
  icases HO with ⟨%W', HO⟩
  iapply (wp_st1 m c 3 (by decide) 7 (K (c, 4)) f7 fo rfl hf7) $$ [Hv1 Ho7 HtS7]
  · isplitr; · iexact HIs1
    isplitl [Hv1]; · iexact Hv1
    isplitl [Ho7]; · iexact Ho7
    isplitl [HtS7]; · iexact HtS7
    iexact HrS1_3
  iintro HcS1
  iapply (wp_wait_own m c (stS 0).sem 3 (K (c, 3)) N1 (duties_st m c 0 3 (by decide)) (amount_st m c 0 3 ()) (stPay m c 0 6) (payload_st m c 0 3 ()) (dst := stDst c 6) rfl) $$ [HcS0 HO HaS0]
  · isplitr; · iexact HIs0
    isplitl [HcS0]; · iexact HcS0
    isplitl [HO]; · iexact HO
    iexact HaS0
  iintro ⟨HO, HaS0, #HrS0_4, Hp⟩
  unfold stPay
  icases Hp with ⟨Ho6, ⟨%g6, Hv0⟩⟩
  iapply (wp_wait_own m c (stS 1).sem 3 (K (c, 4)) N1 (duties_st m c 1 3 (by decide)) (amount_st m c 1 3 ()) (stPay m c 1 7) (payload_st m c 1 3 ()) (dst := stDst c 7) rfl) $$ [HcS1 HO HaS1]
  · isplitr; · iexact HIs1
    isplitl [HcS1]; · iexact HcS1
    isplitl [HO]; · iexact HO
    iexact HaS1
  iintro ⟨HO, HaS1, #HrS1_4, Hp⟩
  unfold stPay
  icases Hp with ⟨Ho7, ⟨%g7, Hv1⟩⟩
  iapply (wp_wait_own m c sendS.sem 0 (K (c, 5)) N8 (duties_send m c) (amount_send m c 0 ()) (sendPay m c) (payload_send m c 0 ()) (dst := sndSrc c) rfl) $$ [HcSn HO HaSn]
  · isplitr; · iexact HIsn
    isplitl [HcSn]; · iexact HcSn
    isplitl [HO]; · iexact HO
    iexact HaSn
  iintro ⟨HO, HaSn, #HrSn1, Hsnd⟩
  unfold sendPay
  iapply (wp_wait_own m c recvS.sem 0 (K (c, 6)) N8 (duties_recv m c) (amount_recv m c 0 ()) (recvPay m c) (payload_recv m c 0 ()) (dst := sndDst c) rfl) $$ [HcR HO HaRc]
  · isplitr; · iexact HIrc
    isplitl [HcR]; · iexact HcR
    isplitl [HO]; · iexact HO
    iexact HaRc
  iintro ⟨HO, HaRc, #HrRc1, Hland⟩
  unfold recvPay
  -- the six own cells close: their counters at zero are the device's again
  imod (Rounds.cell_close ER (Rd m) (Set.mem_univ (K (c, 1))) (fun h => h) (R := 4) (duties_later m c 1 4 (by rw [rounds_csem]; decide))) $$ [HaL0] with HzL0
  · isplitr; · iexact HIl0
    iexact HaL0
  imod (Rounds.cell_close ER (Rd m) (Set.mem_univ (K (c, 2))) (fun h => h) (R := 4) (duties_later m c 2 4 (by rw [rounds_csem]; decide))) $$ [HaL1] with HzL1
  · isplitr; · iexact HIl1
    iexact HaL1
  imod (Rounds.cell_close ER (Rd m) (Set.mem_univ (K (c, 3))) (fun h => h) (R := 4) (duties_later m c 3 4 (by rw [rounds_csem]; decide))) $$ [HaS0] with HzS0
  · isplitr; · iexact HIs0
    iexact HaS0
  imod (Rounds.cell_close ER (Rd m) (Set.mem_univ (K (c, 4))) (fun h => h) (R := 4) (duties_later m c 4 4 (by rw [rounds_csem]; decide))) $$ [HaS1] with HzS1
  · isplitr; · iexact HIs1
    iexact HaS1
  imod (Rounds.cell_close ER (Rd m) (Set.mem_univ (K (c, 5))) (fun h => h) (R := 1) (duties_later m c 5 1 (by rw [rounds_csem]; decide))) $$ [HaSn] with HzSn
  · isplitr; · iexact HIsn
    iexact HaSn
  imod (Rounds.cell_close ER (Rd m) (Set.mem_univ (K (c, 6))) (fun h => h) (R := 1) (duties_later m c 6 1 (by rw [rounds_csem]; decide))) $$ [HaRc] with HzRc
  · isplitr; · iexact HIrc
    iexact HaRc
  rw [wp_ret]; imodintro
  iapply Hk
  unfold bodyPost xParts oParts Dat.owesAt Pipeline.owesWithin
  rw [show (dats m 0 c).owed t₀.succ = 0 from rfl]
  isplitl [HO]
  · iexists _
    isplitr
    rotate_left
    · iexact HO
    · ipureintro; exact fun _ _ => Or.inl trivial
  isplitl [Hsnd Hx0 Hx1 Hx2 Hx3 Hx4 Hx5 Hx6 Hx7]
  · isplitl [Hsnd]; · iexact Hsnd
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hland Ho0 Ho1 Ho2 Ho3 Ho4 Ho5 Ho6 Ho7]
  · isplitl [Hland]; · iexact Hland
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hv0]; · iexists g6; iexact Hv0
  isplitl [Hv1]; · iexists g7; iexact Hv1
  isplitl [HzL0]; · iexact HzL0
  isplitl [HzL1]; · iexact HzL1
  isplitl [HzS0]; · iexact HzS0
  isplitl [HzS1]; · iexact HzS1
  isplitl [HzSn]; · iexact HzSn
  iexact HzRc

/-- info: 'Cert.KernelIdealProof.sound_body' depends on axioms: [propext, Classical.choice, Quot.sound] -/
#guard_msgs in #print axioms sound_body

end Cert.KernelIdealProof

end
-- ==== Proof.KernelIdeal.Cut.lean ====
/-
  How each of the three buffers is cut into the pieces the transfers move, and joined again.

  Each piece is a unit-stride rectangle of its buffer: membership in it is a pair of bounds per axis.  The rectangles of
  one buffer are pairwise disjoint (the sent columns and the kept columns do not meet; two row chunks do not meet) and
  every index lies in one of them, so the buffer's points-to is the separating conjunction of the pieces'.
-/
import proofs.«900632_g7700000000000633_dist_a2a_v7x_xyz2x2x2_z_m8192_n1024_f32_1_alg».proof.Proof.KernelIdeal.Proto
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting a points-to along a finite cover by disjoint sets -/

omit [FloatOps F] in
theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
/-- Nine pairwise disjoint sets that cover a buffer cut its points-to into nine. -/
theorem pointsTo_cut9 {ℓ : Loc nD τ sig} {q : PosShare TreeShare} {f : Buf (Elt F) ℓ} (I : Fin 9 → Finset (Idx ℓ))
    (hd : ∀ a b : Fin 9, a < b → Disjoint (I a) (I b)) (hc : ∀ i, ∃ a, i ∈ I a) :
    (ℓ ↦{q} f : sProp 𝕄) = iprop((ℓ ↦[I 0]{q} f) ∗ (ℓ ↦[I 1]{q} f) ∗ (ℓ ↦[I 2]{q} f) ∗ (ℓ ↦[I 3]{q} f) ∗ (ℓ ↦[I 4]{q} f)
      ∗ (ℓ ↦[I 5]{q} f) ∗ (ℓ ↦[I 6]{q} f) ∗ (ℓ ↦[I 7]{q} f) ∗ (ℓ ↦[I 8]{q} f)) := by
  have hU : (Finset.univ : Finset (Idx ℓ)) = I 0 ∪ (I 1 ∪ (I 2 ∪ (I 3 ∪ (I 4 ∪ (I 5 ∪ (I 6 ∪ (I 7 ∪ I 8))))))) := by
    ext i
    simp only [Finset.mem_univ, Finset.mem_union, true_iff]
    obtain ⟨a, ha⟩ := hc i
    match a, ha with
    | 0, ha => exact Or.inl ha
    | 1, ha => exact Or.inr (Or.inl ha)
    | 2, ha => exact Or.inr (Or.inr (Or.inl ha))
    | 3, ha => exact Or.inr (Or.inr (Or.inr (Or.inl ha)))
    | 4, ha => exact Or.inr (Or.inr (Or.inr (Or.inr (Or.inl ha))))
    | 5, ha => exact Or.inr (Or.inr (Or.inr (Or.inr (Or.inr (Or.inl ha)))))
    | 6, ha => exact Or.inr (Or.inr (Or.inr (Or.inr (Or.inr (Or.inr (Or.inl ha))))))
    | 7, ha => exact Or.inr (Or.inr (Or.inr (Or.inr (Or.inr (Or.inr (Or.inr (Or.inl ha)))))))
    | 8, ha => exact Or.inr (Or.inr (Or.inr (Or.inr (Or.inr (Or.inr (Or.inr (Or.inr (ha))))))))
  have h0 : Disjoint (I 0) (I 1 ∪ (I 2 ∪ (I 3 ∪ (I 4 ∪ (I 5 ∪ (I 6 ∪ (I 7 ∪ I 8))))))) := Finset.disjoint_union_right.mpr ⟨hd 0 1 (by decide), Finset.disjoint_union_right.mpr ⟨hd 0 2 (by decide), Finset.disjoint_union_right.mpr ⟨hd 0 3 (by decide), Finset.disjoint_union_right.mpr ⟨hd 0 4 (by decide), Finset.disjoint_union_right.mpr ⟨hd 0 5 (by decide), Finset.disjoint_union_right.mpr ⟨hd 0 6 (by decide), Finset.disjoint_union_right.mpr ⟨hd 0 7 (by decide), hd 0 8 (by decide)⟩⟩⟩⟩⟩⟩⟩
  have h1 : Disjoint (I 1) (I 2 ∪ (I 3 ∪ (I 4 ∪ (I 5 ∪ (I 6 ∪ (I 7 ∪ I 8)))))) := Finset.disjoint_union_right.mpr ⟨hd 1 2 (by decide), Finset.disjoint_union_right.mpr ⟨hd 1 3 (by decide), Finset.disjoint_union_right.mpr ⟨hd 1 4 (by decide), Finset.disjoint_union_right.mpr ⟨hd 1 5 (by decide), Finset.disjoint_union_right.mpr ⟨hd 1 6 (by decide), Finset.disjoint_union_right.mpr ⟨hd 1 7 (by decide), hd 1 8 (by decide)⟩⟩⟩⟩⟩⟩
  have h2 : Disjoint (I 2) (I 3 ∪ (I 4 ∪ (I 5 ∪ (I 6 ∪ (I 7 ∪ I 8))))) := Finset.disjoint_union_right.mpr ⟨hd 2 3 (by decide), Finset.disjoint_union_right.mpr ⟨hd 2 4 (by decide), Finset.disjoint_union_right.mpr ⟨hd 2 5 (by decide), Finset.disjoint_union_right.mpr ⟨hd 2 6 (by decide), Finset.disjoint_union_right.mpr ⟨hd 2 7 (by decide), hd 2 8 (by decide)⟩⟩⟩⟩⟩
  have h3 : Disjoint (I 3) (I 4 ∪ (I 5 ∪ (I 6 ∪ (I 7 ∪ I 8)))) := Finset.disjoint_union_right.mpr ⟨hd 3 4 (by decide), Finset.disjoint_union_right.mpr ⟨hd 3 5 (by decide), Finset.disjoint_union_right.mpr ⟨hd 3 6 (by decide), Finset.disjoint_union_right.mpr ⟨hd 3 7 (by decide), hd 3 8 (by decide)⟩⟩⟩⟩
  have h4 : Disjoint (I 4) (I 5 ∪ (I 6 ∪ (I 7 ∪ I 8))) := Finset.disjoint_union_right.mpr ⟨hd 4 5 (by decide), Finset.disjoint_union_right.mpr ⟨hd 4 6 (by decide), Finset.disjoint_union_right.mpr ⟨hd 4 7 (by decide), hd 4 8 (by decide)⟩⟩⟩
  have h5 : Disjoint (I 5) (I 6 ∪ (I 7 ∪ I 8)) := Finset.disjoint_union_right.mpr ⟨hd 5 6 (by decide), Finset.disjoint_union_right.mpr ⟨hd 5 7 (by decide), hd 5 8 (by decide)⟩⟩
  have h6 : Disjoint (I 6) (I 7 ∪ I 8) := Finset.disjoint_union_right.mpr ⟨hd 6 7 (by decide), hd 6 8 (by decide)⟩
  have h7 : Disjoint (I 7) (I 8) := hd 7 8 (by decide)
  rw [hU, pointsTo_union_eq h0, pointsTo_union_eq h1, pointsTo_union_eq h2, pointsTo_union_eq h3, pointsTo_union_eq h4,
    pointsTo_union_eq h5, pointsTo_union_eq h6, pointsTo_union_eq h7]

/-! ## The array's rows: the columns sent and the eight chunks kept -/

omit [FloatOps F] in
theorem mem_snd (c : Dev nD) (i : S8192x2048.Idx) :
    i ∈ (sndSrc c).view.set ↔ 1024 - 1024 * (c.val % 2) ≤ (i 1).val ∧ (i 1).val < 1024 - 1024 * (c.val % 2) + 1024 := by
  have h0 := ValueIdx.idx2_lt0 i
  rw [show (sndSrc c).view.set = (Rect.unit (s := S8192x2048) (k0_off2 c) S8192x1024.size (k0_off2_inb c)).set from View.set_slice_whole _ _,
    Rect.mem_set_unit, Fin.forall_fin_two, k0_off2_eq]
  simp only [Matrix.cons_val_zero, Matrix.cons_val_one, Matrix.head_cons]
  omega

omit [FloatOps F] in
theorem mem_ld (c : Dev nD) (k : Fin 8) (i : S8192x2048.Idx) :
    i ∈ (ldSrc c k).view.set ↔ (1024 * k.val ≤ (i 0).val ∧ (i 0).val < 1024 * k.val + 1024)
      ∧ (1024 * (c.val % 2) ≤ (i 1).val ∧ (i 1).val < 1024 * (c.val % 2) + 1024) := by
  rw [show (ldSrc c k).view.set = (Rect.unit (s := S8192x2048) (ldOff c k) S1024x1024.size (ldOff_inb c k)).set from View.set_slice_whole _ _,
    Rect.mem_set_unit, Fin.forall_fin_two, ldOff_eq]
  simp only [Matrix.cons_val_zero, Matrix.cons_val_one, Matrix.head_cons]

/-- The nine pieces of a device's rows. -/
def xI (c : Dev nD) : Fin 9 → Finset (Idx ((c : Thread nD τ).loc main_arg0)) := fun t =>
  Fin.cases (motive := fun _ => Finset (Idx ((c : Thread nD τ).loc main_arg0))) (sndSrc c).view.set (fun k => (ldSrc c k).view.set) t

omit [FloatOps F] in
theorem xI_disj (c : Dev nD) : ∀ a b : Fin 9, a < b → Disjoint (xI c a) (xI c b) := by
  intro a b hab
  have hz := mod_two_le c
  rw [Finset.disjoint_left]
  intro (i : S8192x2048.Idx)
  cases a using Fin.cases with
  | zero =>
    cases b using Fin.cases with
    | zero => exact absurd hab (lt_irrefl _)
    | succ k =>
      intro h1 h2
      have h1' := (mem_snd c i).mp h1
      have h2' := (mem_ld c k i).mp h2
      omega
  | succ j =>
    cases b using Fin.cases with
    | zero => exact absurd hab (Fin.not_lt_zero _)
    | succ k =>
      have hjk : j.val < k.val := Fin.succ_lt_succ_iff.mp hab
      intro h1 h2
      have h1' := (mem_ld c j i).mp h1
      have h2' := (mem_ld c k i).mp h2
      omega

omit [FloatOps F] in
theorem xI_cover (c : Dev nD) : ∀ i : S8192x2048.Idx, ∃ a, i ∈ xI c a := by
  intro i
  have h0 : (i 0).val < 8192 := ValueIdx.idx2_lt0 i
  have h1 : (i 1).val < 2048 := ValueIdx.idx2_lt1 i
  have hz := mod_two_le c
  by_cases hA : 1024 - 1024 * (c.val % 2) ≤ (i 1).val ∧ (i 1).val < 1024 - 1024 * (c.val % 2) + 1024
  · exact ⟨0, (mem_snd c i).mpr hA⟩
  · have hk : (i 0).val / 1024 < 8 := by omega
    refine ⟨Fin.succ ⟨(i 0).val / 1024, hk⟩, ?_⟩
    show i ∈ (ldSrc c ⟨(i 0).val / 1024, hk⟩).view.set
    refine (mem_ld c ⟨(i 0).val / 1024, hk⟩ i).mpr ?_
    show (1024 * ((i 0).val / 1024) ≤ (i 0).val ∧ (i 0).val < 1024 * ((i 0).val / 1024) + 1024)
      ∧ (1024 * (c.val % 2) ≤ (i 1).val ∧ (i 1).val < 1024 * (c.val % 2) + 1024)
    omega

omit [FloatOps F] in
/-- A device's rows of the array are the columns it sends and the eight chunks it keeps. -/
theorem x_split (c : Dev nD) :
    ((((c : Thread nD τ).loc main_arg0) ↦{fullShare} xC m c) : sProp 𝕄) ⊣⊢ xParts m c :=
  BIBase.BiEntails.of_eq (pointsTo_cut9 (xI c) (xI_disj c) (xI_cover c))

/-! ## The result: the rows the peer fills and the eight chunks the device fills -/

omit [FloatOps F] in
theorem mem_land (d : Dev nD) (i : S16384x1024.Idx) :
    i ∈ (sndDst d).view.set ↔ 8192 * (d.val % 2) ≤ (i 0).val ∧ (i 0).val < 8192 * (d.val % 2) + 8192 := by
  have h1 := ValueIdx.idx2_lt1 i
  rw [show (sndDst d).view.set = (Rect.unit (s := S16384x1024) (k0_off1 d) S8192x1024.size (k0_off1_inb d)).set from View.set_slice_whole _ _,
    Rect.mem_set_unit, Fin.forall_fin_two, k0_off1_eq]
  simp only [Matrix.cons_val_zero, Matrix.cons_val_one, Matrix.head_cons]
  omega

omit [FloatOps F] in
theorem mem_st (c : Dev nD) (k : Fin 8) (i : S16384x1024.Idx) :
    i ∈ (stDst c k).view.set ↔ 8192 * (c.val % 2) + 1024 * k.val ≤ (i 0).val ∧ (i 0).val < 8192 * (c.val % 2) + 1024 * k.val + 1024 := by
  have h1 := ValueIdx.idx2_lt1 i
  rw [show (stDst c k).view.set = (Rect.unit (s := S16384x1024) (k0_off5 c (BitVec.ofNat 32 (1024 * k.val))) S1024x1024.size (k0_off5_inb c k)).set from View.set_slice_whole _ _,
    Rect.mem_set_unit, Fin.forall_fin_two, k0_off5_eq]
  simp only [Matrix.cons_val_zero, Matrix.cons_val_one, Matrix.head_cons]
  omega

/-- The nine pieces of a device's result. -/
def oI (c : Dev nD) : Fin 9 → Finset (Idx ((c : Thread nD τ).loc main_v1)) := fun t =>
  Fin.cases (motive := fun _ => Finset (Idx ((c : Thread nD τ).loc main_v1))) (sndDst (peer c)).view.set (fun k => (stDst c k).view.set) t

omit [FloatOps F] in
theorem oI_disj (c : Dev nD) : ∀ a b : Fin 9, a < b → Disjoint (oI c a) (oI c b) := by
  intro a b hab
  have hz := mod_two_le c
  have hp := peer_mod c
  rw [Finset.disjoint_left]
  intro (i : S16384x1024.Idx)
  cases a using Fin.cases with
  | zero =>
    cases b using Fin.cases with
    | zero => exact absurd hab (lt_irrefl _)
    | succ k =>
      intro h1 h2
      have h1' := (mem_land (peer c) i).mp h1
      have h2' := (mem_st c k i).mp h2
      have hk := k.isLt
      omega
  | succ j =>
    cases b using Fin.cases with
    | zero => exact absurd hab (Fin.not_lt_zero _)
    | succ k =>
      have hjk : j.val < k.val := Fin.succ_lt_succ_iff.mp hab
      intro h1 h2
      have h1' := (mem_st c j i).mp h1
      have h2' := (mem_st c k i).mp h2
      omega

omit [FloatOps F] in
theorem oI_cover (c : Dev nD) : ∀ i : S16384x1024.Idx, ∃ a, i ∈ oI c a := by
  intro i
  have h0 : (i 0).val < 16384 := ValueIdx.idx2_lt0 i
  have hz := mod_two_le c
  have hp := peer_mod c
  by_cases hA : 8192 * ((peer c).val % 2) ≤ (i 0).val ∧ (i 0).val < 8192 * ((peer c).val % 2) + 8192
  · exact ⟨0, (mem_land (peer c) i).mpr hA⟩
  · have hk : ((i 0).val - 8192 * (c.val % 2)) / 1024 < 8 := by omega
    refine ⟨Fin.succ ⟨((i 0).val - 8192 * (c.val % 2)) / 1024, hk⟩, ?_⟩
    show i ∈ (stDst c ⟨((i 0).val - 8192 * (c.val % 2)) / 1024, hk⟩).view.set
    refine (mem_st c ⟨((i 0).val - 8192 * (c.val % 2)) / 1024, hk⟩ i).mpr ?_
    show 8192 * (c.val % 2) + 1024 * (((i 0).val - 8192 * (c.val % 2)) / 1024) ≤ (i 0).val
      ∧ (i 0).val < 8192 * (c.val % 2) + 1024 * (((i 0).val - 8192 * (c.val % 2)) / 1024) + 1024
    omega

omit [FloatOps F] in
/-- A device's result is the rows its peer fills and the eight chunks it fills itself. -/
theorem o_split (c : Dev nD) (f : Buf (Elt F) ((c : Thread nD τ).loc main_v1)) :
    ((((c : Thread nD τ).loc main_v1) ↦{fullShare} f) : sProp 𝕄) ⊣⊢ oParts c f :=
  BIBase.BiEntails.of_eq (pointsTo_cut9 (oI c) (oI_disj c) (oI_cover c))

/-! ## The scratch: its two slots -/

omit [FloatOps F] in
theorem mem_slot0 (i : S2x1024x1024.Idx) : i ∈ (slot0 : Memref sig .tc .vmem S1024x1024 .f32).view.set ↔ (i 0).val = 0 := by
  have h1 : (i 1).val < 1024 := (i 1).isLt
  have h2 : (i 2).val < 1024 := (i 2).isLt
  rw [show (slot0 : Memref sig .tc .vmem S1024x1024 .f32).view.set
      = (Rect.unit (s := S2x1024x1024) ![0, 0, 0] S1x1024x1024.size inb_S2x1024x1024_S1x1024x1024_0_0_0).set
    from (View.set_reshape _ _).trans (View.set_slice_whole _ _), Rect.mem_set_unit]
  constructor
  · intro h
    have := h 0
    simp only [Matrix.cons_val_zero] at this
    omega
  · intro h a
    match a with
    | ⟨0, _⟩ => show 0 ≤ (i 0).val ∧ (i 0).val < 0 + 1; omega
    | ⟨1, _⟩ => show 0 ≤ (i 1).val ∧ (i 1).val < 0 + 1024; omega
    | ⟨2, _⟩ => show 0 ≤ (i 2).val ∧ (i 2).val < 0 + 1024; omega

omit [FloatOps F] in
theorem mem_slot1 (i : S2x1024x1024.Idx) : i ∈ (slot1 : Memref sig .tc .vmem S1024x1024 .f32).view.set ↔ (i 0).val = 1 := by
  have h1 : (i 1).val < 1024 := (i 1).isLt
  have h2 : (i 2).val < 1024 := (i 2).isLt
  rw [show (slot1 : Memref sig .tc .vmem S1024x1024 .f32).view.set
      = (Rect.unit (s := S2x1024x1024) ![1, 0, 0] S1x1024x1024.size inb_S2x1024x1024_S1x1024x1024_1_0_0).set
    from (View.set_reshape _ _).trans (View.set_slice_whole _ _), Rect.mem_set_unit]
  constructor
  · intro h
    have := h 0
    simp only [Matrix.cons_val_zero] at this
    omega
  · intro h a
    match a with
    | ⟨0, _⟩ => show 1 ≤ (i 0).val ∧ (i 0).val < 1 + 1; omega
    | ⟨1, _⟩ => show 0 ≤ (i 1).val ∧ (i 1).val < 0 + 1024; omega
    | ⟨2, _⟩ => show 0 ≤ (i 2).val ∧ (i 2).val < 0 + 1024; omega

omit [FloatOps F] in
theorem slots_disjoint (c : Dev nD) :
    Disjoint ((slot0 : Memref sig .tc .vmem S1024x1024 .f32).view.set : Finset (Idx ((c : Thread nD τ).loc cc0_scratch0)))
      (slot1 : Memref sig .tc .vmem S1024x1024 .f32).view.set := by
  rw [Finset.disjoint_left]
  intro (i : S2x1024x1024.Idx) h0 h1
  have h0' := (mem_slot0 i).mp h0
  have h1' := (mem_slot1 i).mp h1
  omega

omit [FloatOps F] in
theorem slots_cover (c : Dev nD) :
    ((slot0 : Memref sig .tc .vmem S1024x1024 .f32).view.set : Finset (Idx ((c : Thread nD τ).loc cc0_scratch0)))
      ∪ (slot1 : Memref sig .tc .vmem S1024x1024 .f32).view.set = Finset.univ := by
  ext (i : S2x1024x1024.Idx)
  simp only [Finset.mem_union, Finset.mem_univ, iff_true]
  have h0 : (i 0).val < 2 := (i 0).isLt
  by_cases h : (i 0).val = 0
  · exact Or.inl ((mem_slot0 i).mpr h)
  · exact Or.inr ((mem_slot1 i).mpr (by omega))

omit [FloatOps F] in
/-- The scratch is its two slots. -/
theorem v_split (c : Dev nD) (f : Buf (Elt F) ((c : Thread nD τ).loc cc0_scratch0)) :
    ((((c : Thread nD τ).loc cc0_scratch0) ↦{fullShare} f) : sProp 𝕄) ⊣⊢ vParts c f := by
  refine BIBase.BiEntails.of_eq ?_
  rw [← slots_cover c, pointsTo_union_eq (slots_disjoint c)]
  rfl

omit [FloatOps F] in
/-- Two slots at different contents are still the whole scratch, at some contents. -/
theorem v_join (c : Dev nD) (f₀ f₁ : Buf (Elt F) ((c : Thread nD τ).loc cc0_scratch0)) :
    iprop(slotPts c 0 f₀ ∗ slotPts c 1 f₁)
      ⊢ (∃ f : Buf (Elt F) ((c : Thread nD τ).loc cc0_scratch0), (((c : Thread nD τ).loc cc0_scratch0) ↦{fullShare} f) : sProp 𝕄) := by
  refine (pointsTo_join (ℓ := (c : Thread nD τ).loc cc0_scratch0) (slots_disjoint c)).trans ?_
  rw [slots_cover c]
  iintro H
  iexists _
  iexact H

/-- info: 'Cert.KernelIdealProof.x_split' depends on axioms: [propext, Classical.choice, Quot.sound] -/
#guard_msgs in #print axioms x_split
/-- info: 'Cert.KernelIdealProof.o_split' depends on axioms: [propext, Classical.choice, Quot.sound] -/
#guard_msgs in #print axioms o_split
/-- info: 'Cert.KernelIdealProof.v_split' depends on axioms: [propext, Classical.choice, Quot.sound] -/
#guard_msgs in #print axioms v_split
/-- info: 'Cert.KernelIdealProof.v_join' depends on axioms: [propext, Classical.choice, Quot.sound] -/
#guard_msgs in #print axioms v_join

end Cert.KernelIdealProof

end
-- ==== Proof.KernelIdeal.Launch.lean ====
/-
  The launch: every device's body obligation, the protocol's cells allocated for all devices at once, and the run.
-/
import proofs.«900632_g7700000000000633_dist_a2a_v7x_xyz2x2x2_z_m8192_n1024_f32_1_alg».proof.Proof.KernelIdeal.Body
import proofs.«900632_g7700000000000633_dist_a2a_v7x_xyz2x2x2_z_m8192_n1024_f32_1_alg».proof.Proof.KernelIdeal.Cut
import proofs.«900632_g7700000000000633_dist_a2a_v7x_xyz2x2x2_z_m8192_n1024_f32_1_alg».proof.Proof.Gen.KernelIdeal.Frame

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation: the buffers cut into their pieces, the body over the pieces, the pieces joined -/

namespace AtLaunch

omit [FloatOps F] in
/-- The pipeline has no window: a product over its windows is empty. -/
theorem bigSep_W (Φ : Fin cfg0.W → sProp 𝕄) : bigSep Finset.univ Φ = iprop(emp) := by
  rw [show (Finset.univ : Finset (Fin cfg0.W)) = ∅ from Finset.univ_eq_empty]; exact bigSep_empty

/-- What the obligation's point starts from, -/
def bodyPre' (c : Dev nD) : sProp 𝕄 :=
  iprop(Φ₀ m c ∗ (dats m 0 c).owesAt () t₀.castSucc ∗ emp)
/-- and what it must end with. -/
def bodyPost' (c : Dev nD) : sProp 𝕄 :=
  iprop(Φ₁ m c ∗ (dats m 0 c).owesAt () t₀.succ ∗ emp)

end AtLaunch

open AtLaunch in
set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W, bigSep_W]
  show bodyPre' m c ⊢ wp frame (wpE (defs₀ (F := F)) 𝒱₀ c none) Set.univ (theBody (F := F)) (fun _ => bodyPost' m c)
  unfold bodyPre' Φ₀ start
  iintro ⟨⟨⟨⟨%K, Hg⟩, Hb, Hr, Hlev⟩, Hx, ⟨%fo, Ho⟩, ⟨%fv, Hv⟩⟩, Howe, -⟩
  ihave Hx' := (x_split m c).1 $$ Hx
  ihave Ho' := (o_split c fo).1 $$ Ho
  ihave Hv' := (v_split c fv).1 $$ Hv
  iapply (sound_body m K c fun _ => bodyPost' m c)
  unfold bodyPre
  isplitr []
  · isplitl [Hg]; · iexact Hg
    isplitl [Hb]; · iexact Hb
    isplitl [Hr]; · iexact Hr
    isplitl [Hlev]; · iexact Hlev
    isplitl [Howe]; · iexact Howe
    isplitl [Hx']; · iexact Hx'
    isplitl [Ho']
    · iexists fo; iexact Ho'
    · iexists fv; iexact Hv'
  · unfold bodyPost bodyPost' Φ₁
    iintro ⟨Howe, Hx, Ho, ⟨%f0, H0⟩, ⟨%f1, H1⟩, Hs⟩
    ihave Hx' := (x_split m c).2 $$ Hx
    ihave Ho' := (o_split c (outFinal m c)).2 $$ Ho
    ihave Hv' := (v_join c f0 f1) $$ [H0 H1]
    · isplitl [H0] <;> iassumption
    isplitr [Howe]
    · isplitl [Hx']; · iexact Hx'
      isplitl [Ho']; · iexact Ho'
      isplitl [Hv']; · iexact Hv'
      iexact Hs
    · isplitl [Howe]; · iexact Howe
      iempintro

/-! ## The launch -/

theorem ownSemFacts : Pipeline.OwnSemFacts cfg0.spec osem := by decide

namespace AtLaunch

omit [FloatOps F] in
theorem share_eq (c : Dev nD) (w : Fin cfg0.W) : (dats m 0 c).share w = fullShare := w.elim0

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_inj h2
  subst this; rfl
/-- The protocol's cells: seven a device. -/
def protoCells : Finset (GSem nD τ sig) := Finset.univ.map ⟨kcell, kcell_injective⟩

/-- The duties of a device's own cells, listed as (cell, round): the barrier's, the receive cell's, the send cell's; the
    eight loads by chunk; the eight stores by chunk. -/
abbrev tokJ : Fin 19 → Fin 7 × ℕ := fun
  | 0 => (0, 0) | 1 => (6, 0) | 2 => (5, 0)
  | 3 => (1, 0) | 4 => (2, 0) | 5 => (1, 1) | 6 => (2, 1) | 7 => (1, 2) | 8 => (2, 2) | 9 => (1, 3) | 10 => (2, 3)
  | 11 => (3, 0) | 12 => (4, 0) | 13 => (3, 1) | 14 => (4, 1) | 15 => (3, 2) | 16 => (4, 2) | 17 => (3, 3) | 18 => (4, 3)
  | ⟨_ + 19, h⟩ => absurd h (Nat.not_lt.2 (Nat.le_add_left _ _))
theorem tokJ_inj : Function.Injective tokJ := by decide
abbrev tokOf (cj : Dev nD × Fin 19) : GSem nD τ sig × ℕ × Unit := (kcell (cj.1, (tokJ cj.2).1), (tokJ cj.2).2, ())
theorem tokOf_injective : Function.Injective (tokOf : Dev nD × Fin 19 → GSem nD τ sig × ℕ × Unit) := by
  rintro ⟨c, j⟩ ⟨c', j'⟩ h
  have h1 := kcell_injective (congrArg (fun x : GSem nD τ sig × ℕ × Unit => x.1) h)
  have h2 : (tokJ j).2 = (tokJ j').2 := congrArg (fun x : GSem nD τ sig × ℕ × Unit => x.2.1) h
  have hc : c = c' := congrArg Prod.fst h1
  have hj : (tokJ j).1 = (tokJ j').1 := congrArg Prod.snd h1
  have : j = j' := tokJ_inj (Prod.ext hj h2)
  subst hc; subst this; rfl
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 () ∗ dutyTok ER (recvCell c) 0 () ∗ dutyTok ER (sendCell c) 0 () ∗ ldToks c ∗ stToks c)

/-- What the launch element deals device c. -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

omit [FloatOps F] in
theorem toks_of_fin19 (c : Dev nD) :
    (bigSep Finset.univ fun j : Fin 19 => (dutyTok ER (tokOf (c, j)).1 (tokOf (c, j)).2.1 (tokOf (c, j)).2.2 : sProp 𝕄)) ⊢ toks c := by
  rw [bigSep_fin19]
  unfold toks ldToks stToks
  iintro ⟨H0, H1, H2, H3, H4, H5, H6, H7, H8, H9, H10, H11, H12, H13, H14, H15, H16, H17, H18⟩
  isplitl [H0]; · iexact H0
  isplitl [H1]; · iexact H1
  isplitl [H2]; · iexact H2
  isplitl [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

omit [FloatOps F] in
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) ⊢ bigSep Finset.univ fun c : Dev nD => toks c := by
    unfold protoToks; rw [bigSep_map, bigSep_univ_prod]
    exact bigSep_mono fun c _ => toks_of_fin19 c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The two load cells, the two store cells, the send and the receive cell are the kernel's own six; -/
theorem ownSems0_eq (c : Dev nD) : (Pipeline.ownSems0 (Ix := Unit) (Name := ℕ) (U := UU) (Lvl := ℕ) (Val := Elt F) (τ := τ) osem c : sProp 𝕄)
    = iprop(semVal (ldCell c 0) 0 ∗ semVal (ldCell c 1) 0 ∗ semVal (stCell c 0) 0 ∗ semVal (stCell c 1) 0 ∗ semVal (sendCell c) 0 ∗ semVal (recvCell c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

omit [FloatOps F] in
theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: the tokens of the duties it pays, -/
def keepToks (c : Dev nD) : sProp 𝕄 := iprop(payToks c ∗ ldToks c ∗ stToks c)
/-- and its positions. -/
def linear (c : Dev nD) : sProp 𝕄 := iprop(poss c ∗ keepToks c)

omit [FloatOps F] in
theorem ghost_intro (K : Dev nD × Fin 7 → ℕ) (c : Dev nD) : iprop(records m K ∗ linear c) ⊢ G' m c := by
  unfold records linear keepToks G' ghost invs reacheds
  iintro ⟨⟨#HI, #HR⟩, Hpos, Hpay, Hld, Hst⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (peer c, 0)); iexact HI
    iapply (inv_at m K (peer c, 6)); iexact HI
  isplitl [Hpos]; · iexact Hpos
  isplitr
  · isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (peer c, 0)); iexact HR
    iapply (reached_at (F := F) (peer c, 6)); iexact HR
  isplitl [Hpay]; · iexact Hpay
  isplitl [Hld]; · iexact Hld
  iexact Hst

omit [FloatOps F] in
/-- The tokens dealt across each pair: a barrier's token and a receive cell's token go to the peer. -/
theorem toks_around : (bigSep Finset.univ fun c : Dev nD => (toks c : sProp 𝕄)) ⊢ bigSep Finset.univ fun c : Dev nD => keepToks c := by
  unfold toks keepToks payToks
  simp only [bigSep_sep']
  rw [bigSep_univ_equiv peerEquiv (fun c : Dev nD => (dutyTok ER (barCell c) 0 () : sProp 𝕄)),
    bigSep_univ_equiv peerEquiv (fun c : Dev nD => (dutyTok ER (recvCell c) 0 () : sProp 𝕄))]
  iintro ⟨H1, H2, H3, H4, H5⟩
  isplitl [H1 H2 H3]
  · isplitl [H1]; · iexact H1
    isplitl [H2]; · iexact H2
    iexact H3
  isplitl [H4]; · iexact H4
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (Rd m) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) keepToks).symm).trans
      (bigSep_mono fun c _ => show _ ⊢ linear c from Entails.of_eq (by unfold linear poss; rw [bigSep_fin7])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩
theorem recv_ne_bar : (SemLoc.dma recvS.sem : SemLoc sig) ≠ .reg barS := fun h => by cases h

omit [FloatOps F] in
/-- What device d owes device c's barrier cell: a unit if d is c's peer. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), Finsupp.zero_apply, Nat.zero_add, tallyAt_apply]
  by_cases h : d = peer c
  · subst h; rw [peer_peer, if_pos ⟨rfl, rfl⟩, if_pos rfl]
  · rw [if_neg (fun ⟨h1, _⟩ => h (((congrArg peer (bar_eq_iff.mp h1)).trans (peer_peer d)).symm)), if_neg h]

omit [FloatOps F] in
/-- What device d owes device c's receive cell: the transfer's credit if d is c's peer. -/
theorem owed_recv (d c : Dev nD) : O₀ d (recvCell c) () = if d = peer c then N8 else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (((congrArg peer (recv_eq_iff.mp h1)).trans (peer_peer d)).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N8 : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N8, if_pos (Finset.mem_univ _)]

omit [FloatOps F] in
theorem creds (c : Dev nD) :
    (Pipeline.launchCred O₀ c : sProp 𝕄) ⊢ iprop(cred (tallyAt (barCell c) () 1) ∗ cred (tallyAt (recvCell c) () N8)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What a device carries into the first point: its start, its rows of the array, its result at any contents; -/
def X (c : Dev nD) : sProp 𝕄 :=
  iprop(start m c ∗ (((c : Thread nD τ).loc main_arg0) ↦{fullShare} xC m c)
    ∗ (∃ f : Buf (Elt F) ((c : Thread nD τ).loc main_v1), ((c : Thread nD τ).loc main_v1) ↦{fullShare} f))
/-- and out of the last: its rows unchanged, its result at its final contents. -/
def Y (c : Dev nD) : sProp 𝕄 :=
  iprop((((c : Thread nD τ).loc main_arg0) ↦{fullShare} xC m c) ∗ (((c : Thread nD τ).loc main_v1) ↦{fullShare} outFinal m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold X start G'
  isplitl
  · isplitl [HG H1 HN Hlev]
    · isplitl [HG]; · iexact HG
      isplitl [H1]; · iexact H1
      isplitl [HN]; · iexact HN
      iexact Hlev
    isplitl [Hx]; · iexact Hx
    iexists _; iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, Hv⟩
  isplitl [Hs]; · iexact Hs
  isplitl [Hx]; · iexact Hx
  isplitl [Ho]; · iexact Ho
  iexact Hv

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, Hv, Hs⟩
  isplitl [Hx Ho]
  · isplitl [Hx] <;> iassumption
  isplitl [Hs]; · iexact Hs
  iexact Hv

/-- The pipeline stages nothing: it waits on no cell. -/
theorem waits (c : Dev nD) : (levAts L lv : sProp 𝕄) ⊢ Pipeline.cellsWaits cfgs (dats m) () 0 c :=
  Pipeline.cellsWaits_intro cfgs (dats m) () 0 c fun w s t => w.elim0

end AtLaunch

/-! ### The run -/

open AtLaunch in
set_option maxRecDepth 8000 in
/-- At the compiled mesh of eight devices, for any float values, from any memory with zero counters: every weakly fair
    execution of @main terminates, and every final state has each device's rows of the array unchanged and its result at
    `outFinal`. -/
theorem run_main : θ_run defs (onTc (τ := τ) (main (F := F))) (s₀ m ρ) (fun r => ∀ c : Dev nD,
    r.2.mem ((c : Thread nD τ).loc main_arg0) = xC m c ∧ r.2.mem ((c : Thread nD τ).loc main_v1) = outFinal m c) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_arg0) = xC m c ∧ s.mem ((c : Thread nD τ).loc main_v1) = outFinal m c)
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ hx, Buf.eq_of_forall_mem_univ ho⟩
      iexact HSI)
    (hQ := fun _ h c => (h c).2.2)

/-- info: 'Cert.KernelIdealProof.run_main' depends on axioms: [propext, Classical.choice, Quot.sound] -/
#guard_msgs in #print axioms run_main

end Cert.KernelIdealProof

end
-- ==== Proof.Kernel.Proto.lean ====
/-
  The all-to-all step on the mesh axis z, as a protocol of cells.

  Device c holds rows [8192 z, 8192 z + 8192) of the whole 16384 × 2048 array (z = c mod 2) and must end with
  columns [1024 z, 1024 z + 1024) of it.  Its peer is the device with the other z and the same x, y.  The body
  signals the peer's barrier semaphore and waits for the peer's signal; sends the column half the peer wants
  into the peer's result rows; copies its own column half, eight row chunks of 1024, through a two-slot
  scratch into its own result rows; and waits for its send and for the peer's landing.

  This module fixes the vocabulary: the peer involution, the memrefs each transfer goes through, the
  semaphore cells, and what each array must hold at the end.
-/
import proofs.«900632_g7700000000000633_dist_a2a_v7x_xyz2x2x2_z_m8192_n1024_f32_1_alg».proof.Proof.Gen.Kernel
import proofs.«900632_g7700000000000633_dist_a2a_v7x_xyz2x2x2_z_m8192_n1024_f32_1_alg».proof.Proof.Gen.Kernel.Skeleton
import proofs.«900632_g7700000000000633_dist_a2a_v7x_xyz2x2x2_z_m8192_n1024_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's own (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The peer: the device with the other z coordinate -/

def peer (c : Dev nD) : Dev nD := ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide
theorem peer_mod (c : Dev nD) : (peer c).val % 2 = 1 - c.val % 2 := by revert c; decide
theorem mod_two_le (c : Dev nD) : c.val % 2 ≤ 1 := by omega

/-- The kernel's two device chains both name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def peerEquiv : Dev nD ≃ Dev nD := ⟨peer, peer, peer_peer, peer_peer⟩

/-! ## The memrefs -/

abbrev xM : Memref sig .tc .hbm S8192x2048 .f32 := Memref.whole main_arg0
abbrev oM : Memref sig .tc .hbm S16384x1024 .f32 := Memref.whole main_v1
abbrev vM : Memref sig .tc .vmem S2x1024x1024 .f32 := Memref.whole cc0_scratch0

/-- The remote transfer's source on device c: the columns of its rows that the peer wants. -/
abbrev sndSrc (c : Dev nD) : Memref sig .tc .hbm S8192x1024 .f32 :=
  xM.slice (Rect.unit (s := S8192x2048) (k0_off2 c) S8192x1024.size (k0_off2_inb c)) (fun _ => rfl)
/-- Its destination, a row half of the PEER's result: the rows device c holds. -/
abbrev sndDst (c : Dev nD) : Memref sig .tc .hbm S8192x1024 .f32 :=
  oM.slice (Rect.unit (s := S16384x1024) (k0_off1 c) S8192x1024.size (k0_off1_inb c)) (fun _ => rfl)

/-- Row chunk k of the columns device c keeps: the offsets the eight local loads read at. -/
def ldOff (c : Dev nD) : Fin 8 → Fin 2 → Nat
  | 0 => k0_off3 c | 1 => k0_off4 c | 2 => k0_off6 c | 3 => k0_off7 c
  | 4 => k0_off8 c | 5 => k0_off9 c | 6 => k0_off10 c | 7 => k0_off11 c
theorem ldOff_inb (c : Dev nD) : ∀ (k : Fin 8) a, ldOff c k a + S1024x1024.size a ≤ S8192x2048.size a
  | 0 => k0_off3_inb c | 1 => k0_off4_inb c | 2 => k0_off6_inb c | 3 => k0_off7_inb c
  | 4 => k0_off8_inb c | 5 => k0_off9_inb c | 6 => k0_off10_inb c | 7 => k0_off11_inb c
theorem ldOff_eq (c : Dev nD) : ∀ k : Fin 8, ldOff c k = ![1024 * k.val, 1024 * (c.val % 2)]
  | 0 => k0_off3_eq c | 1 => k0_off4_eq c | 2 => k0_off6_eq c | 3 => k0_off7_eq c
  | 4 => k0_off8_eq c | 5 => k0_off9_eq c | 6 => k0_off10_eq c | 7 => k0_off11_eq c

abbrev ldSrc (c : Dev nD) (k : Fin 8) : Memref sig .tc .hbm S1024x1024 .f32 :=
  xM.slice (Rect.unit (s := S8192x2048) (ldOff c k) S1024x1024.size (ldOff_inb c k)) (fun _ => rfl)

/-- The two scratch slots. -/
abbrev slot0 : Memref sig .tc .vmem S1024x1024 .f32 :=
  (vM.slice (Rect.unit (s := S2x1024x1024) ![0, 0, 0] S1x1024x1024.size inb_S2x1024x1024_S1x1024x1024_0_0_0) (fun _ => rfl)).squeeze S1024x1024 squeezes_S1x1024x1024_S1024x1024
abbrev slot1 : Memref sig .tc .vmem S1024x1024 .f32 :=
  (vM.slice (Rect.unit (s := S2x1024x1024) ![1, 0, 0] S1x1024x1024.size inb_S2x1024x1024_S1x1024x1024_1_0_0) (fun _ => rfl)).squeeze S1024x1024 squeezes_S1x1024x1024_S1024x1024
def slot : Fin 2 → Memref sig .tc .vmem S1024x1024 .f32
  | 0 => slot0 | 1 => slot1

/-- Row chunk k of the result rows device c fills itself. -/
abbrev stDst (c : Dev nD) (k : Fin 8) : Memref sig .tc .hbm S1024x1024 .f32 :=
  oM.slice (Rect.unit (s := S16384x1024) (k0_off5 c (BitVec.ofNat 32 (1024 * k.val))) S1024x1024.size (k0_off5_inb c k)) (fun _ => rfl)

/-! ## The semaphores and cells -/

abbrev barS : Sem sig := (SemArray.scalar (sig.barrier 0 rfl) : Sems sig S_).sem
abbrev sendS : DmaSems sig S_ := cc0_scratch3
abbrev recvS : DmaSems sig S_ := cc0_scratch4
abbrev ldS0 : DmaSems sig S_ := (cc0_scratch1.slice (Rect.unit (s := S2) ![0] S1.size inb_S2_S1_0)).squeeze S_ squeezes_S1_S_
abbrev ldS1 : DmaSems sig S_ := (cc0_scratch1.slice (Rect.unit (s := S2) ![1] S1.size inb_S2_S1_1)).squeeze S_ squeezes_S1_S_
abbrev stS0 : DmaSems sig S_ := (cc0_scratch2.slice (Rect.unit (s := S2) ![0] S1.size inb_S2_S1_0)).squeeze S_ squeezes_S1_S_
abbrev stS1 : DmaSems sig S_ := (cc0_scratch2.slice (Rect.unit (s := S2) ![1] S1.size inb_S2_S1_1)).squeeze S_ squeezes_S1_S_

theorem ldS0_sem : ldS0.sem = (⟨0, by decide⟩ : DmaSem sig) := by decide
theorem ldS1_sem : ldS1.sem = (⟨1, by decide⟩ : DmaSem sig) := by decide
theorem stS0_sem : stS0.sem = (⟨2, by decide⟩ : DmaSem sig) := by decide
theorem stS1_sem : stS1.sem = (⟨3, by decide⟩ : DmaSem sig) := by decide
theorem sendS_sem : sendS.sem = (⟨4, by decide⟩ : DmaSem sig) := by decide
theorem recvS_sem : recvS.sem = (⟨5, by decide⟩ : DmaSem sig) := by decide

abbrev ldS : Fin 2 → DmaSems sig S_
  | 0 => ldS0 | 1 => ldS1
abbrev stS : Fin 2 → DmaSems sig S_
  | 0 => stS0 | 1 => stS1

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev ldCell (c : Dev nD) (i : Fin 2) : GSem nD τ sig := ((c : Thread nD τ), .dma (ldS i).sem)
abbrev stCell (c : Dev nD) (i : Fin 2) : GSem nD τ sig := ((c : Thread nD τ), .dma (stS i).sem)

/-- The kernel's OWN (scoped) semaphores, as the launch theorem indexes them: the two load cells, the two store cells,
    send, receive; -/
abbrev osem : Fin 6 → SemLoc sig := fun
  | 0 => .dma ldS0.sem | 1 => .dma ldS1.sem | 2 => .dma stS0.sem | 3 => .dma stS1.sem | 4 => .dma sendS.sem | 5 => .dma recvS.sem
/-- all seven of the protocol's, as this proof indexes them: the barrier first. -/
abbrev csem : Fin 7 → SemLoc sig := fun
  | 0 => .reg barS | 1 => .dma ldS0.sem | 2 => .dma ldS1.sem | 3 => .dma stS0.sem | 4 => .dma stS1.sem | 5 => .dma sendS.sem | 6 => .dma recvS.sem
abbrev kcell (ck : Dev nD × Fin 7) : GSem nD τ sig := ((ck.1 : Thread nD τ), csem ck.2)

/-- The credit of the remote transfer (8192 × 1024 words) and of a local chunk copy (1024 × 1024 words). -/
abbrev N8 : ℕ := (sndDst (0 : Dev nD)).view.dmaCredit
abbrev N1 : ℕ := (slot0 : Memref sig .tc .vmem S1024x1024 .f32).view.dmaCredit
theorem N8_pos : 0 < N8 := View.dmaCredit_pos _ (by decide)
theorem N1_pos : 0 < N1 := View.dmaCredit_pos _ (by decide)

/-- The chunk a local cell moves in its round r: slot i carries chunks i, i + 2, i + 4, i + 6. -/
def chunk (i : Fin 2) (r : ℕ) : Fin 8 := ⟨(2 * r + i.val) % 8, Nat.mod_lt _ (by decide)⟩

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device c's rows of the array, as launched. -/
def xC (c : Dev nD) : Buf (Elt F) ((c : Thread nD τ).loc main_arg0) := m ((c : Thread nD τ).loc main_arg0)

/-- What device c's result must hold in the end: on its own rows its own columns 1024 z …, on the other rows the
    peer's columns 1024 z … (the peer holds those rows). -/
def outFinal (c : Dev nD) : Buf (Elt F) ((c : Thread nD τ).loc main_v1) := fun (i : S16384x1024.Idx) =>
  have h0 : (i 0).val < 16384 := ValueIdx.idx2_lt0 i
  have h1 : (i 1).val < 1024 := ValueIdx.idx2_lt1 i
  have hz : c.val % 2 ≤ 1 := mod_two_le c
  if h : 8192 * (c.val % 2) ≤ (i 0).val ∧ (i 0).val < 8192 * (c.val % 2) + 8192 then
    xC m c (ValueIdx.ix2 (n0 := 8192) (n1 := 2048) ⟨(i 0).val - 8192 * (c.val % 2), by omega⟩ ⟨1024 * (c.val % 2) + (i 1).val, by omega⟩)
  else
    xC m (peer c) (ValueIdx.ix2 (n0 := 8192) (n1 := 2048) ⟨(i 0).val - (8192 - 8192 * (c.val % 2)), by omega⟩ ⟨1024 * (c.val % 2) + (i 1).val, by omega⟩)

/-! ## The pieces of the three buffers the protocol hands around -/

/-- The rows of device d's result that device c's transfer fills (d is c's peer), at contents f. -/
def landPts (c d : Dev nD) (f : Buf (Elt F) ((d : Thread nD τ).loc main_v1)) : sProp 𝕄 :=
  (sndDst c).view.loc (d : Thread nD τ) ↦[(sndDst c).view.set]{fullShare} f
/-- The columns of device c's rows that its transfer reads. -/
def sndPts (c : Dev nD) : sProp 𝕄 :=
  (sndSrc c).view.loc (c : Thread nD τ) ↦[(sndSrc c).view.set]{fullShare} xC m c
/-- Row chunk k of the columns device c keeps. -/
def ldPts (c : Dev nD) (k : Fin 8) : sProp 𝕄 :=
  (ldSrc c k).view.loc (c : Thread nD τ) ↦[(ldSrc c k).view.set]{fullShare} xC m c
/-- Scratch slot i at contents f. -/
def slotPts (c : Dev nD) : Fin 2 → Buf (Elt F) ((c : Thread nD τ).loc cc0_scratch0) → sProp 𝕄
  | 0, f => slot0.view.loc (c : Thread nD τ) ↦[slot0.view.set]{fullShare} f
  | 1, f => slot1.view.loc (c : Thread nD τ) ↦[slot1.view.set]{fullShare} f
/-- What scratch contents f show through slot i. -/
def slotRead (c : Dev nD) : Fin 2 → Buf (Elt F) ((c : Thread nD τ).loc cc0_scratch0) → S1024x1024.Idx → Elt F .f32
  | 0, f => slot0.view.read (Elt F) f
  | 1, f => slot1.view.read (Elt F) f
/-- Row chunk k of the result rows device c fills itself, at contents f. -/
def stPts (c : Dev nD) (k : Fin 8) (f : Buf (Elt F) ((c : Thread nD τ).loc main_v1)) : sProp 𝕄 :=
  (stDst c k).view.loc (c : Thread nD τ) ↦[(stDst c k).view.set]{fullShare} f

/-- Slot i holding chunk k of device c's kept columns, read through the slot. -/
def slotHolds (c : Dev nD) (i : Fin 2) (k : Fin 8) : sProp 𝕄 :=
  iprop(∃ f, slotPts c i f ∗ ⌜slotRead c i f = (ldSrc c k).view.read (Elt F) (xC m c)⌝)

/-! ## The schedule -/

/-- What the peer's signal hands c: the peer's landing rows and that the peer has reached round 0 of its receive cell. -/
def barPay (c : Dev nD) : sProp 𝕄 := iprop((∃ f, landPts c (peer c) f) ∗ reached ER (recvCell (peer c)) 0)
/-- What the peer's transfer hands c on landing: c's other rows at their final contents. -/
def recvPay (c : Dev nD) : sProp 𝕄 := landPts (peer c) c (outFinal m c)
def sendPay (c : Dev nD) : sProp 𝕄 := sndPts m c
/-- A load hands back the slot holding the chunk and the chunk's source; -/
def ldPay (c : Dev nD) (i : Fin 2) (k : Fin 8) : sProp 𝕄 := iprop(slotHolds m c i k ∗ ldPts m c k)
/-- a store the result's chunk at its final contents and the slot. -/
def stPay (c : Dev nD) (i : Fin 2) (k : Fin 8) : sProp 𝕄 := iprop(stPts c k (outFinal m c) ∗ ∃ f, slotPts c i f)

theorem csem_inj : Function.Injective (csem : Fin 7 → SemLoc sig) := by decide
theorem csem_ne (a b : Fin 7) (h : a ≠ b := by decide) : csem a ≠ csem b := fun e => h (csem_inj e)

/-- How many rounds a cell has: the barrier, send and receive cells one, each local cell four. -/
def rounds (sm : SemLoc sig) : ℕ :=
  if sm = csem 0 ∨ sm = csem 5 ∨ sm = csem 6 then 1 else if sm = csem 1 ∨ sm = csem 2 ∨ sm = csem 3 ∨ sm = csem 4 then 4 else 0
theorem rounds_csem : ∀ j : Fin 7, rounds (csem j) = if j = 0 ∨ j = 5 ∨ j = 6 then 1 else 4 := by decide

/-- Every round of every cell has one duty. -/
def Rd : Rounds.Schedule (GSem nD τ sig) Unit 𝕄 where
  duties g r := if g.1.2 = .tc ∧ r < rounds g.2 then {()} else ∅
  unitless _ := False
  amount g _ _ := if g.2 = .reg barS then 1 else if g.2 = .dma sendS.sem ∨ g.2 = .dma recvS.sem then N8 else N1
  payload g r _ :=
    if g.2 = .reg barS then barPay g.1.1
    else if g.2 = .dma recvS.sem then recvPay m g.1.1
    else if g.2 = .dma sendS.sem then sendPay m g.1.1
    else if g.2 = .dma ldS0.sem then ldPay m g.1.1 0 (chunk 0 r)
    else if g.2 = .dma ldS1.sem then ldPay m g.1.1 1 (chunk 1 r)
    else if g.2 = .dma stS0.sem then stPay m g.1.1 0 (chunk 0 r)
    else if g.2 = .dma stS1.sem then stPay m g.1.1 1 (chunk 1 r)
    else iprop(emp)
  amount_pos g _ _ _ := by
    by_cases h : g.2 = .reg barS
    · rw [if_pos h]; exact Nat.one_pos
    · rw [if_neg h]; split
      · exact N8_pos
      · exact N1_pos

instance Rd_payload_storable (g : GSem nD τ sig) (r : ℕ) (d : Unit) :
    BI.Storable (upEmb : UEmb _ 𝕄) ((Rd (F := F) m).payload g r d) := by
  dsimp only [Rd]
  unfold barPay recvPay sendPay ldPay stPay slotHolds landPts sndPts ldPts slotPts stPts
  (repeat' split) <;> infer_instance

section Sched
variable (c : Dev nD)

omit [FloatOps F] in
theorem duties_of (j : Fin 7) (r : ℕ) (h : r < rounds (csem j)) : (Rd (F := F) m).duties (kcell (c, j)) r = {()} := by
  dsimp only [Rd]; exact if_pos ⟨rfl, h⟩
omit [FloatOps F] in
theorem duties_later (j : Fin 7) (R : ℕ) (hR : rounds (csem j) ≤ R) : ∀ r, R ≤ r → (Rd (F := F) m).duties (kcell (c, j)) r = ∅ :=
  fun r hr => by dsimp only [Rd]; exact if_neg fun h => by have := h.2; omega

omit [FloatOps F] in
theorem duties_bar : (Rd (F := F) m).duties (barCell c) 0 = {()} := duties_of m c 0 0 (by decide)
omit [FloatOps F] in
theorem duties_send : (Rd (F := F) m).duties (sendCell c) 0 = {()} := duties_of m c 5 0 (by decide)
omit [FloatOps F] in
theorem duties_recv : (Rd (F := F) m).duties (recvCell c) 0 = {()} := duties_of m c 6 0 (by decide)
omit [FloatOps F] in
theorem duties_ld (i : Fin 2) (r : ℕ) (hr : r < 4) : (Rd (F := F) m).duties (ldCell c i) r = {()} := by
  match i with
  | 0 => exact duties_of m c 1 r (by rw [rounds_csem]; exact hr)
  | 1 => exact duties_of m c 2 r (by rw [rounds_csem]; exact hr)
omit [FloatOps F] in
theorem duties_st (i : Fin 2) (r : ℕ) (hr : r < 4) : (Rd (F := F) m).duties (stCell c i) r = {()} := by
  match i with
  | 0 => exact duties_of m c 3 r (by rw [rounds_csem]; exact hr)
  | 1 => exact duties_of m c 4 r (by rw [rounds_csem]; exact hr)

omit [FloatOps F] in
theorem amount_bar (r : ℕ) (d : Unit) : (Rd (F := F) m).amount (barCell c) r d = 1 := by dsimp only [Rd]; exact if_pos rfl
omit [FloatOps F] in
theorem amount_send (r : ℕ) (d : Unit) : (Rd (F := F) m).amount (sendCell c) r d = N8 := by
  dsimp only [Rd]; rw [if_neg (csem_ne 5 0)]; exact if_pos (.inl rfl)
omit [FloatOps F] in
theorem amount_recv (r : ℕ) (d : Unit) : (Rd (F := F) m).amount (recvCell c) r d = N8 := by
  dsimp only [Rd]; rw [if_neg (csem_ne 6 0)]; exact if_pos (.inr rfl)
omit [FloatOps F] in
theorem amount_ld (i : Fin 2) (r : ℕ) (d : Unit) : (Rd (F := F) m).amount (ldCell c i) r d = N1 := by
  match i with
  | 0 => dsimp only [Rd]; rw [if_neg (csem_ne 1 0), if_neg (fun h => h.elim (csem_ne 1 5) (csem_ne 1 6))]
  | 1 => dsimp only [Rd]; rw [if_neg (csem_ne 2 0), if_neg (fun h => h.elim (csem_ne 2 5) (csem_ne 2 6))]
omit [FloatOps F] in
theorem amount_st (i : Fin 2) (r : ℕ) (d : Unit) : (Rd (F := F) m).amount (stCell c i) r d = N1 := by
  match i with
  | 0 => dsimp only [Rd]; rw [if_neg (csem_ne 3 0), if_neg (fun h => h.elim (csem_ne 3 5) (csem_ne 3 6))]
  | 1 => dsimp only [Rd]; rw [if_neg (csem_ne 4 0), if_neg (fun h => h.elim (csem_ne 4 5) (csem_ne 4 6))]

omit [FloatOps F] in
theorem expect_eq (g : GSem nD τ sig) (r : ℕ) (h : (Rd (F := F) m).duties g r = {()}) : (Rd (F := F) m).expect g r = (Rd (F := F) m).amount g r () := by
  unfold Schedule.expect Schedule.amountOf; rw [h, Finset.sum_singleton]
omit [FloatOps F] in
theorem expect_bar : (Rd (F := F) m).expect (barCell c) 0 = 1 := (expect_eq m _ _ (duties_bar m c)).trans (amount_bar m c 0 ())
omit [FloatOps F] in
theorem expect_send : (Rd (F := F) m).expect (sendCell c) 0 = N8 := (expect_eq m _ _ (duties_send m c)).trans (amount_send m c 0 ())
omit [FloatOps F] in
theorem expect_recv : (Rd (F := F) m).expect (recvCell c) 0 = N8 := (expect_eq m _ _ (duties_recv m c)).trans (amount_recv m c 0 ())
omit [FloatOps F] in
theorem expect_ld (i : Fin 2) (r : ℕ) (hr : r < 4) : (Rd (F := F) m).expect (ldCell c i) r = N1 := (expect_eq m _ _ (duties_ld m c i r hr)).trans (amount_ld m c i r ())
omit [FloatOps F] in
theorem expect_st (i : Fin 2) (r : ℕ) (hr : r < 4) : (Rd (F := F) m).expect (stCell c i) r = N1 := (expect_eq m _ _ (duties_st m c i r hr)).trans (amount_st m c i r ())

omit [FloatOps F] in
theorem payload_bar (r : ℕ) (d : Unit) : (Rd (F := F) m).payload (barCell c) r d = barPay c := by dsimp only [Rd]; exact if_pos rfl
omit [FloatOps F] in
theorem payload_recv (r : ℕ) (d : Unit) : (Rd (F := F) m).payload (recvCell c) r d = recvPay m c := by
  dsimp only [Rd]; rw [if_neg (csem_ne 6 0), if_pos rfl]
omit [FloatOps F] in
theorem payload_send (r : ℕ) (d : Unit) : (Rd (F := F) m).payload (sendCell c) r d = sendPay m c := by
  dsimp only [Rd]; rw [if_neg (csem_ne 5 0), if_neg (csem_ne 5 6), if_pos rfl]
omit [FloatOps F] in
theorem payload_ld (i : Fin 2) (r : ℕ) (d : Unit) : (Rd (F := F) m).payload (ldCell c i) r d = ldPay m c i (chunk i r) := by
  match i with
  | 0 => dsimp only [Rd]; rw [if_neg (csem_ne 1 0), if_neg (csem_ne 1 6), if_neg (csem_ne 1 5), if_pos rfl]
  | 1 => dsimp only [Rd]; rw [if_neg (csem_ne 2 0), if_neg (csem_ne 2 6), if_neg (csem_ne 2 5), if_neg (csem_ne 2 1), if_pos rfl]
omit [FloatOps F] in
theorem payload_st (i : Fin 2) (r : ℕ) (d : Unit) : (Rd (F := F) m).payload (stCell c i) r d = stPay m c i (chunk i r) := by
  match i with
  | 0 => dsimp only [Rd]; rw [if_neg (csem_ne 3 0), if_neg (csem_ne 3 6), if_neg (csem_ne 3 5), if_neg (csem_ne 3 1), if_neg (csem_ne 3 2), if_pos rfl]
  | 1 => dsimp only [Rd]; rw [if_neg (csem_ne 4 0), if_neg (csem_ne 4 6), if_neg (csem_ne 4 5), if_neg (csem_ne 4 1), if_neg (csem_ne 4 2), if_neg (csem_ne 4 3), if_pos rfl]

omit [FloatOps F] in
/-- The rest of a round no duty of which has been taken: its one payload. -/
theorem rest_eq (g : GSem nD τ sig) (r : ℕ) (h : (Rd (F := F) m).duties g r = {()}) :
    bigSep ((Rd (F := F) m).duties g r \ ∅) (fun d => (Rd (F := F) m).payload g r d) = (Rd (F := F) m).payload g r () := by
  rw [Finset.sdiff_empty, h, bigSep_singleton]

end Sched

/-! ## What each device owes at launch; the levels -/

/-- Device c owes its peer's receive cell the transfer's credit and its peer's barrier cell one unit — summed so that
    the signal peels the last summand. -/
def O₁ (c : Dev nD) : CellTallies nD τ sig Unit := tallyAt (recvCell (peer c)) () N8
def O₀ (c : Dev nD) : CellTallies nD τ sig Unit := O₁ c + tallyAt (barCell (peer c)) () 1

def L (g : GSem nD τ sig) : Finset Unit := if g.1.2 = .tc then {()} else ∅
/-- barrier cells at 1, receive cells at 2, everything else at 0. -/
def lv (g : GSem nD τ sig) (_ : Unit) : ℕ := if g.2 = .reg barS then 1 else if g.2 = .dma recvS.sem then 2 else 0

/-! ## The ghost state a device's body starts from -/

/-- The cells' invariants device c's body opens, under the names K the launch allocated them at: its own seven, and its
    peer's barrier cell (its signal) and receive cell (its transfer). -/
def invs (K : Dev nD × Fin 7 → ℕ) (c : Dev nD) : sProp 𝕄 :=
  iprop(cellInv ER (Rd m) (K (c, 0)) (barCell c)
    ∗ cellInv ER (Rd m) (K (c, 1)) (ldCell c 0) ∗ cellInv ER (Rd m) (K (c, 2)) (ldCell c 1)
    ∗ cellInv ER (Rd m) (K (c, 3)) (stCell c 0) ∗ cellInv ER (Rd m) (K (c, 4)) (stCell c 1)
    ∗ cellInv ER (Rd m) (K (c, 5)) (sendCell c) ∗ cellInv ER (Rd m) (K (c, 6)) (recvCell c)
    ∗ cellInv ER (Rd m) (K (peer c, 0)) (barCell (peer c)) ∗ cellInv ER (Rd m) (K (peer c, 6)) (recvCell (peer c)))

instance invs_persistent (K : Dev nD × Fin 7 → ℕ) (c : Dev nD) : BI.Persistent (invs m K c) := by unfold invs; infer_instance

/-- Its positions: round 0 of each of its seven cells. -/
def poss (c : Dev nD) : sProp 𝕄 :=
  iprop(atPos ER (barCell c) 0 ∅ 0
    ∗ atPos ER (ldCell c 0) 0 ∅ 0 ∗ atPos ER (ldCell c 1) 0 ∅ 0 ∗ atPos ER (stCell c 0) 0 ∅ 0 ∗ atPos ER (stCell c 1) 0 ∅ 0
    ∗ atPos ER (sendCell c) 0 ∅ 0 ∗ atPos ER (recvCell c) 0 ∅ 0)

/-- The rounds it knows reached: round 0 of the four local cells, of its send and receive cells, and of the two cells of
    its peer that it pays. -/
def reacheds (c : Dev nD) : sProp 𝕄 :=
  iprop(reached ER (ldCell c 0) 0 ∗ reached ER (ldCell c 1) 0 ∗ reached ER (stCell c 0) 0 ∗ reached ER (stCell c 1) 0
    ∗ reached ER (sendCell c) 0 ∗ reached ER (recvCell c) 0
    ∗ reached ER (barCell (peer c)) 0 ∗ reached ER (recvCell (peer c)) 0)

instance reacheds_persistent (c : Dev nD) : BI.Persistent (reacheds (F := F) c) := by unfold reacheds; infer_instance

/-- The tokens of the duties it pays: its peer's barrier and receive duties, its own send duty, -/
def payToks (c : Dev nD) : sProp 𝕄 :=
  iprop(dutyTok ER (barCell (peer c)) 0 () ∗ dutyTok ER (recvCell (peer c)) 0 () ∗ dutyTok ER (sendCell c) 0 ())
/-- and, by chunk, the eight load duties and the eight store duties of its local cells. -/
def ldToks (c : Dev nD) : sProp 𝕄 :=
  iprop(dutyTok ER (ldCell c 0) 0 ()
    ∗ dutyTok ER (ldCell c 1) 0 ()
    ∗ dutyTok ER (ldCell c 0) 1 ()
    ∗ dutyTok ER (ldCell c 1) 1 ()
    ∗ dutyTok ER (ldCell c 0) 2 ()
    ∗ dutyTok ER (ldCell c 1) 2 ()
    ∗ dutyTok ER (ldCell c 0) 3 ()
    ∗ dutyTok ER (ldCell c 1) 3 ())
def stToks (c : Dev nD) : sProp 𝕄 :=
  iprop(dutyTok ER (stCell c 0) 0 ()
    ∗ dutyTok ER (stCell c 1) 0 ()
    ∗ dutyTok ER (stCell c 0) 1 ()
    ∗ dutyTok ER (stCell c 1) 1 ()
    ∗ dutyTok ER (stCell c 0) 2 ()
    ∗ dutyTok ER (stCell c 1) 2 ()
    ∗ dutyTok ER (stCell c 0) 3 ()
    ∗ dutyTok ER (stCell c 1) 3 ())

def ghost (K : Dev nD × Fin 7 → ℕ) (c : Dev nD) : sProp 𝕄 :=
  iprop(invs m K c ∗ poss c ∗ reacheds c ∗ payToks c ∗ ldToks c ∗ stToks c)

/-- What device c's body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N8) ∗ levAts L lv)

/-- Before the point: that, its rows of the array, its result at any contents, its scratch at any contents. -/
def Φ₀ (c : Dev nD) : sProp 𝕄 :=
  iprop(start m c ∗ (((c : Thread nD τ).loc main_arg0) ↦{fullShare} xC m c)
    ∗ (∃ f : Buf (Elt F) ((c : Thread nD τ).loc main_v1), ((c : Thread nD τ).loc main_v1) ↦{fullShare} f)
    ∗ (∃ f : Buf (Elt F) ((c : Thread nD τ).loc cc0_scratch0), ((c : Thread nD τ).loc cc0_scratch0) ↦{fullShare} f))
/-- After it: its rows unchanged, its result at its final contents, its scratch, and its six own cells at zero, closed. -/
def Φ₁ (c : Dev nD) : sProp 𝕄 :=
  iprop((((c : Thread nD τ).loc main_arg0) ↦{fullShare} xC m c)
    ∗ (((c : Thread nD τ).loc main_v1) ↦{fullShare} outFinal m c)
    ∗ (∃ f : Buf (Elt F) ((c : Thread nD τ).loc cc0_scratch0), ((c : Thread nD τ).loc cc0_scratch0) ↦{fullShare} f)
    ∗ semVal (ldCell c 0) 0 ∗ semVal (ldCell c 1) 0 ∗ semVal (stCell c 0) 0 ∗ semVal (stCell c 1) 0
    ∗ semVal (sendCell c) 0 ∗ semVal (recvCell c) 0)

/-! ## The pipeline's proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's interface

The buffers arrive whole and are cut into the pieces the transfers move; the body runs over the pieces; the pieces are
joined again. `bodyPre` / `bodyPost` are the body's triple over the pieces. -/

/-- The pieces of the array: the columns sent, and the eight chunks kept. -/
def xParts (c : Dev nD) : sProp 𝕄 :=
  iprop(sndPts m c ∗ ldPts m c 0 ∗ ldPts m c 1 ∗ ldPts m c 2 ∗ ldPts m c 3 ∗ ldPts m c 4 ∗ ldPts m c 5 ∗ ldPts m c 6 ∗ ldPts m c 7)
/-- The pieces of the result at contents f: the rows the peer fills, and the eight chunks the device fills. -/
def oParts (c : Dev nD) (f : Buf (Elt F) ((c : Thread nD τ).loc main_v1)) : sProp 𝕄 :=
  iprop(landPts (peer c) c f ∗ stPts c 0 f ∗ stPts c 1 f ∗ stPts c 2 f ∗ stPts c 3 f ∗ stPts c 4 f ∗ stPts c 5 f ∗ stPts c 6 f ∗ stPts c 7 f)
/-- The two slots of the scratch at contents f. -/
def vParts (c : Dev nD) (f : Buf (Elt F) ((c : Thread nD τ).loc cc0_scratch0)) : sProp 𝕄 :=
  iprop(slotPts c 0 f ∗ slotPts c 1 f)

def bodyPre (K : Dev nD × Fin 7 → ℕ) (c : Dev nD) : sProp 𝕄 :=
  iprop(ghost m K c ∗ cred (tallyAt (barCell c) () 1) ∗ cred (tallyAt (recvCell c) () N8) ∗ levAts L lv
    ∗ (dats m 0 c).owesAt () t₀.castSucc
    ∗ xParts m c ∗ (∃ f, oParts c f) ∗ (∃ f, vParts c f))

def bodyPost (c : Dev nD) : sProp 𝕄 :=
  iprop((dats m 0 c).owesAt () t₀.succ
    ∗ xParts m c ∗ oParts c (outFinal m c) ∗ (∃ f₀, slotPts c 0 f₀) ∗ (∃ f₁, slotPts c 1 f₁)
    ∗ semVal (ldCell c 0) 0 ∗ semVal (ldCell c 1) 0 ∗ semVal (stCell c 0) 0 ∗ semVal (stCell c 1) 0
    ∗ semVal (sendCell c) 0 ∗ semVal (recvCell c) 0)

/-- The body as the pipeline calls it. -/
abbrev theBody : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) cc0_scratch1 cc0_scratch2 cc0_scratch3 cc0_scratch4

end Cert.KernelProof

end
-- ==== Proof.Kernel.Geom.lean ====
/-
  The geometry of the transfers: where each memref's indices sit in its buffer, and what each transfer's landing
  writes, read at an index.
-/
import proofs.«900632_g7700000000000633_dist_a2a_v7x_xyz2x2x2_z_m8192_n1024_f32_1_alg».proof.Proof.Kernel.Proto
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots, by number -/

omit [FloatOps F] in
theorem slotPts_zero (c : Dev nD) (f : Buf (Elt F) ((c : Thread nD τ).loc cc0_scratch0)) :
    (slotPts c 0 f : sProp 𝕄) = (slot0.view.loc (c : Thread nD τ) ↦[slot0.view.set]{fullShare} f) := rfl
omit [FloatOps F] in
theorem slotPts_one (c : Dev nD) (f : Buf (Elt F) ((c : Thread nD τ).loc cc0_scratch0)) :
    (slotPts c 1 f : sProp 𝕄) = (slot1.view.loc (c : Thread nD τ) ↦[slot1.view.set]{fullShare} f) := rfl
omit [FloatOps F] in
theorem slotRead_zero (c : Dev nD) (f : Buf (Elt F) ((c : Thread nD τ).loc cc0_scratch0)) :
    slotRead c 0 f = slot0.view.read (Elt F) f := rfl
omit [FloatOps F] in
theorem slotRead_one (c : Dev nD) (f : Buf (Elt F) ((c : Thread nD τ).loc cc0_scratch0)) :
    slotRead c 1 f = slot1.view.read (Elt F) f := rfl

/-! ## Where each memref's indices sit, by coordinates -/

omit [FloatOps F] in
theorem stDst_emb (c : Dev nD) (k : Fin 8) (y : S1024x1024.Idx) :
    (((stDst c k).view.emb y : S16384x1024.Idx) 0 : ℕ) = 8192 * (c.val % 2) + 1024 * k.val + (y 0).val
      ∧ (((stDst c k).view.emb y : S16384x1024.Idx) 1 : ℕ) = (y 1).val := by
  constructor
  · show (k0_off5 c (BitVec.ofNat 32 (1024 * k.val))) 0 + 1 * (y 0).val = _
    rw [k0_off5_eq]; show 8192 * (c.val % 2) + 1024 * k.val + 1 * (y 0).val = _; omega
  · show (k0_off5 c (BitVec.ofNat 32 (1024 * k.val))) 1 + 1 * (y 1).val = _
    rw [k0_off5_eq]; show 0 + 1 * (y 1).val = _; omega

omit [FloatOps F] in
theorem ldSrc_emb (c : Dev nD) (k : Fin 8) (y : S1024x1024.Idx) :
    (((ldSrc c k).view.emb y : S8192x2048.Idx) 0 : ℕ) = 1024 * k.val + (y 0).val
      ∧ (((ldSrc c k).view.emb y : S8192x2048.Idx) 1 : ℕ) = 1024 * (c.val % 2) + (y 1).val := by
  constructor
  · show (ldOff c k) 0 + 1 * (y 0).val = _
    rw [ldOff_eq]; show 1024 * k.val + 1 * (y 0).val = _; omega
  · show (ldOff c k) 1 + 1 * (y 1).val = _
    rw [ldOff_eq]; show 1024 * (c.val % 2) + 1 * (y 1).val = _; omega

omit [FloatOps F] in
theorem sndDst_emb (c : Dev nD) (y : S8192x1024.Idx) :
    (((sndDst c).view.emb y : S16384x1024.Idx) 0 : ℕ) = 8192 * (c.val % 2) + (y 0).val
      ∧ (((sndDst c).view.emb y : S16384x1024.Idx) 1 : ℕ) = (y 1).val := by
  constructor
  · show (k0_off1 c) 0 + 1 * (y 0).val = _
    rw [k0_off1_eq]; show 8192 * (c.val % 2) + 1 * (y 0).val = _; omega
  · show (k0_off1 c) 1 + 1 * (y 1).val = _
    rw [k0_off1_eq]; show 0 + 1 * (y 1).val = _; omega

omit [FloatOps F] in
theorem sndSrc_emb (c : Dev nD) (y : S8192x1024.Idx) :
    (((sndSrc c).view.emb y : S8192x2048.Idx) 0 : ℕ) = (y 0).val
      ∧ (((sndSrc c).view.emb y : S8192x2048.Idx) 1 : ℕ) = 1024 - 1024 * (c.val % 2) + (y 1).val := by
  constructor
  · show (k0_off2 c) 0 + 1 * (y 0).val = _
    rw [k0_off2_eq]; show 0 + 1 * (y 0).val = _; omega
  · show (k0_off2 c) 1 + 1 * (y 1).val = _
    rw [k0_off2_eq]; show 1024 - 1024 * (c.val % 2) + 1 * (y 1).val = _; omega

omit [FloatOps F] in
/-- Two indices of the array with the same coordinates are the same. -/
theorem idx2_ext {n0 n1 : ℕ} (i j : (⟨2, ![n0, n1]⟩ : Shape).Idx) (h0 : (i 0).val = (j 0).val) (h1 : (i 1).val = (j 1).val) : i = j := by
  funext a; match a with
  | ⟨0, _⟩ => exact Fin.ext h0
  | ⟨1, _⟩ => exact Fin.ext h1

omit [FloatOps F] in
/-- A chunk store writes the chunk's final contents. -/
theorem st_val (c : Dev nD) (k : Fin 8) (fd : Buf (Elt F) ((c : Thread nD τ).loc main_v1)) (w : S1024x1024.Idx → Elt F .f32)
    (hw : w = (ldSrc c k).view.read (Elt F) (xC m c)) :
    ∀ i ∈ (stDst c k).view.set, (stDst c k).view.write (Elt F) fd w Finset.univ i = outFinal m c i := by
  intro i hi
  obtain ⟨y, rfl⟩ := View.exists_emb_of_mem_set _ hi
  rw [View.write_emb_of_mem _ _ (Finset.mem_univ y), hw, View.read_apply]
  obtain ⟨d0, d1⟩ := stDst_emb c k y
  obtain ⟨s0, s1⟩ := ldSrc_emb c k y
  have y0 : (y 0).val < 1024 := ValueIdx.idx2_lt0 y
  have y1 : (y 1).val < 1024 := ValueIdx.idx2_lt1 y
  have hz := mod_two_le c
  have hk : k.val < 8 := k.isLt
  unfold outFinal
  rw [dif_pos ⟨by omega, by omega⟩]
  rw [cast_cast, cast_eq]
  congr 1
  refine idx2_ext _ _ ?_ ?_
  · show _ = (((stDst c k).view.emb y : S16384x1024.Idx) 0 : ℕ) - 8192 * (c.val % 2); omega
  · show _ = 1024 * (c.val % 2) + (((stDst c k).view.emb y : S16384x1024.Idx) 1 : ℕ); omega

omit [FloatOps F] in
theorem xC_peer_peer (c : Dev nD) (d : Dev nD) (hd : d = c) (j : S8192x2048.Idx) : xC m d j = xC m c j := by
  subst hd; rfl

omit [FloatOps F] in
/-- The remote transfer writes the final contents of the peer's other rows. -/
theorem land_val (c : Dev nD) (fd : Buf (Elt F) ((sndDst c).view.loc (peer c : Thread nD τ))) :
    ∀ i ∈ (sndDst c).view.set,
      (sndDst c).view.write (Elt F) fd ((sndSrc c).view.read (Elt F) (xC m c)) Finset.univ i = outFinal m (peer c) i := by
  intro i hi
  obtain ⟨y, rfl⟩ := View.exists_emb_of_mem_set _ hi
  rw [View.write_emb_of_mem _ _ (Finset.mem_univ y), View.read_apply]
  obtain ⟨d0, d1⟩ := sndDst_emb c y
  obtain ⟨s0, s1⟩ := sndSrc_emb c y
  have y0 : (y 0).val < 8192 := ValueIdx.idx2_lt0 y
  have y1 : (y 1).val < 1024 := ValueIdx.idx2_lt1 y
  have hz := mod_two_le c
  have hp := peer_mod c
  unfold outFinal
  rw [dif_neg (by omega)]
  rw [cast_cast, cast_eq, xC_peer_peer m c (peer (peer c)) (peer_peer c)]
  congr 1
  refine idx2_ext _ _ ?_ ?_
  · show _ = (((sndDst c).view.emb y : S16384x1024.Idx) 0 : ℕ) - (8192 - 8192 * ((peer c).val % 2)); omega
  · show _ = 1024 * ((peer c).val % 2) + (((sndDst c).view.emb y : S16384x1024.Idx) 1 : ℕ); omega

/-! ## What each landing leaves -/

omit [FloatOps F] in
/-- The remote transfer's landing: the peer's other rows now hold their final contents, whatever they held. -/
theorem land_pay (c : Dev nD) (fd : Buf (Elt F) ((sndDst c).view.loc (peer c : Thread nD τ))) :
    (((sndDst c).view.loc (peer c : Thread nD τ) ↦[(sndDst c).view.set]{fullShare}
        ((sndDst c).view.write (Elt F) fd ((sndSrc c).view.read (Elt F) (xC m c)) Finset.univ)) : sProp 𝕄)
      ⊢ recvPay m (peer c) := by
  unfold recvPay
  rw [peer_peer]
  unfold landPts
  rw [pointsTo_congr (land_val m c fd)]

omit [FloatOps F] in
/-- A load's landing in slot 0: the slot shows the chunk, and the chunk's source comes back. -/
theorem ld_pay0 (c : Dev nD) (k : Fin 8) (fd : Buf (Elt F) ((c : Thread nD τ).loc cc0_scratch0)) :
    iprop((slot0.view.loc (c : Thread nD τ) ↦[slot0.view.set]{fullShare}
          (slot0.view.write (Elt F) fd ((ldSrc c k).view.read (Elt F) (xC m c)) Finset.univ))
        ∗ ((ldSrc c k).view.loc (c : Thread nD τ) ↦[(ldSrc c k).view.set]{fullShare} xC m c))
      ⊢ (ldPay m c 0 k : sProp 𝕄) := by
  unfold ldPay slotHolds ldPts
  iintro ⟨H1, H2⟩
  isplitl [H1]
  · iexists (slot0.view.write (Elt F) fd ((ldSrc c k).view.read (Elt F) (xC m c)) Finset.univ)
    rw [slotPts_zero, slotRead_zero]
    isplitl [H1]
    · iexact H1
    · ipureintro; exact View.read_write_univ _ _
  · iexact H2

omit [FloatOps F] in
theorem ld_pay1 (c : Dev nD) (k : Fin 8) (fd : Buf (Elt F) ((c : Thread nD τ).loc cc0_scratch0)) :
    iprop((slot1.view.loc (c : Thread nD τ) ↦[slot1.view.set]{fullShare}
          (slot1.view.write (Elt F) fd ((ldSrc c k).view.read (Elt F) (xC m c)) Finset.univ))
        ∗ ((ldSrc c k).view.loc (c : Thread nD τ) ↦[(ldSrc c k).view.set]{fullShare} xC m c))
      ⊢ (ldPay m c 1 k : sProp 𝕄) := by
  unfold ldPay slotHolds ldPts
  iintro ⟨H1, H2⟩
  isplitl [H1]
  · iexists (slot1.view.write (Elt F) fd ((ldSrc c k).view.read (Elt F) (xC m c)) Finset.univ)
    rw [slotPts_one, slotRead_one]
    isplitl [H1]
    · iexact H1
    · ipureintro; exact View.read_write_univ _ _
  · iexact H2

omit [FloatOps F] in
/-- A store's landing from slot 0 showing chunk k: the result's chunk k holds its final contents, and the slot comes back. -/
theorem st_pay0 (c : Dev nD) (k : Fin 8) (f : Buf (Elt F) ((c : Thread nD τ).loc cc0_scratch0))
    (fd : Buf (Elt F) ((c : Thread nD τ).loc main_v1))
    (hf : slotRead c 0 f = (ldSrc c k).view.read (Elt F) (xC m c)) :
    iprop(((stDst c k).view.loc (c : Thread nD τ) ↦[(stDst c k).view.set]{fullShare}
          ((stDst c k).view.write (Elt F) fd (slot0.view.read (Elt F) f) Finset.univ))
        ∗ (slot0.view.loc (c : Thread nD τ) ↦[slot0.view.set]{fullShare} f))
      ⊢ (stPay m c 0 k : sProp 𝕄) := by
  unfold stPay stPts
  rw [pointsTo_congr (st_val m c k fd (slot0.view.read (Elt F) f) hf)]
  iintro ⟨H1, H2⟩
  isplitl [H1]
  · iexact H1
  · iexists f; rw [slotPts_zero]; iexact H2

omit [FloatOps F] in
theorem st_pay1 (c : Dev nD) (k : Fin 8) (f : Buf (Elt F) ((c : Thread nD τ).loc cc0_scratch0))
    (fd : Buf (Elt F) ((c : Thread nD τ).loc main_v1))
    (hf : slotRead c 1 f = (ldSrc c k).view.read (Elt F) (xC m c)) :
    iprop(((stDst c k).view.loc (c : Thread nD τ) ↦[(stDst c k).view.set]{fullShare}
          ((stDst c k).view.write (Elt F) fd (slot1.view.read (Elt F) f) Finset.univ))
        ∗ (slot1.view.loc (c : Thread nD τ) ↦[slot1.view.set]{fullShare} f))
      ⊢ (stPay m c 1 k : sProp 𝕄) := by
  unfold stPay stPts
  rw [pointsTo_congr (st_val m c k fd (slot1.view.read (Elt F) f) hf)]
  iintro ⟨H1, H2⟩
  isplitl [H1]
  · iexact H1
  · iexists f; rw [slotPts_one]; iexact H2

/-- info: 'Cert.KernelProof.land_pay' depends on axioms: [propext, Classical.choice, Quot.sound] -/
#guard_msgs in #print axioms land_pay
/-- info: 'Cert.KernelProof.ld_pay0' depends on axioms: [propext, Classical.choice, Quot.sound] -/
#guard_msgs in #print axioms ld_pay0
/-- info: 'Cert.KernelProof.ld_pay1' depends on axioms: [propext, Classical.choice, Quot.sound] -/
#guard_msgs in #print axioms ld_pay1
/-- info: 'Cert.KernelProof.st_pay0' depends on axioms: [propext, Classical.choice, Quot.sound] -/
#guard_msgs in #print axioms st_pay0
/-- info: 'Cert.KernelProof.st_pay1' depends on axioms: [propext, Classical.choice, Quot.sound] -/
#guard_msgs in #print axioms st_pay1

end Cert.KernelProof

end
-- ==== Proof.Kernel.Remote.lean ====
/-
  The three steps of the body that reach the peer: the signal to the peer's barrier cell, the wait on the device's own,
  and the transfer into the peer's result rows.
-/
import proofs.«900632_g7700000000000633_dist_a2a_v7x_xyz2x2x2_z_m8192_n1024_f32_1_alg».proof.Proof.Kernel.Geom

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- At its barrier wait a device owes its peer's receive credit only: a receive cell, above its barrier cell. -/
theorem mayWait_bar (c : Dev nD) :
    (levAts L lv : sProp 𝕄) ⊢ MayWait (c : Thread nD τ) (.reg barS) () (O₁ c) := by
  have hL : ∀ d : Dev nD, ∀ sm : SemLoc sig, () ∈ L (((d : Thread nD τ), sm) : GSem nD τ sig) := fun d sm => by
    unfold L; rw [if_pos rfl]; exact Finset.mem_singleton_self _
  refine Pipeline.mayWait_of_levAts (hL c _) fun g i h => ?_
  have h' : 0 < (tallyAt (recvCell (peer c)) () N8 : CellTallies nD τ sig Unit) g i := h
  obtain ⟨rfl, rfl⟩ := Pipeline.tallyAt_pos h'
  refine ⟨hL (peer c) _, ?_⟩
  show lv (barCell c) () < lv (recvCell (peer c)) ()
  unfold lv
  rw [if_pos rfl, if_neg (csem_ne 6 0), if_pos rfl]
  exact Nat.lt_succ_self 1

section Steps

/-- The signal to the peer's barrier cell: it hands the peer this device's landing rows (at whatever they hold) and that
    this device has reached round 0 of its receive cell; the device then owes the transfer's credit only. -/
theorem wp_signal_peer {α : Type} {Q : α → sProp 𝕄} {k : PUnit → Prog (TpuEff nD τ sig (Elt F) Λ₀ .tc) α} (c : Dev nD) (κ : ℕ) (f : Buf (Elt F) ((c : Thread nD τ).loc main_v1)) {W : Waits sig Unit} :
    iprop(cellInv ER (Rd m) κ (barCell (peer c)) ∗ owes (c : Thread nD τ) (O₀ c) W ∗ dutyTok ER (barCell (peer c)) 0 ()
        ∗ landPts (peer c) c f ∗ reached ER (recvCell c) 0 ∗ reached ER (barCell (peer c)) 0)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (((⟨k0_dev1 c, k0_dev1_lt c⟩ : Dev nD) : Thread nD τ)) barS (1#32 : BitVec 32).toNat) k) Q) := by
  rw [dev1_eq, show (1#32 : BitVec 32).toNat = 1 from rfl]
  have hpay : (Rd m).payload (barCell (peer c)) 0 () = iprop((∃ f, landPts (peer c) c f) ∗ reached ER (recvCell c) 0) := by
    rw [payload_bar]; unfold barPay; rw [peer_peer]
  have key := Rounds.wp_signal (defs := defs₀ (F := F)) 𝒱₀ ER (Rd m) (c : Thread nD τ) none (Γ := .empty) (Q := Q)
    (dst := (peer c : Thread nD τ)) (sem := barS) (r := 0) (d := ()) (k' := 1) (k := k) (κ := κ)
    (by rw [duties_bar]; exact Finset.mem_singleton_self _) (amount_bar m (peer c) 0 ()) () (O₀ := O₀ c) (O₁ c) rfl (W := W) (Es := Set.univ)
  rw [hpay] at key
  iintro ⟨Hinv, Howes, Htok, Hland, Hr1, Hr2⟩
  iapply key
  isplitl [Hinv]; · iexact Hinv
  isplitl [Howes]; · iexact Howes
  isplitl [Htok]; · iexact Htok
  isplitl [Hland Hr1]
  · isplitl [Hland]
    · iexists f; iexact Hland
    · iexact Hr1
  · iexact Hr2

/-- The wait on the device's own barrier cell, owing the transfer's credit: the peer's landing rows come with it. -/
theorem wp_bar_wait {α : Type} {Q : α → sProp 𝕄} {k : PUnit → Prog (TpuEff nD τ sig (Elt F) Λ₀ .tc) α} (c : Dev nD) (κ : ℕ) {W : Waits sig Unit} :
    iprop(cellInv ER (Rd m) κ (barCell c) ∗ cred (tallyAt (barCell c) () 1) ∗ owes (c : Thread nD τ) (O₁ c) W ∗ levAts L lv
        ∗ atPos ER (barCell c) 0 ∅ 0)
      ⊢ iprop(((owes (c : Thread nD τ) (O₁ c) (insert (SemLoc.reg barS, ()) W) ∗ atPos ER (barCell c) 1 ∅ 0 ∗ reached ER (barCell c) 1 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (1#32 : BitVec 32).toNat) k) Q) := by
  rw [show (1#32 : BitVec 32).toNat = 1 from rfl]
  have key := Rounds.wp_wait_rest_token (defs := defs₀ (F := F)) 𝒱₀ ER (Rd m) (c : Thread nD τ) none (Γ := .empty) (Q := Q)
    (w := .semWait barS 1) (sm := .reg barS) (k' := 1) (Es := Set.univ) (κ := κ)
    (fun K => wpE_semWait_eq (defs := defs₀ (F := F)) 𝒱₀ (c : Thread nD τ) none Set.univ K) (Set.mem_univ κ) (k := k) () (O := O₁ c) (W := W) (R := 0) (m := 0) (T := ∅)
    (by rw [expect_bar])
  rw [rest_eq m _ _ (duties_bar m c), payload_bar] at key
  iintro ⟨Hinv, Hcred, Howes, Hlev, Hat⟩
  iapply key
  isplitl [Hinv]; · iexact Hinv
  isplitl [Hcred]; · iexact Hcred
  isplitl [Howes]; · iexact Howes
  isplitl [Hlev]
  · iapply (mayWait_bar c); iexact Hlev
  · iexact Hat

/-- The transfer, at a device n that is the peer. -/
theorem wp_send_at {α : Type} {Q : α → sProp 𝕄} {k : PUnit → Prog (TpuEff nD τ sig (Elt F) Λ₀ .tc) α} (c n : Dev nD) (hn : n = peer c) (κ₁ κ₂ : ℕ)
    (fd : Buf (Elt F) ((peer c : Thread nD τ).loc main_v1)) {W : Waits sig Unit}
    {hsc : (sndDst c : Memref sig (Dev.tc n : Thread nD τ).2.kind .hbm S8192x1024 .f32).view.ref.isScScratch = false}
    {hsrc : (sndSrc c).view.WordExact} {hdst : (sndDst c).view.WordExact}
    {hsem : DmaTarget.Typed .hbm (.dma recvS.sem) (.remote (Dev.tc n : Thread nD τ) (sndDst c) (.dma sendS.sem) hsc)} :
    iprop(cellInv ER (Rd m) κ₁ (sendCell c) ∗ cellInv ER (Rd m) κ₂ (recvCell (peer c))
        ∗ sndPts m c ∗ landPts c (peer c) fd
        ∗ owes (c : Thread nD τ) (O₁ c) W
        ∗ dutyTok ER (sendCell c) 0 () ∗ reached ER (sendCell c) 0
        ∗ dutyTok ER (recvCell (peer c)) 0 () ∗ reached ER (recvCell (peer c)) 0)
      ⊢ iprop(((cred (tallyAt (sendCell c) () N8) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSrc c) (.remote (Dev.tc n : Thread nD τ) (sndDst c) (.dma sendS.sem) hsc)
                (.dma recvS.sem) hsrc hdst hsem) k) Q) := by
  subst hn
  unfold sndPts landPts
  exact Rounds.wp_send_pointsTo (defs := defs₀ (F := F)) 𝒱₀ ER (Rd m) (c : Thread nD τ) none (Γ := .empty) (Q := Q)
    (c' := (peer c : Thread nD τ)) (src := sndSrc c) (dst := sndDst c) (hsc := hsc) (sS := .dma sendS.sem) (sem := .dma recvS.sem)
    (hsrc := hsrc) (hdst := hdst) (hsem := hsem) (k := k) (q := fullShare) (fs := xC m c) (fd := fd)
    (r₁ := 0) (r₂ := 0) (d₁ := ()) (d₂ := ()) (κ₁ := κ₁) (κ₂ := κ₂)
    (by rw [duties_send]; exact Finset.mem_singleton_self _) (by rw [duties_recv]; exact Finset.mem_singleton_self _)
    () () N8 rfl (amount_send m c 0 ()) (amount_recv m (peer c) 0 ()) (O₀ := O₁ c) 0 (zero_add _).symm (W := W)
    (by rw [payload_send]; exact Entails.refl _)
    (by rw [payload_recv]; exact land_pay m c fd) (Es := Set.univ)

/-- The transfer into the peer's result rows: the sent columns go away until the send cell's wait, the peer's rows until
    the peer's receive wait; the device then owes nothing. -/
theorem wp_send_peer {α : Type} {Q : α → sProp 𝕄} {k : PUnit → Prog (TpuEff nD τ sig (Elt F) Λ₀ .tc) α} (c : Dev nD) (κ₁ κ₂ : ℕ) (fd : Buf (Elt F) ((peer c : Thread nD τ).loc main_v1)) {W : Waits sig Unit}
    {hsc : (sndDst c : Memref sig (Dev.tc (⟨k0_dev2 c, k0_dev2_lt c⟩ : Dev nD) : Thread nD τ).2.kind .hbm S8192x1024 .f32).view.ref.isScScratch = false}
    {hsrc : (sndSrc c).view.WordExact} {hdst : (sndDst c).view.WordExact}
    {hsem : DmaTarget.Typed .hbm (.dma recvS.sem) (.remote (Dev.tc (⟨k0_dev2 c, k0_dev2_lt c⟩ : Dev nD) : Thread nD τ) (sndDst c) (.dma sendS.sem) hsc)} :
    iprop(cellInv ER (Rd m) κ₁ (sendCell c) ∗ cellInv ER (Rd m) κ₂ (recvCell (peer c))
        ∗ sndPts m c ∗ landPts c (peer c) fd
        ∗ owes (c : Thread nD τ) (O₁ c) W
        ∗ dutyTok ER (sendCell c) 0 () ∗ reached ER (sendCell c) 0
        ∗ dutyTok ER (recvCell (peer c)) 0 () ∗ reached ER (recvCell (peer c)) 0)
      ⊢ iprop(((cred (tallyAt (sendCell c) () N8) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndSrc c) (.remote (Dev.tc (⟨k0_dev2 c, k0_dev2_lt c⟩ : Dev nD) : Thread nD τ) (sndDst c) (.dma sendS.sem) hsc)
                (.dma recvS.sem) hsrc hdst hsem) k) Q) :=
  wp_send_at m c ⟨k0_dev2 c, k0_dev2_lt c⟩ (dev2_eq c) κ₁ κ₂ fd

end Steps

/-- info: 'Cert.KernelProof.mayWait_bar' depends on axioms: [propext, Classical.choice, Quot.sound] -/
#guard_msgs in #print axioms mayWait_bar
/-- info: 'Cert.KernelProof.wp_signal_peer' depends on axioms: [propext, Classical.choice, Quot.sound] -/
#guard_msgs in #print axioms wp_signal_peer
/-- info: 'Cert.KernelProof.wp_bar_wait' depends on axioms: [propext, Classical.choice, Quot.sound] -/
#guard_msgs in #print axioms wp_bar_wait
/-- info: 'Cert.KernelProof.wp_send_peer' depends on axioms: [propext, Classical.choice, Quot.sound] -/
#guard_msgs in #print axioms wp_send_peer

end Cert.KernelProof

end
-- ==== Proof.Kernel.Steps.lean ====
/-
  The rules for the local copies through the two scratch slots and for a wait on one of the device's own DMA cells,
  at this protocol's cells.
-/
import proofs.«900632_g7700000000000633_dist_a2a_v7x_xyz2x2x2_z_m8192_n1024_f32_1_alg».proof.Proof.Kernel.Remote

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rules at this protocol's cells -/

section Steps

/-- A load into slot 0, round r of its cell: chunk `chunk 0 r` of the kept columns goes into the slot. -/
theorem wp_ld0 {α : Type} {Q : α → sProp 𝕄} {k : PUnit → Prog (TpuEff nD τ sig (Elt F) Λ₀ .tc) α} (c : Dev nD) (r : ℕ) (hr : r < 4) (k' : Fin 8) (κ : ℕ) (fd : Buf (Elt F) ((c : Thread nD τ).loc cc0_scratch0)) (hk : chunk 0 r = k')
    {hsrc : (ldSrc c k').view.WordExact} {hdst : (slot0 : Memref sig .tc .vmem S1024x1024 .f32).view.WordExact}
    {hsem : DmaTarget.Typed (nD := nD) .hbm (.dma ldS0.sem) (.here slot0 : DmaTarget nD τ sig Proc.tc .vmem S1024x1024 .f32)} :
    iprop(cellInv ER (Rd m) κ (ldCell c 0) ∗ ldPts m c k' ∗ slotPts c 0 fd
        ∗ dutyTok ER (ldCell c 0) r () ∗ reached ER (ldCell c 0) r)
      ⊢ iprop((cred (tallyAt (ldCell c 0) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ldSrc c k') (.here slot0) (.dma ldS0.sem) hsrc hdst hsem) k) Q) := by
  unfold ldPts
  show iprop(cellInv ER (Rd m) κ (ldCell c 0) ∗ ((ldSrc c k').view.loc (c : Thread nD τ) ↦[(ldSrc c k').view.set]{fullShare} xC m c)
        ∗ (slot0.view.loc (c : Thread nD τ) ↦[slot0.view.set]{fullShare} fd)
        ∗ dutyTok ER (ldCell c 0) r () ∗ reached ER (ldCell c 0) r) ⊢ _
  exact Rounds.wp_copy_pointsTo 𝒱₀ ER (Rd m) (c : Thread nD τ) none (src := ldSrc c k') (dst := slot0) (sem := .dma ldS0.sem) (q := fullShare) (fs := xC m c) (κ := κ) (r := r) (d := ()) (fd := fd)
    (by rw [duties_ld m c 0 r hr]; exact Finset.mem_singleton_self _) () N1 rfl (amount_ld m c 0 r ())
    ((ld_pay0 m c k' fd).trans (Entails.of_eq (by rw [← hk]; exact (payload_ld m c 0 r ()).symm)))

theorem wp_ld1 {α : Type} {Q : α → sProp 𝕄} {k : PUnit → Prog (TpuEff nD τ sig (Elt F) Λ₀ .tc) α} (c : Dev nD) (r : ℕ) (hr : r < 4) (k' : Fin 8) (κ : ℕ) (fd : Buf (Elt F) ((c : Thread nD τ).loc cc0_scratch0)) (hk : chunk 1 r = k')
    {hsrc : (ldSrc c k').view.WordExact} {hdst : (slot1 : Memref sig .tc .vmem S1024x1024 .f32).view.WordExact}
    {hsem : DmaTarget.Typed (nD := nD) .hbm (.dma ldS1.sem) (.here slot1 : DmaTarget nD τ sig Proc.tc .vmem S1024x1024 .f32)} :
    iprop(cellInv ER (Rd m) κ (ldCell c 1) ∗ ldPts m c k' ∗ slotPts c 1 fd
        ∗ dutyTok ER (ldCell c 1) r () ∗ reached ER (ldCell c 1) r)
      ⊢ iprop((cred (tallyAt (ldCell c 1) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ldSrc c k') (.here slot1) (.dma ldS1.sem) hsrc hdst hsem) k) Q) := by
  unfold ldPts
  show iprop(cellInv ER (Rd m) κ (ldCell c 1) ∗ ((ldSrc c k').view.loc (c : Thread nD τ) ↦[(ldSrc c k').view.set]{fullShare} xC m c)
        ∗ (slot1.view.loc (c : Thread nD τ) ↦[slot1.view.set]{fullShare} fd)
        ∗ dutyTok ER (ldCell c 1) r () ∗ reached ER (ldCell c 1) r) ⊢ _
  exact Rounds.wp_copy_pointsTo 𝒱₀ ER (Rd m) (c : Thread nD τ) none (src := ldSrc c k') (dst := slot1) (sem := .dma ldS1.sem) (q := fullShare) (fs := xC m c) (κ := κ) (r := r) (d := ()) (fd := fd)
    (by rw [duties_ld m c 1 r hr]; exact Finset.mem_singleton_self _) () N1 rfl (amount_ld m c 1 r ())
    ((ld_pay1 m c k' fd).trans (Entails.of_eq (by rw [← hk]; exact (payload_ld m c 1 r ()).symm)))

/-- A store out of slot 0 showing chunk `chunk 0 r`, round r of its cell: the result's chunk gets its final contents. -/
theorem wp_st0 {α : Type} {Q : α → sProp 𝕄} {k : PUnit → Prog (TpuEff nD τ sig (Elt F) Λ₀ .tc) α} (c : Dev nD) (r : ℕ) (hr : r < 4) (k' : Fin 8) (κ : ℕ) (f : Buf (Elt F) ((c : Thread nD τ).loc cc0_scratch0))
    (fd : Buf (Elt F) ((c : Thread nD τ).loc main_v1))
    (hk : chunk 0 r = k') (hf : slotRead c 0 f = (ldSrc c k').view.read (Elt F) (xC m c))
    {hsrc : (slot0 : Memref sig .tc .vmem S1024x1024 .f32).view.WordExact} {hdst : (stDst c k').view.WordExact}
    {hsem : DmaTarget.Typed (nD := nD) .vmem (.dma stS0.sem) (.here (stDst c k') : DmaTarget nD τ sig Proc.tc .hbm S1024x1024 .f32)} :
    iprop(cellInv ER (Rd m) κ (stCell c 0) ∗ slotPts c 0 f ∗ stPts c k' fd
        ∗ dutyTok ER (stCell c 0) r () ∗ reached ER (stCell c 0) r)
      ⊢ iprop((cred (tallyAt (stCell c 0) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.here (stDst c k')) (.dma stS0.sem) hsrc hdst hsem) k) Q) := by
  unfold stPts
  show iprop(cellInv ER (Rd m) κ (stCell c 0) ∗ (slot0.view.loc (c : Thread nD τ) ↦[slot0.view.set]{fullShare} f)
        ∗ ((stDst c k').view.loc (c : Thread nD τ) ↦[(stDst c k').view.set]{fullShare} fd)
        ∗ dutyTok ER (stCell c 0) r () ∗ reached ER (stCell c 0) r) ⊢ _
  exact Rounds.wp_copy_pointsTo 𝒱₀ ER (Rd m) (c : Thread nD τ) none (src := slot0) (dst := stDst c k') (sem := .dma stS0.sem) (q := fullShare) (fs := f) (κ := κ) (r := r) (d := ()) (fd := fd)
    (by rw [duties_st m c 0 r hr]; exact Finset.mem_singleton_self _) () N1 rfl (amount_st m c 0 r ())
    ((st_pay0 m c k' f fd hf).trans (Entails.of_eq (by rw [← hk]; exact (payload_st m c 0 r ()).symm)))

theorem wp_st1 {α : Type} {Q : α → sProp 𝕄} {k : PUnit → Prog (TpuEff nD τ sig (Elt F) Λ₀ .tc) α} (c : Dev nD) (r : ℕ) (hr : r < 4) (k' : Fin 8) (κ : ℕ) (f : Buf (Elt F) ((c : Thread nD τ).loc cc0_scratch0))
    (fd : Buf (Elt F) ((c : Thread nD τ).loc main_v1))
    (hk : chunk 1 r = k') (hf : slotRead c 1 f = (ldSrc c k').view.read (Elt F) (xC m c))
    {hsrc : (slot1 : Memref sig .tc .vmem S1024x1024 .f32).view.WordExact} {hdst : (stDst c k').view.WordExact}
    {hsem : DmaTarget.Typed (nD := nD) .vmem (.dma stS1.sem) (.here (stDst c k') : DmaTarget nD τ sig Proc.tc .hbm S1024x1024 .f32)} :
    iprop(cellInv ER (Rd m) κ (stCell c 1) ∗ slotPts c 1 f ∗ stPts c k' fd
        ∗ dutyTok ER (stCell c 1) r () ∗ reached ER (stCell c 1) r)
      ⊢ iprop((cred (tallyAt (stCell c 1) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot1 (.here (stDst c k')) (.dma stS1.sem) hsrc hdst hsem) k) Q) := by
  unfold stPts
  show iprop(cellInv ER (Rd m) κ (stCell c 1) ∗ (slot1.view.loc (c : Thread nD τ) ↦[slot1.view.set]{fullShare} f)
        ∗ ((stDst c k').view.loc (c : Thread nD τ) ↦[(stDst c k').view.set]{fullShare} fd)
        ∗ dutyTok ER (stCell c 1) r () ∗ reached ER (stCell c 1) r) ⊢ _
  exact Rounds.wp_copy_pointsTo 𝒱₀ ER (Rd m) (c : Thread nD τ) none (src := slot1) (dst := stDst c k') (sem := .dma stS1.sem) (q := fullShare) (fs := f) (κ := κ) (r := r) (d := ()) (fd := fd)
    (by rw [duties_st m c 1 r hr]; exact Finset.mem_singleton_self _) () N1 rfl (amount_st m c 1 r ())
    ((st_pay1 m c k' f fd hf).trans (Entails.of_eq (by rw [← hk]; exact (payload_st m c 1 r ()).symm)))

/-- A wait for the whole of round R of one of the device's own DMA cells, owing nothing: the round's payload P comes back. -/
theorem wp_wait_own {α : Type} {Q : α → sProp 𝕄} {k : PUnit → Prog (TpuEff nD τ sig (Elt F) Λ₀ .tc) α} (c : Dev nD) (sem : DmaSem sig) (R : ℕ) (κ : ℕ) (N : ℕ)
    (hd : (Rd (F := F) m).duties ((c : Thread nD τ), .dma sem) R = {()}) (hN : (Rd (F := F) m).amount ((c : Thread nD τ), .dma sem) R () = N)
    (P : sProp 𝕄) (hP : (Rd (F := F) m).payload ((c : Thread nD τ), .dma sem) R () = P)
    {sp sp' : Space} {s s' : Shape} {e e' : EltTy} {src : Memref sig .tc sp' s' e'} {dst : Memref sig .tc sp s e}
    {hsrc : src.view.WordExact} {hdst : dst.view.WordExact} (hc : dst.view.dmaCredit = N) {W : Waits sig Unit} :
    iprop(cellInv ER (Rd m) κ ((c : Thread nD τ), .dma sem) ∗ cred (tallyAt ((c : Thread nD τ), .dma sem) () N) ∗ owes (c : Thread nD τ) 0 W
        ∗ atPos ER ((c : Thread nD τ), .dma sem) R ∅ 0)
      ⊢ iprop(((owes (c : Thread nD τ) 0 (insert (SemLoc.dma sem, ()) W) ∗ atPos ER ((c : Thread nD τ), .dma sem) (R + 1) ∅ 0
              ∗ reached ER ((c : Thread nD τ), .dma sem) (R + 1) ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hc
  iintro ⟨#HI, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := R) (m := 0) (T := ∅)
      (by rw [Nat.zero_add, expect_eq m _ _ hd, hN])) $$ [Hc HO Hat]
  · isplitr; · iexact HI
    isplitl [Hc]; · iexact Hc
    isplitl [HO]; · iexact HO
    isplitr; · rw [MayWait_zero]; iempintro
    iexact Hat
  iintro ⟨HO, Hat, Hr, Hpay⟩
  iapply Hk
  isplitl [HO]; · iexact HO
  isplitl [Hat]; · iexact Hat
  isplitl [Hr]; · iexact Hr
  iapply (Entails.of_eq ((rest_eq m _ _ hd).trans hP)) $$ Hpay

end Steps

end Cert.KernelProof

end
-- ==== Proof.Kernel.Seg1.lean ====
/-
  The body, printed part 1 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg1 {α : Type} {Q : α → sProp 𝕄} {k : (Σ' (d0 : Dev nD) (v2 : BitVec 32) (v5 : BitVec 32) (v8 : BitVec 32) (v9 : BitVec 32), BitVec 32) → Prog (TpuEff nD τ sig (Elt F) Λ₀ .tc) α} (K : Dev nD × Fin 7 → ℕ) (c : Dev nD) (fo : Buf (Elt F) ((c : Thread nD τ).loc main_v1)) (W : Waits sig Unit) :
    iprop(cellInv ER (Rd m) (K (peer c, 0)) (barCell (peer c))
        ∗ owes (c : Thread nD τ) (O₀ c) W
        ∗ dutyTok ER (barCell (peer c)) 0 ()
        ∗ landPts (peer c) c fo
        ∗ reached ER (recvCell c) 0
        ∗ reached ER (barCell (peer c)) 0
        ∗ cellInv ER (Rd m) (K (c, 0)) (barCell c)
        ∗ cred (tallyAt (barCell c) () 1)
        ∗ levAts L lv
        ∗ atPos ER (barCell c) 0 ∅ 0
        ∗ cellInv ER (Rd m) (K (c, 5)) (sendCell c)
        ∗ cellInv ER (Rd m) (K (peer c, 6)) (recvCell (peer c))
        ∗ sndPts m c
        ∗ dutyTok ER (sendCell c) 0 ()
        ∗ reached ER (sendCell c) 0
        ∗ dutyTok ER (recvCell (peer c)) 0 ()
        ∗ reached ER (recvCell (peer c)) 0)
      ⊢ iprop((((∃ W', owes (c : Thread nD τ) 0 W')
              ∗ atPos ER (barCell c) 1 ∅ 0
              ∗ reached ER (barCell c) 1
              ∗ cred (tallyAt (sendCell c) () N8))
            -∗ wp frame (wpE (defs₀ (F := F)) 𝒱₀ (c : Thread nD τ) none) Set.univ (k ⟨c, Scalar.remsi (Scalar.divsi (Dev.word c) 4#32) 2#32, Scalar.remsi (Scalar.divsi (Dev.word c) 2#32) 2#32, Scalar.remsi (Scalar.divsi (Dev.word c) 1#32) 2#32, Scalar.subi 1#32 (Scalar.remsi (Scalar.divsi (Dev.word c) 1#32) 2#32), 1024#32⟩) Q)
          -∗ wp frame (wpE (defs₀ (F := F)) 𝒱₀ (c : Thread nD τ) none) Set.univ (k0_part1 (Memref.whole main_arg0) (Memref.isWhole_whole _) (Memref.whole main_v1) (Memref.isWhole_whole _) (Memref.whole cc0_scratch0) (Memref.isWhole_whole _) cc0_scratch1 cc0_scratch2 cc0_scratch3 cc0_scratch4 >>= k) Q) := by
  simp only [k0_part1_eq_skeleton]; unfold k0_part1_skel
  simp only [semSignalWord, semWaitWord, Prog.lift, Prog.bind_op, Prog.bind_ret, Prog.pure_eq_ret, wp_deviceId]
  iintro ⟨#HIbP, HO, HtBP, Hland, #HrRc, #HrBP, #HIb, HcB, #Hlev, HaB, #HIsn, #HIrcP, Hsnd, HtSn, #HrSn, HtRcP, #HrRcP⟩ Hk
  iapply (wp_signal_peer m c (K (peer c, 0)) fo) $$ [HO HtBP Hland]
  · isplitr; · iexact HIbP
    isplitl [HO]; · iexact HO
    isplitl [HtBP]; · iexact HtBP
    isplitl [Hland]; · iexact Hland
    isplitr; · iexact HrRc
    iexact HrBP
  iintro HO
  iapply (wp_bar_wait m c (K (c, 0))) $$ [HcB HO HaB]
  · isplitr; · iexact HIb
    isplitl [HcB]; · iexact HcB
    isplitl [HO]; · iexact HO
    isplitr; · iexact Hlev
    iexact HaB
  iintro ⟨HO, HaB, #HrB1, Hpay⟩
  unfold barPay
  icases Hpay with ⟨⟨%fp, HlandP⟩, #HrRcP'⟩
  iapply (wp_send_peer m c (K (c, 5)) (K (peer c, 6)) fp) $$ [Hsnd HlandP HO HtSn HtRcP]
  · isplitr; · iexact HIsn
    isplitr; · iexact HIrcP
    isplitl [Hsnd]; · iexact Hsnd
    isplitl [HlandP]; · iexact HlandP
    isplitl [HO]; · iexact HO
    isplitl [HtSn]; · iexact HtSn
    isplitr; · iexact HrSn
    isplitl [HtRcP]; · iexact HtRcP
    iexact HrRcP
  iintro ⟨HcSn, HO⟩
  iapply Hk
  isplitl [HO]
  · iexists _; iexact HO
  isplitl [HaB]
  · iexact HaB
  isplitr
  · iexact HrB1
  iexact HcSn

end Cert.KernelProof

end
-- ==== Proof.Kernel.Seg2.lean ====
/-
  The body, printed part 2 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg2 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (fv : Buf (Elt F) ((c : Thread nD τ).loc cc0_scratch0)) (v8 c18 : BitVec 32) :
    iprop(cellInv ER (Rd m) (K (c, 1)) (ldCell c 0)
        ∗ ldPts m c 0
        ∗ slotPts c 0 fv
        ∗ dutyTok ER (ldCell c 0) 0 ()
        ∗ reached ER (ldCell c 0) 0
        ∗ cellInv ER (Rd m) (K (c, 2)) (ldCell c 1)
        ∗ ldPts m c 1
        ∗ slotPts c 1 fv
        ∗ dutyTok ER (ldCell c 1) 0 ()
        ∗ reached ER (ldCell c 1) 0
        ∗ (∃ W', owes (c : Thread nD τ) 0 W')
        ∗ atPos ER (ldCell c 0) 0 ∅ 0
        ∗ cellInv ER (Rd m) (K (c, 3)) (stCell c 0)
        ∗ stPts c 0 fo
        ∗ dutyTok ER (stCell c 0) 0 ()
        ∗ reached ER (stCell c 0) 0)
      ⊢ iprop(((cred (tallyAt (ldCell c 1) () N1)
              ∗ (∃ W', owes (c : Thread nD τ) 0 W')
              ∗ atPos ER (ldCell c 0) 1 ∅ 0
              ∗ reached ER (ldCell c 0) 1
              ∗ ldPts m c 0
              ∗ cred (tallyAt (stCell c 0) () N1))
            -∗ wp frame (wpE (defs₀ (F := F)) 𝒱₀ (c : Thread nD τ) none) Set.univ (k ⟨⟩) Q)
          -∗ wp frame (wpE (defs₀ (F := F)) 𝒱₀ (c : Thread nD τ) none) Set.univ (k0_part2 (Memref.whole main_arg0) (Memref.isWhole_whole _) (Memref.whole main_v1) (Memref.isWhole_whole _) (Memref.whole cc0_scratch0) (Memref.isWhole_whole _) cc0_scratch1 cc0_scratch2 cc0_scratch3 cc0_scratch4 c v8 c18 >>= k) Q) := by
  simp only [k0_part2_eq_skeleton]; unfold k0_part2_skel
  simp only [semSignalWord, semWaitWord, Prog.lift, Prog.bind_op, Prog.bind_ret, Prog.pure_eq_ret, wp_deviceId]
  iintro ⟨#HIl0, Hx0, Hv0, HtL0, #HrL0_0, #HIl1, Hx1, Hv1, HtL1, #HrL1_0, HO, HaL0, #HIs0, Ho0, HtS0, #HrS0_0⟩ Hk
  icases HO with ⟨%W, HO⟩
  iapply (wp_ld0 m c 0 (by decide) 0 (K (c, 1)) fv rfl) $$ [Hx0 Hv0 HtL0]
  · isplitr; · iexact HIl0
    isplitl [Hx0]; · iexact Hx0
    isplitl [Hv0]; · iexact Hv0
    isplitl [HtL0]; · iexact HtL0
    iexact HrL0_0
  iintro HcL0
  iapply (wp_ld1 m c 0 (by decide) 1 (K (c, 2)) fv rfl) $$ [Hx1 Hv1 HtL1]
  · isplitr; · iexact HIl1
    isplitl [Hx1]; · iexact Hx1
    isplitl [Hv1]; · iexact Hv1
    isplitl [HtL1]; · iexact HtL1
    iexact HrL1_0
  iintro HcL1
  iapply (wp_wait_own m c (ldS 0).sem 0 (K (c, 1)) N1 (duties_ld m c 0 0 (by decide)) (amount_ld m c 0 0 ()) (ldPay m c 0 0) (payload_ld m c 0 0 ()) (dst := slot0) rfl) $$ [HcL0 HO HaL0]
  · isplitr; · iexact HIl0
    isplitl [HcL0]; · iexact HcL0
    isplitl [HO]; · iexact HO
    iexact HaL0
  iintro ⟨HO, HaL0, #HrL0_1, Hp⟩
  unfold ldPay slotHolds
  icases Hp with ⟨⟨%f0, Hv0, %hf0⟩, Hx0⟩
  iapply (wp_st0 m c 0 (by decide) 0 (K (c, 3)) f0 fo rfl hf0) $$ [Hv0 Ho0 HtS0]
  · isplitr; · iexact HIs0
    isplitl [Hv0]; · iexact Hv0
    isplitl [Ho0]; · iexact Ho0
    isplitl [HtS0]; · iexact HtS0
    iexact HrS0_0
  iintro HcS0
  iapply Hk
  isplitl [HcL1]
  · iexact HcL1
  isplitl [HO]
  · iexists _; iexact HO
  isplitl [HaL0]
  · iexact HaL0
  isplitr
  · iexact HrL0_1
  isplitl [Hx0]
  · iexact Hx0
  iexact HcS0

end Cert.KernelProof

end
-- ==== Proof.Kernel.Seg3.lean ====
/-
  The body, printed part 3 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg3 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 3)) (stCell c 0)
        ∗ cred (tallyAt (stCell c 0) () N1)
        ∗ (∃ W', owes (c : Thread nD τ) 0 W')
        ∗ atPos ER (stCell c 0) 0 ∅ 0
        ∗ cellInv ER (Rd m) (K (c, 1)) (ldCell c 0)
        ∗ ldPts m c 2
        ∗ dutyTok ER (ldCell c 0) 1 ()
        ∗ reached ER (ldCell c 0) 1
        ∗ cellInv ER (Rd m) (K (c, 2)) (ldCell c 1)
        ∗ cred (tallyAt (ldCell c 1) () N1)
        ∗ atPos ER (ldCell c 1) 0 ∅ 0
        ∗ cellInv ER (Rd m) (K (c, 4)) (stCell c 1)
        ∗ stPts c 1 fo
        ∗ dutyTok ER (stCell c 1) 0 ()
        ∗ reached ER (stCell c 1) 0
        ∗ atPos ER (stCell c 1) 0 ∅ 0)
      ⊢ iprop((((∃ W', owes (c : Thread nD τ) 0 W')
              ∗ atPos ER (stCell c 0) 1 ∅ 0
              ∗ reached ER (stCell c 0) 1
              ∗ stPts c 0 (outFinal m c)
              ∗ cred (tallyAt (ldCell c 0) () N1)
              ∗ atPos ER (ldCell c 1) 1 ∅ 0
              ∗ reached ER (ldCell c 1) 1
              ∗ (∃ g, slotPts c 1 g)
              ∗ ldPts m c 1
              ∗ atPos ER (stCell c 1) 1 ∅ 0
              ∗ reached ER (stCell c 1) 1
              ∗ stPts c 1 (outFinal m c))
            -∗ wp frame (wpE (defs₀ (F := F)) 𝒱₀ (c : Thread nD τ) none) Set.univ (k ⟨⟩) Q)
          -∗ wp frame (wpE (defs₀ (F := F)) 𝒱₀ (c : Thread nD τ) none) Set.univ (k0_part3 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part3_eq_skeleton]; unfold k0_part3_skel
  simp only [semSignalWord, semWaitWord, Prog.lift, Prog.bind_op, Prog.bind_ret, Prog.pure_eq_ret, wp_deviceId]
  iintro ⟨#HIs0, HcS0, HO, HaS0, #HIl0, Hx2, HtL2, #HrL0_1, #HIl1, HcL1, HaL1, #HIs1, Ho1, HtS1, #HrS1_0, HaS1⟩ Hk
  icases HO with ⟨%W, HO⟩
  iapply (wp_wait_own m c (stS 0).sem 0 (K (c, 3)) N1 (duties_st m c 0 0 (by decide)) (amount_st m c 0 0 ()) (stPay m c 0 0) (payload_st m c 0 0 ()) (dst := stDst c 0) rfl) $$ [HcS0 HO HaS0]
  · isplitr; · iexact HIs0
    isplitl [HcS0]; · iexact HcS0
    isplitl [HO]; · iexact HO
    iexact HaS0
  iintro ⟨HO, HaS0, #HrS0_1, Hp⟩
  unfold stPay
  icases Hp with ⟨Ho0, ⟨%g0, Hv0⟩⟩
  iapply (wp_ld0 m c 1 (by decide) 2 (K (c, 1)) g0 rfl) $$ [Hx2 Hv0 HtL2]
  · isplitr; · iexact HIl0
    isplitl [Hx2]; · iexact Hx2
    isplitl [Hv0]; · iexact Hv0
    isplitl [HtL2]; · iexact HtL2
    iexact HrL0_1
  iintro HcL0
  iapply (wp_wait_own m c (ldS 1).sem 0 (K (c, 2)) N1 (duties_ld m c 1 0 (by decide)) (amount_ld m c 1 0 ()) (ldPay m c 1 1) (payload_ld m c 1 0 ()) (dst := slot1) rfl) $$ [HcL1 HO HaL1]
  · isplitr; · iexact HIl1
    isplitl [HcL1]; · iexact HcL1
    isplitl [HO]; · iexact HO
    iexact HaL1
  iintro ⟨HO, HaL1, #HrL1_1, Hp⟩
  unfold ldPay slotHolds
  icases Hp with ⟨⟨%f1, Hv1, %hf1⟩, Hx1⟩
  iapply (wp_st1 m c 0 (by decide) 1 (K (c, 4)) f1 fo rfl hf1) $$ [Hv1 Ho1 HtS1]
  · isplitr; · iexact HIs1
    isplitl [Hv1]; · iexact Hv1
    isplitl [Ho1]; · iexact Ho1
    isplitl [HtS1]; · iexact HtS1
    iexact HrS1_0
  iintro HcS1
  iapply (wp_wait_own m c (stS 1).sem 0 (K (c, 4)) N1 (duties_st m c 1 0 (by decide)) (amount_st m c 1 0 ()) (stPay m c 1 1) (payload_st m c 1 0 ()) (dst := stDst c 1) rfl) $$ [HcS1 HO HaS1]
  · isplitr; · iexact HIs1
    isplitl [HcS1]; · iexact HcS1
    isplitl [HO]; · iexact HO
    iexact HaS1
  iintro ⟨HO, HaS1, #HrS1_1, Hp⟩
  unfold stPay
  icases Hp with ⟨Ho1, ⟨%g1, Hv1⟩⟩
  iapply Hk
  isplitl [HO]
  · iexists _; iexact HO
  isplitl [HaS0]
  · iexact HaS0
  isplitr
  · iexact HrS0_1
  isplitl [Ho0]
  · iexact Ho0
  isplitl [HcL0]
  · iexact HcL0
  isplitl [HaL1]
  · iexact HaL1
  isplitr
  · iexact HrL1_1
  isplitl [Hv1]
  · iexists g1; iexact Hv1
  isplitl [Hx1]
  · iexact Hx1
  isplitl [HaS1]
  · iexact HaS1
  isplitr
  · iexact HrS1_1
  iexact Ho1

end Cert.KernelProof

end
-- ==== Proof.Kernel.Seg4.lean ====
/-
  The body, printed part 4 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg4 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 2)) (ldCell c 1)
        ∗ ldPts m c 3
        ∗ (∃ g, slotPts c 1 g)
        ∗ dutyTok ER (ldCell c 1) 1 ()
        ∗ reached ER (ldCell c 1) 1
        ∗ cellInv ER (Rd m) (K (c, 1)) (ldCell c 0)
        ∗ cred (tallyAt (ldCell c 0) () N1)
        ∗ (∃ W', owes (c : Thread nD τ) 0 W')
        ∗ atPos ER (ldCell c 0) 1 ∅ 0
        ∗ cellInv ER (Rd m) (K (c, 3)) (stCell c 0)
        ∗ stPts c 2 fo
        ∗ dutyTok ER (stCell c 0) 1 ()
        ∗ reached ER (stCell c 0) 1
        ∗ atPos ER (stCell c 0) 1 ∅ 0
        ∗ ldPts m c 4
        ∗ dutyTok ER (ldCell c 0) 2 ())
      ⊢ iprop(((cred (tallyAt (ldCell c 1) () N1)
              ∗ (∃ W', owes (c : Thread nD τ) 0 W')
              ∗ atPos ER (ldCell c 0) 2 ∅ 0
              ∗ reached ER (ldCell c 0) 2
              ∗ ldPts m c 2
              ∗ atPos ER (stCell c 0) 2 ∅ 0
              ∗ reached ER (stCell c 0) 2
              ∗ stPts c 2 (outFinal m c)
              ∗ cred (tallyAt (ldCell c 0) () N1))
            -∗ wp frame (wpE (defs₀ (F := F)) 𝒱₀ (c : Thread nD τ) none) Set.univ (k ⟨⟩) Q)
          -∗ wp frame (wpE (defs₀ (F := F)) 𝒱₀ (c : Thread nD τ) none) Set.univ (k0_part4 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part4_eq_skeleton]; unfold k0_part4_skel
  simp only [semSignalWord, semWaitWord, Prog.lift, Prog.bind_op, Prog.bind_ret, Prog.pure_eq_ret, wp_deviceId]
  iintro ⟨#HIl1, Hx3, Hv1, HtL3, #HrL1_1, #HIl0, HcL0, HO, HaL0, #HIs0, Ho2, HtS2, #HrS0_1, HaS0, Hx4, HtL4⟩ Hk
  icases Hv1 with ⟨%g1, Hv1⟩
  icases HO with ⟨%W, HO⟩
  iapply (wp_ld1 m c 1 (by decide) 3 (K (c, 2)) g1 rfl) $$ [Hx3 Hv1 HtL3]
  · isplitr; · iexact HIl1
    isplitl [Hx3]; · iexact Hx3
    isplitl [Hv1]; · iexact Hv1
    isplitl [HtL3]; · iexact HtL3
    iexact HrL1_1
  iintro HcL1
  iapply (wp_wait_own m c (ldS 0).sem 1 (K (c, 1)) N1 (duties_ld m c 0 1 (by decide)) (amount_ld m c 0 1 ()) (ldPay m c 0 2) (payload_ld m c 0 1 ()) (dst := slot0) rfl) $$ [HcL0 HO HaL0]
  · isplitr; · iexact HIl0
    isplitl [HcL0]; · iexact HcL0
    isplitl [HO]; · iexact HO
    iexact HaL0
  iintro ⟨HO, HaL0, #HrL0_2, Hp⟩
  unfold ldPay slotHolds
  icases Hp with ⟨⟨%f2, Hv0, %hf2⟩, Hx2⟩
  iapply (wp_st0 m c 1 (by decide) 2 (K (c, 3)) f2 fo rfl hf2) $$ [Hv0 Ho2 HtS2]
  · isplitr; · iexact HIs0
    isplitl [Hv0]; · iexact Hv0
    isplitl [Ho2]; · iexact Ho2
    isplitl [HtS2]; · iexact HtS2
    iexact HrS0_1
  iintro HcS0
  iapply (wp_wait_own m c (stS 0).sem 1 (K (c, 3)) N1 (duties_st m c 0 1 (by decide)) (amount_st m c 0 1 ()) (stPay m c 0 2) (payload_st m c 0 1 ()) (dst := stDst c 2) rfl) $$ [HcS0 HO HaS0]
  · isplitr; · iexact HIs0
    isplitl [HcS0]; · iexact HcS0
    isplitl [HO]; · iexact HO
    iexact HaS0
  iintro ⟨HO, HaS0, #HrS0_2, Hp⟩
  unfold stPay
  icases Hp with ⟨Ho2, ⟨%g2, Hv0⟩⟩
  iapply (wp_ld0 m c 2 (by decide) 4 (K (c, 1)) g2 rfl) $$ [Hx4 Hv0 HtL4]
  · isplitr; · iexact HIl0
    isplitl [Hx4]; · iexact Hx4
    isplitl [Hv0]; · iexact Hv0
    isplitl [HtL4]; · iexact HtL4
    iexact HrL0_2
  iintro HcL0
  iapply Hk
  isplitl [HcL1]
  · iexact HcL1
  isplitl [HO]
  · iexists _; iexact HO
  isplitl [HaL0]
  · iexact HaL0
  isplitr
  · iexact HrL0_2
  isplitl [Hx2]
  · iexact Hx2
  isplitl [HaS0]
  · iexact HaS0
  isplitr
  · iexact HrS0_2
  isplitl [Ho2]
  · iexact Ho2
  iexact HcL0

end Cert.KernelProof

end
-- ==== Proof.Kernel.Seg5.lean ====
/-
  The body, printed part 5 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg5 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 2)) (ldCell c 1)
        ∗ cred (tallyAt (ldCell c 1) () N1)
        ∗ (∃ W', owes (c : Thread nD τ) 0 W')
        ∗ atPos ER (ldCell c 1) 1 ∅ 0
        ∗ cellInv ER (Rd m) (K (c, 4)) (stCell c 1)
        ∗ stPts c 3 fo
        ∗ dutyTok ER (stCell c 1) 1 ()
        ∗ reached ER (stCell c 1) 1
        ∗ atPos ER (stCell c 1) 1 ∅ 0
        ∗ ldPts m c 5
        ∗ dutyTok ER (ldCell c 1) 2 ()
        ∗ cellInv ER (Rd m) (K (c, 1)) (ldCell c 0)
        ∗ cred (tallyAt (ldCell c 0) () N1)
        ∗ atPos ER (ldCell c 0) 2 ∅ 0)
      ⊢ iprop((((∃ W', owes (c : Thread nD τ) 0 W')
              ∗ atPos ER (ldCell c 1) 2 ∅ 0
              ∗ reached ER (ldCell c 1) 2
              ∗ ldPts m c 3
              ∗ atPos ER (stCell c 1) 2 ∅ 0
              ∗ reached ER (stCell c 1) 2
              ∗ stPts c 3 (outFinal m c)
              ∗ cred (tallyAt (ldCell c 1) () N1)
              ∗ atPos ER (ldCell c 0) 3 ∅ 0
              ∗ reached ER (ldCell c 0) 3
              ∗ slotHolds m c 0 4
              ∗ ldPts m c 4)
            -∗ wp frame (wpE (defs₀ (F := F)) 𝒱₀ (c : Thread nD τ) none) Set.univ (k ⟨⟩) Q)
          -∗ wp frame (wpE (defs₀ (F := F)) 𝒱₀ (c : Thread nD τ) none) Set.univ (k0_part5 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part5_eq_skeleton]; unfold k0_part5_skel
  simp only [semSignalWord, semWaitWord, Prog.lift, Prog.bind_op, Prog.bind_ret, Prog.pure_eq_ret, wp_deviceId]
  iintro ⟨#HIl1, HcL1, HO, HaL1, #HIs1, Ho3, HtS3, #HrS1_1, HaS1, Hx5, HtL5, #HIl0, HcL0, HaL0⟩ Hk
  icases HO with ⟨%W, HO⟩
  iapply (wp_wait_own m c (ldS 1).sem 1 (K (c, 2)) N1 (duties_ld m c 1 1 (by decide)) (amount_ld m c 1 1 ()) (ldPay m c 1 3) (payload_ld m c 1 1 ()) (dst := slot1) rfl) $$ [HcL1 HO HaL1]
  · isplitr; · iexact HIl1
    isplitl [HcL1]; · iexact HcL1
    isplitl [HO]; · iexact HO
    iexact HaL1
  iintro ⟨HO, HaL1, #HrL1_2, Hp⟩
  unfold ldPay slotHolds
  icases Hp with ⟨⟨%f3, Hv1, %hf3⟩, Hx3⟩
  iapply (wp_st1 m c 1 (by decide) 3 (K (c, 4)) f3 fo rfl hf3) $$ [Hv1 Ho3 HtS3]
  · isplitr; · iexact HIs1
    isplitl [Hv1]; · iexact Hv1
    isplitl [Ho3]; · iexact Ho3
    isplitl [HtS3]; · iexact HtS3
    iexact HrS1_1
  iintro HcS1
  iapply (wp_wait_own m c (stS 1).sem 1 (K (c, 4)) N1 (duties_st m c 1 1 (by decide)) (amount_st m c 1 1 ()) (stPay m c 1 3) (payload_st m c 1 1 ()) (dst := stDst c 3) rfl) $$ [HcS1 HO HaS1]
  · isplitr; · iexact HIs1
    isplitl [HcS1]; · iexact HcS1
    isplitl [HO]; · iexact HO
    iexact HaS1
  iintro ⟨HO, HaS1, #HrS1_2, Hp⟩
  unfold stPay
  icases Hp with ⟨Ho3, ⟨%g3, Hv1⟩⟩
  iapply (wp_ld1 m c 2 (by decide) 5 (K (c, 2)) g3 rfl) $$ [Hx5 Hv1 HtL5]
  · isplitr; · iexact HIl1
    isplitl [Hx5]; · iexact Hx5
    isplitl [Hv1]; · iexact Hv1
    isplitl [HtL5]; · iexact HtL5
    iexact HrL1_2
  iintro HcL1
  iapply (wp_wait_own m c (ldS 0).sem 2 (K (c, 1)) N1 (duties_ld m c 0 2 (by decide)) (amount_ld m c 0 2 ()) (ldPay m c 0 4) (payload_ld m c 0 2 ()) (dst := slot0) rfl) $$ [HcL0 HO HaL0]
  · isplitr; · iexact HIl0
    isplitl [HcL0]; · iexact HcL0
    isplitl [HO]; · iexact HO
    iexact HaL0
  iintro ⟨HO, HaL0, #HrL0_3, Hp⟩
  unfold ldPay slotHolds
  icases Hp with ⟨⟨%f4, Hv0, %hf4⟩, Hx4⟩
  iapply Hk
  isplitl [HO]
  · iexists _; iexact HO
  isplitl [HaL1]
  · iexact HaL1
  isplitr
  · iexact HrL1_2
  isplitl [Hx3]
  · iexact Hx3
  isplitl [HaS1]
  · iexact HaS1
  isplitr
  · iexact HrS1_2
  isplitl [Ho3]
  · iexact Ho3
  isplitl [HcL1]
  · iexact HcL1
  isplitl [HaL0]
  · iexact HaL0
  isplitr
  · iexact HrL0_3
  isplitl [Hv0]
  · iexists f4
    isplitl [Hv0]; · iexact Hv0
    ipureintro; exact hf4
  iexact Hx4

end Cert.KernelProof

end
-- ==== Proof.Kernel.Seg6.lean ====
/-
  The body, printed part 6 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg6 {α : Type} {Q : α → sProp 𝕄} {k : PUnit → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 3)) (stCell c 0)
        ∗ slotHolds m c 0 4
        ∗ stPts c 4 fo
        ∗ dutyTok ER (stCell c 0) 2 ()
        ∗ reached ER (stCell c 0) 2
        ∗ (∃ W', owes (c : Thread nD τ) 0 W')
        ∗ atPos ER (stCell c 0) 2 ∅ 0
        ∗ cellInv ER (Rd m) (K (c, 1)) (ldCell c 0)
        ∗ ldPts m c 6
        ∗ dutyTok ER (ldCell c 0) 3 ()
        ∗ reached ER (ldCell c 0) 3
        ∗ cellInv ER (Rd m) (K (c, 2)) (ldCell c 1)
        ∗ cred (tallyAt (ldCell c 1) () N1)
        ∗ atPos ER (ldCell c 1) 2 ∅ 0
        ∗ cellInv ER (Rd m) (K (c, 4)) (stCell c 1)
        ∗ stPts c 5 fo
        ∗ dutyTok ER (stCell c 1) 2 ()
        ∗ reached ER (stCell c 1) 2)
      ⊢ iprop((((∃ W', owes (c : Thread nD τ) 0 W')
              ∗ atPos ER (stCell c 0) 3 ∅ 0
              ∗ reached ER (stCell c 0) 3
              ∗ stPts c 4 (outFinal m c)
              ∗ cred (tallyAt (ldCell c 0) () N1)
              ∗ atPos ER (ldCell c 1) 3 ∅ 0
              ∗ reached ER (ldCell c 1) 3
              ∗ ldPts m c 5
              ∗ cred (tallyAt (stCell c 1) () N1))
            -∗ wp frame (wpE (defs₀ (F := F)) 𝒱₀ (c : Thread nD τ) none) Set.univ (k ⟨⟩) Q)
          -∗ wp frame (wpE (defs₀ (F := F)) 𝒱₀ (c : Thread nD τ) none) Set.univ (k0_part6 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part6_eq_skeleton]; unfold k0_part6_skel
  simp only [semSignalWord, semWaitWord, Prog.lift, Prog.bind_op, Prog.bind_ret, Prog.pure_eq_ret, wp_deviceId]
  iintro ⟨#HIs0, Hv0, Ho4, HtS4, #HrS0_2, HO, HaS0, #HIl0, Hx6, HtL6, #HrL0_3, #HIl1, HcL1, HaL1, #HIs1, Ho5, HtS5, #HrS1_2⟩ Hk
  unfold slotHolds
  icases Hv0 with ⟨%f4, Hv0, %hf4⟩
  icases HO with ⟨%W, HO⟩
  iapply (wp_st0 m c 2 (by decide) 4 (K (c, 3)) f4 fo rfl hf4) $$ [Hv0 Ho4 HtS4]
  · isplitr; · iexact HIs0
    isplitl [Hv0]; · iexact Hv0
    isplitl [Ho4]; · iexact Ho4
    isplitl [HtS4]; · iexact HtS4
    iexact HrS0_2
  iintro HcS0
  iapply (wp_wait_own m c (stS 0).sem 2 (K (c, 3)) N1 (duties_st m c 0 2 (by decide)) (amount_st m c 0 2 ()) (stPay m c 0 4) (payload_st m c 0 2 ()) (dst := stDst c 4) rfl) $$ [HcS0 HO HaS0]
  · isplitr; · iexact HIs0
    isplitl [HcS0]; · iexact HcS0
    isplitl [HO]; · iexact HO
    iexact HaS0
  iintro ⟨HO, HaS0, #HrS0_3, Hp⟩
  unfold stPay
  icases Hp with ⟨Ho4, ⟨%g4, Hv0⟩⟩
  iapply (wp_ld0 m c 3 (by decide) 6 (K (c, 1)) g4 rfl) $$ [Hx6 Hv0 HtL6]
  · isplitr; · iexact HIl0
    isplitl [Hx6]; · iexact Hx6
    isplitl [Hv0]; · iexact Hv0
    isplitl [HtL6]; · iexact HtL6
    iexact HrL0_3
  iintro HcL0
  iapply (wp_wait_own m c (ldS 1).sem 2 (K (c, 2)) N1 (duties_ld m c 1 2 (by decide)) (amount_ld m c 1 2 ()) (ldPay m c 1 5) (payload_ld m c 1 2 ()) (dst := slot1) rfl) $$ [HcL1 HO HaL1]
  · isplitr; · iexact HIl1
    isplitl [HcL1]; · iexact HcL1
    isplitl [HO]; · iexact HO
    iexact HaL1
  iintro ⟨HO, HaL1, #HrL1_3, Hp⟩
  unfold ldPay slotHolds
  icases Hp with ⟨⟨%f5, Hv1, %hf5⟩, Hx5⟩
  iapply (wp_st1 m c 2 (by decide) 5 (K (c, 4)) f5 fo rfl hf5) $$ [Hv1 Ho5 HtS5]
  · isplitr; · iexact HIs1
    isplitl [Hv1]; · iexact Hv1
    isplitl [Ho5]; · iexact Ho5
    isplitl [HtS5]; · iexact HtS5
    iexact HrS1_2
  iintro HcS1
  iapply Hk
  isplitl [HO]
  · iexists _; iexact HO
  isplitl [HaS0]
  · iexact HaS0
  isplitr
  · iexact HrS0_3
  isplitl [Ho4]
  · iexact Ho4
  isplitl [HcL0]
  · iexact HcL0
  isplitl [HaL1]
  · iexact HaL1
  isplitr
  · iexact HrL1_3
  isplitl [Hx5]
  · iexact Hx5
  iexact HcS1

end Cert.KernelProof

end
-- ==== Proof.Kernel.Seg7.lean ====
/-
  The body, printed part 7 of eight: its transfers and waits stepped in program order.
-/
import proofs.«900632_g7700000000000633_dist_a2a_v7x_xyz2x2x2_z_m8192_n1024_f32_1_alg».proof.Proof.Kernel.Steps

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
set_option maxRecDepth 65536 in
theorem seg7 {α : Type} {Q : α → sProp 𝕄} {k : BitVec 32 → Prog (TpuEff nD τ sig (Elt F) Λ₀ .tc) α} (K : Dev nD × Fin 7 → ℕ) (c : Dev nD) (fo : Buf (Elt F) ((c : Thread nD τ).loc main_v1)) (v8 : BitVec 32) :
    iprop(cellInv ER (Rd m) (K (c, 4)) (stCell c 1)
        ∗ cred (tallyAt (stCell c 1) () N1)
        ∗ (∃ W', owes (c : Thread nD τ) 0 W')
        ∗ atPos ER (stCell c 1) 2 ∅ 0
        ∗ cellInv ER (Rd m) (K (c, 2)) (ldCell c 1)
        ∗ ldPts m c 7
        ∗ dutyTok ER (ldCell c 1) 3 ()
        ∗ reached ER (ldCell c 1) 3
        ∗ cellInv ER (Rd m) (K (c, 1)) (ldCell c 0)
        ∗ cred (tallyAt (ldCell c 0) () N1)
        ∗ atPos ER (ldCell c 0) 3 ∅ 0
        ∗ cellInv ER (Rd m) (K (c, 3)) (stCell c 0)
        ∗ stPts c 6 fo
        ∗ dutyTok ER (stCell c 0) 3 ()
        ∗ reached ER (stCell c 0) 3
        ∗ atPos ER (ldCell c 1) 3 ∅ 0)
      ⊢ iprop((((∃ W', owes (c : Thread nD τ) 0 W')
              ∗ atPos ER (stCell c 1) 3 ∅ 0
              ∗ reached ER (stCell c 1) 3
              ∗ stPts c 5 (outFinal m c)
              ∗ slotHolds m c 1 7
              ∗ atPos ER (ldCell c 0) 4 ∅ 0
              ∗ reached ER (ldCell c 0) 4
              ∗ ldPts m c 6
              ∗ cred (tallyAt (stCell c 0) () N1)
              ∗ atPos ER (ldCell c 1) 4 ∅ 0
              ∗ reached ER (ldCell c 1) 4
              ∗ ldPts m c 7)
            -∗ wp frame (wpE (defs₀ (F := F)) 𝒱₀ (c : Thread nD τ) none) Set.univ (k (Scalar.muli v8 8192#32)) Q)
          -∗ wp frame (wpE (defs₀ (F := F)) 𝒱₀ (c : Thread nD τ) none) Set.univ (k0_part7 (Memref.whole main_arg0) (Memref.isWhole_whole _) (Memref.whole main_v1) (Memref.isWhole_whole _) (Memref.whole cc0_scratch0) (Memref.isWhole_whole _) cc0_scratch1 cc0_scratch2 cc0_scratch3 cc0_scratch4 c v8 >>= k) Q) := by
  simp only [k0_part7_eq_skeleton]; unfold k0_part7_skel
  simp only [semSignalWord, semWaitWord, Prog.lift, Prog.bind_op, Prog.bind_ret, Prog.pure_eq_ret, wp_deviceId]
  iintro ⟨#HIs1, HcS1, HO, HaS1, #HIl1, Hx7, HtL7, #HrL1_3, #HIl0, HcL0, HaL0, #HIs0, Ho6, HtS6, #HrS0_3, HaL1⟩ Hk
  icases HO with ⟨%W, HO⟩
  iapply (wp_wait_own m c (stS 1).sem 2 (K (c, 4)) N1 (duties_st m c 1 2 (by decide)) (amount_st m c 1 2 ()) (stPay m c 1 5) (payload_st m c 1 2 ()) (dst := stDst c 5) rfl) $$ [HcS1 HO HaS1]
  · isplitr; · iexact HIs1
    isplitl [HcS1]; · iexact HcS1
    isplitl [HO]; · iexact HO
    iexact HaS1
  iintro ⟨HO, HaS1, #HrS1_3, Hp⟩
  unfold stPay
  icases Hp with ⟨Ho5, ⟨%g5, Hv1⟩⟩
  iapply (wp_ld1 m c 3 (by decide) 7 (K (c, 2)) g5 rfl) $$ [Hx7 Hv1 HtL7]
  · isplitr; · iexact HIl1
    isplitl [Hx7]; · iexact Hx7
    isplitl [Hv1]; · iexact Hv1
    isplitl [HtL7]; · iexact HtL7
    iexact HrL1_3
  iintro HcL1
  iapply (wp_wait_own m c (ldS 0).sem 3 (K (c, 1)) N1 (duties_ld m c 0 3 (by decide)) (amount_ld m c 0 3 ()) (ldPay m c 0 6) (payload_ld m c 0 3 ()) (dst := slot0) rfl) $$ [HcL0 HO HaL0]
  · isplitr; · iexact HIl0
    isplitl [HcL0]; · iexact HcL0
    isplitl [HO]; · iexact HO
    iexact HaL0
  iintro ⟨HO, HaL0, #HrL0_4, Hp⟩
  unfold ldPay slotHolds
  icases Hp with ⟨⟨%f6, Hv0, %hf6⟩, Hx6⟩
  iapply (wp_st0 m c 3 (by decide) 6 (K (c, 3)) f6 fo rfl hf6) $$ [Hv0 Ho6 HtS6]
  · isplitr; · iexact HIs0
    isplitl [Hv0]; · iexact Hv0
    isplitl [Ho6]; · iexact Ho6
    isplitl [HtS6]; · iexact HtS6
    iexact HrS0_3
  iintro HcS0
  iapply (wp_wait_own m c (ldS 1).sem 3 (K (c, 2)) N1 (duties_ld m c 1 3 (by decide)) (amount_ld m c 1 3 ()) (ldPay m c 1 7) (payload_ld m c 1 3 ()) (dst := slot1) rfl) $$ [HcL1 HO HaL1]
  · isplitr; · iexact HIl1
    isplitl [HcL1]; · iexact HcL1
    isplitl [HO]; · iexact HO
    iexact HaL1
  iintro ⟨HO, HaL1, #HrL1_4, Hp⟩
  unfold ldPay slotHolds
  icases Hp with ⟨⟨%f7, Hv1, %hf7⟩, Hx7⟩
  iapply Hk
  isplitl [HO]
  · iexists _; iexact HO
  isplitl [HaS1]
  · iexact HaS1
  isplitr
  · iexact HrS1_3
  isplitl [Ho5]
  · iexact Ho5
  isplitl [Hv1]
  · iexists f7
    isplitl [Hv1]; · iexact Hv1
    ipureintro; exact hf7
  isplitl [HaL0]
  · iexact HaL0
  isplitr
  · iexact HrL0_4
  isplitl [Hx6]
  · iexact Hx6
  isplitl [HcS0]
  · iexact HcS0
  isplitl [HaL1]
  · iexact HaL1
  isplitr
  · iexact HrL1_4
  iexact Hx7

end Cert.KernelProof

end
-- ==== Proof.Kernel.Body.lean ====
/-
  One device's whole body: the printed parts in order, then the last store, the waits for the last two stores, for the
  send and for the peer's landing; the six own cells close.
-/
import proofs.«900632_g7700000000000633_dist_a2a_v7x_xyz2x2x2_z_m8192_n1024_f32_1_alg».proof.Proof.Kernel.Seg1
import proofs.«900632_g7700000000000633_dist_a2a_v7x_xyz2x2x2_z_m8192_n1024_f32_1_alg».proof.Proof.Kernel.Seg2
import proofs.«900632_g7700000000000633_dist_a2a_v7x_xyz2x2x2_z_m8192_n1024_f32_1_alg».proof.Proof.Kernel.Seg3
import proofs.«900632_g7700000000000633_dist_a2a_v7x_xyz2x2x2_z_m8192_n1024_f32_1_alg».proof.Proof.Kernel.Seg4
import proofs.«900632_g7700000000000633_dist_a2a_v7x_xyz2x2x2_z_m8192_n1024_f32_1_alg».proof.Proof.Kernel.Seg5
import proofs.«900632_g7700000000000633_dist_a2a_v7x_xyz2x2x2_z_m8192_n1024_f32_1_alg».proof.Proof.Kernel.Seg6
import proofs.«900632_g7700000000000633_dist_a2a_v7x_xyz2x2x2_z_m8192_n1024_f32_1_alg».proof.Proof.Kernel.Seg7

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
set_option maxRecDepth 65536 in
/-- The body, from the pieces and the ghost state at names K, to the pieces at their final contents. -/
theorem sound_body (K : Dev nD × Fin 7 → ℕ) (c : Dev nD) (Kt : PUnit → sProp 𝕄) :
    iprop(bodyPre m K c ∗ (bodyPost m c -∗ Kt ⟨⟩))
      ⊢ wp frame (wpE (defs₀ (F := F)) 𝒱₀ c none) Set.univ (theBody (F := F)) Kt := by
  unfold theBody
  simp only [cc0_body_eq_skeleton]; unfold cc0_body_skel
  simp only [k0_part8_eq_skeleton]; unfold k0_part8_skel
  unfold bodyPre ghost invs poss reacheds payToks ldToks stToks xParts oParts vParts
  iintro ⟨⟨⟨⟨#HIb, #HIl0, #HIl1, #HIs0, #HIs1, #HIsn, #HIrc, #HIbP, #HIrcP⟩,
      ⟨HaB, HaL0, HaL1, HaS0, HaS1, HaSn, HaRc⟩,
      ⟨#HrL0_0, #HrL1_0, #HrS0_0, #HrS1_0, #HrSn, #HrRc, #HrBP, #HrRcP⟩,
      ⟨HtBP, HtRcP, HtSn⟩,
      ⟨HtL0, HtL1, HtL2, HtL3, HtL4, HtL5, HtL6, HtL7⟩,
      ⟨HtS0, HtS1, HtS2, HtS3, HtS4, HtS5, HtS6, HtS7⟩⟩,
    HcB, HcR, #Hlev, Ho,
    ⟨Hsnd, Hx0, Hx1, Hx2, Hx3, Hx4, Hx5, Hx6, Hx7⟩,
    ⟨%fo, Hland, Ho0, Ho1, Ho2, Ho3, Ho4, Ho5, Ho6, Ho7⟩,
    ⟨%fv, Hv0, Hv1⟩⟩, Hk⟩
  unfold Dat.owesAt Pipeline.owesWithin
  icases Ho with ⟨%W, %hW, HO⟩
  rw [show (dats m 0 c).owed t₀.castSucc = O₀ c from rfl]
  -- printed part 1
  rw [Prog.bind_assoc]
  iapply (seg1 m K c fo W) $$ [HO HtBP Hland HcB HaB Hsnd HtSn HtRcP]
  · isplitr; · iexact HIbP
    isplitl [HO]; · iexact HO
    isplitl [HtBP]; · iexact HtBP
    isplitl [Hland]; · iexact Hland
    isplitr; · iexact HrRc
    isplitr; · iexact HrBP
    isplitr; · iexact HIb
    isplitl [HcB]; · iexact HcB
    isplitr; · iexact Hlev
    isplitl [HaB]; · iexact HaB
    isplitr; · iexact HIsn
    isplitr; · iexact HIrcP
    isplitl [Hsnd]; · iexact Hsnd
    isplitl [HtSn]; · iexact HtSn
    isplitr; · iexact HrSn
    isplitl [HtRcP]; · iexact HtRcP
    iexact HrRcP
  iintro ⟨HO, HaB, #HrB1, HcSn⟩
  dsimp only
  -- printed part 2
  rw [Prog.bind_assoc]
  iapply (seg2 m K c fo fv _ _) $$ [Hx0 Hv0 HtL0 Hx1 Hv1 HtL1 HO HaL0 Ho0 HtS0]
  · isplitr; · iexact HIl0
    isplitl [Hx0]; · iexact Hx0
    isplitl [Hv0]; · iexact Hv0
    isplitl [HtL0]; · iexact HtL0
    isplitr; · iexact HrL0_0
    isplitr; · iexact HIl1
    isplitl [Hx1]; · iexact Hx1
    isplitl [Hv1]; · iexact Hv1
    isplitl [HtL1]; · iexact HtL1
    isplitr; · iexact HrL1_0
    isplitl [HO]; · iexact HO
    isplitl [HaL0]; · iexact HaL0
    isplitr; · iexact HIs0
    isplitl [Ho0]; · iexact Ho0
    isplitl [HtS0]; · iexact HtS0
    iexact HrS0_0
  iintro ⟨HcL1, HO, HaL0, #HrL0_1, Hx0, HcS0⟩
  -- printed part 3
  rw [Prog.bind_assoc]
  iapply (seg3 m K c fo _) $$ [HcS0 HO HaS0 Hx2 HtL2 HcL1 HaL1 Ho1 HtS1 HaS1]
  · isplitr; · iexact HIs0
    isplitl [HcS0]; · iexact HcS0
    isplitl [HO]; · iexact HO
    isplitl [HaS0]; · iexact HaS0
    isplitr; · iexact HIl0
    isplitl [Hx2]; · iexact Hx2
    isplitl [HtL2]; · iexact HtL2
    isplitr; · iexact HrL0_1
    isplitr; · iexact HIl1
    isplitl [HcL1]; · iexact HcL1
    isplitl [HaL1]; · iexact HaL1
    isplitr; · iexact HIs1
    isplitl [Ho1]; · iexact Ho1
    isplitl [HtS1]; · iexact HtS1
    isplitr; · iexact HrS1_0
    iexact HaS1
  iintro ⟨HO, HaS0, #HrS0_1, Ho0, HcL0, HaL1, #HrL1_1, Hv1, Hx1, HaS1, #HrS1_1, Ho1⟩
  -- printed part 4
  rw [Prog.bind_assoc]
  iapply (seg4 m K c fo _) $$ [Hx3 Hv1 HtL3 HcL0 HO HaL0 Ho2 HtS2 HaS0 Hx4 HtL4]
  · isplitr; · iexact HIl1
    isplitl [Hx3]; · iexact Hx3
    isplitl [Hv1]; · iexact Hv1
    isplitl [HtL3]; · iexact HtL3
    isplitr; · iexact HrL1_1
    isplitr; · iexact HIl0
    isplitl [HcL0]; · iexact HcL0
    isplitl [HO]; · iexact HO
    isplitl [HaL0]; · iexact HaL0
    isplitr; · iexact HIs0
    isplitl [Ho2]; · iexact Ho2
    isplitl [HtS2]; · iexact HtS2
    isplitr; · iexact HrS0_1
    isplitl [HaS0]; · iexact HaS0
    isplitl [Hx4]; · iexact Hx4
    iexact HtL4
  iintro ⟨HcL1, HO, HaL0, #HrL0_2, Hx2, HaS0, #HrS0_2, Ho2, HcL0⟩
  -- printed part 5
  rw [Prog.bind_assoc]
  iapply (seg5 m K c fo _) $$ [HcL1 HO HaL1 Ho3 HtS3 HaS1 Hx5 HtL5 HcL0 HaL0]
  · isplitr; · iexact HIl1
    isplitl [HcL1]; · iexact HcL1
    isplitl [HO]; · iexact HO
    isplitl [HaL1]; · iexact HaL1
    isplitr; · iexact HIs1
    isplitl [Ho3]; · iexact Ho3
    isplitl [HtS3]; · iexact HtS3
    isplitr; · iexact HrS1_1
    isplitl [HaS1]; · iexact HaS1
    isplitl [Hx5]; · iexact Hx5
    isplitl [HtL5]; · iexact HtL5
    isplitr; · iexact HIl0
    isplitl [HcL0]; · iexact HcL0
    iexact HaL0
  iintro ⟨HO, HaL1, #HrL1_2, Hx3, HaS1, #HrS1_2, Ho3, HcL1, HaL0, #HrL0_3, Hv0, Hx4⟩
  -- printed part 6
  rw [Prog.bind_assoc]
  iapply (seg6 m K c fo _) $$ [Hv0 Ho4 HtS4 HO HaS0 Hx6 HtL6 HcL1 HaL1 Ho5 HtS5]
  · isplitr; · iexact HIs0
    isplitl [Hv0]; · iexact Hv0
    isplitl [Ho4]; · iexact Ho4
    isplitl [HtS4]; · iexact HtS4
    isplitr; · iexact HrS0_2
    isplitl [HO]; · iexact HO
    isplitl [HaS0]; · iexact HaS0
    isplitr; · iexact HIl0
    isplitl [Hx6]; · iexact Hx6
    isplitl [HtL6]; · iexact HtL6
    isplitr; · iexact HrL0_3
    isplitr; · iexact HIl1
    isplitl [HcL1]; · iexact HcL1
    isplitl [HaL1]; · iexact HaL1
    isplitr; · iexact HIs1
    isplitl [Ho5]; · iexact Ho5
    isplitl [HtS5]; · iexact HtS5
    iexact HrS1_2
  iintro ⟨HO, HaS0, #HrS0_3, Ho4, HcL0, HaL1, #HrL1_3, Hx5, HcS1⟩
  -- printed part 7
  rw [Prog.bind_assoc]
  iapply (seg7 m K c fo _) $$ [HcS1 HO HaS1 Hx7 HtL7 HcL0 HaL0 Ho6 HtS6 HaL1]
  · isplitr; · iexact HIs1
    isplitl [HcS1]; · iexact HcS1
    isplitl [HO]; · iexact HO
    isplitl [HaS1]; · iexact HaS1
    isplitr; · iexact HIl1
    isplitl [Hx7]; · iexact Hx7
    isplitl [HtL7]; · iexact HtL7
    isplitr; · iexact HrL1_3
    isplitr; · iexact HIl0
    isplitl [HcL0]; · iexact HcL0
    isplitl [HaL0]; · iexact HaL0
    isplitr; · iexact HIs0
    isplitl [Ho6]; · iexact Ho6
    isplitl [HtS6]; · iexact HtS6
    isplitr; · iexact HrS0_3
    iexact HaL1
  iintro ⟨HO, HaS1, #HrS1_3, Ho5, Hv1, HaL0, #HrL0_4, Hx6, HcS0, HaL1, #HrL1_4, Hx7⟩
  -- the rest of the last part, and the wait for the peer's landing
  simp only [Prog.lift, Prog.bind_op, Prog.bind_ret, Prog.pure_eq_ret]
  unfold slotHolds
  icases Hv1 with ⟨%f7, Hv1, %hf7⟩
  icases HO with ⟨%W', HO⟩
  iapply (wp_st1 m c 3 (by decide) 7 (K (c, 4)) f7 fo rfl hf7) $$ [Hv1 Ho7 HtS7]
  · isplitr; · iexact HIs1
    isplitl [Hv1]; · iexact Hv1
    isplitl [Ho7]; · iexact Ho7
    isplitl [HtS7]; · iexact HtS7
    iexact HrS1_3
  iintro HcS1
  iapply (wp_wait_own m c (stS 0).sem 3 (K (c, 3)) N1 (duties_st m c 0 3 (by decide)) (amount_st m c 0 3 ()) (stPay m c 0 6) (payload_st m c 0 3 ()) (dst := stDst c 6) rfl) $$ [HcS0 HO HaS0]
  · isplitr; · iexact HIs0
    isplitl [HcS0]; · iexact HcS0
    isplitl [HO]; · iexact HO
    iexact HaS0
  iintro ⟨HO, HaS0, #HrS0_4, Hp⟩
  unfold stPay
  icases Hp with ⟨Ho6, ⟨%g6, Hv0⟩⟩
  iapply (wp_wait_own m c (stS 1).sem 3 (K (c, 4)) N1 (duties_st m c 1 3 (by decide)) (amount_st m c 1 3 ()) (stPay m c 1 7) (payload_st m c 1 3 ()) (dst := stDst c 7) rfl) $$ [HcS1 HO HaS1]
  · isplitr; · iexact HIs1
    isplitl [HcS1]; · iexact HcS1
    isplitl [HO]; · iexact HO
    iexact HaS1
  iintro ⟨HO, HaS1, #HrS1_4, Hp⟩
  unfold stPay
  icases Hp with ⟨Ho7, ⟨%g7, Hv1⟩⟩
  iapply (wp_wait_own m c sendS.sem 0 (K (c, 5)) N8 (duties_send m c) (amount_send m c 0 ()) (sendPay m c) (payload_send m c 0 ()) (dst := sndSrc c) rfl) $$ [HcSn HO HaSn]
  · isplitr; · iexact HIsn
    isplitl [HcSn]; · iexact HcSn
    isplitl [HO]; · iexact HO
    iexact HaSn
  iintro ⟨HO, HaSn, #HrSn1, Hsnd⟩
  unfold sendPay
  iapply (wp_wait_own m c recvS.sem 0 (K (c, 6)) N8 (duties_recv m c) (amount_recv m c 0 ()) (recvPay m c) (payload_recv m c 0 ()) (dst := sndDst c) rfl) $$ [HcR HO HaRc]
  · isplitr; · iexact HIrc
    isplitl [HcR]; · iexact HcR
    isplitl [HO]; · iexact HO
    iexact HaRc
  iintro ⟨HO, HaRc, #HrRc1, Hland⟩
  unfold recvPay
  -- the six own cells close: their counters at zero are the device's again
  imod (Rounds.cell_close ER (Rd m) (Set.mem_univ (K (c, 1))) (fun h => h) (R := 4) (duties_later m c 1 4 (by rw [rounds_csem]; decide))) $$ [HaL0] with HzL0
  · isplitr; · iexact HIl0
    iexact HaL0
  imod (Rounds.cell_close ER (Rd m) (Set.mem_univ (K (c, 2))) (fun h => h) (R := 4) (duties_later m c 2 4 (by rw [rounds_csem]; decide))) $$ [HaL1] with HzL1
  · isplitr; · iexact HIl1
    iexact HaL1
  imod (Rounds.cell_close ER (Rd m) (Set.mem_univ (K (c, 3))) (fun h => h) (R := 4) (duties_later m c 3 4 (by rw [rounds_csem]; decide))) $$ [HaS0] with HzS0
  · isplitr; · iexact HIs0
    iexact HaS0
  imod (Rounds.cell_close ER (Rd m) (Set.mem_univ (K (c, 4))) (fun h => h) (R := 4) (duties_later m c 4 4 (by rw [rounds_csem]; decide))) $$ [HaS1] with HzS1
  · isplitr; · iexact HIs1
    iexact HaS1
  imod (Rounds.cell_close ER (Rd m) (Set.mem_univ (K (c, 5))) (fun h => h) (R := 1) (duties_later m c 5 1 (by rw [rounds_csem]; decide))) $$ [HaSn] with HzSn
  · isplitr; · iexact HIsn
    iexact HaSn
  imod (Rounds.cell_close ER (Rd m) (Set.mem_univ (K (c, 6))) (fun h => h) (R := 1) (duties_later m c 6 1 (by rw [rounds_csem]; decide))) $$ [HaRc] with HzRc
  · isplitr; · iexact HIrc
    iexact HaRc
  rw [wp_ret]; imodintro
  iapply Hk
  unfold bodyPost xParts oParts Dat.owesAt Pipeline.owesWithin
  rw [show (dats m 0 c).owed t₀.succ = 0 from rfl]
  isplitl [HO]
  · iexists _
    isplitr
    rotate_left
    · iexact HO
    · ipureintro; exact fun _ _ => Or.inl trivial
  isplitl [Hsnd Hx0 Hx1 Hx2 Hx3 Hx4 Hx5 Hx6 Hx7]
  · isplitl [Hsnd]; · iexact Hsnd
    isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Hland Ho0 Ho1 Ho2 Ho3 Ho4 Ho5 Ho6 Ho7]
  · isplitl [Hland]; · iexact Hland
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hv0]; · iexists g6; iexact Hv0
  isplitl [Hv1]; · iexists g7; iexact Hv1
  isplitl [HzL0]; · iexact HzL0
  isplitl [HzL1]; · iexact HzL1
  isplitl [HzS0]; · iexact HzS0
  isplitl [HzS1]; · iexact HzS1
  isplitl [HzSn]; · iexact HzSn
  iexact HzRc

/-- info: 'Cert.KernelProof.sound_body' depends on axioms: [propext, Classical.choice, Quot.sound] -/
#guard_msgs in #print axioms sound_body

end Cert.KernelProof

end
-- ==== Proof.Kernel.Cut.lean ====
/-
  How each of the three buffers is cut into the pieces the transfers move, and joined again.

  Each piece is a unit-stride rectangle of its buffer: membership in it is a pair of bounds per axis.  The rectangles of
  one buffer are pairwise disjoint (the sent columns and the kept columns do not meet; two row chunks do not meet) and
  every index lies in one of them, so the buffer's points-to is the separating conjunction of the pieces'.
-/
import proofs.«900632_g7700000000000633_dist_a2a_v7x_xyz2x2x2_z_m8192_n1024_f32_1_alg».proof.Proof.Kernel.Proto
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting a points-to along a finite cover by disjoint sets -/

omit [FloatOps F] in
theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

omit [FloatOps F] in
/-- Nine pairwise disjoint sets that cover a buffer cut its points-to into nine. -/
theorem pointsTo_cut9 {ℓ : Loc nD τ sig} {q : PosShare TreeShare} {f : Buf (Elt F) ℓ} (I : Fin 9 → Finset (Idx ℓ))
    (hd : ∀ a b : Fin 9, a < b → Disjoint (I a) (I b)) (hc : ∀ i, ∃ a, i ∈ I a) :
    (ℓ ↦{q} f : sProp 𝕄) = iprop((ℓ ↦[I 0]{q} f) ∗ (ℓ ↦[I 1]{q} f) ∗ (ℓ ↦[I 2]{q} f) ∗ (ℓ ↦[I 3]{q} f) ∗ (ℓ ↦[I 4]{q} f)
      ∗ (ℓ ↦[I 5]{q} f) ∗ (ℓ ↦[I 6]{q} f) ∗ (ℓ ↦[I 7]{q} f) ∗ (ℓ ↦[I 8]{q} f)) := by
  have hU : (Finset.univ : Finset (Idx ℓ)) = I 0 ∪ (I 1 ∪ (I 2 ∪ (I 3 ∪ (I 4 ∪ (I 5 ∪ (I 6 ∪ (I 7 ∪ I 8))))))) := by
    ext i
    simp only [Finset.mem_univ, Finset.mem_union, true_iff]
    obtain ⟨a, ha⟩ := hc i
    match a, ha with
    | 0, ha => exact Or.inl ha
    | 1, ha => exact Or.inr (Or.inl ha)
    | 2, ha => exact Or.inr (Or.inr (Or.inl ha))
    | 3, ha => exact Or.inr (Or.inr (Or.inr (Or.inl ha)))
    | 4, ha => exact Or.inr (Or.inr (Or.inr (Or.inr (Or.inl ha))))
    | 5, ha => exact Or.inr (Or.inr (Or.inr (Or.inr (Or.inr (Or.inl ha)))))
    | 6, ha => exact Or.inr (Or.inr (Or.inr (Or.inr (Or.inr (Or.inr (Or.inl ha))))))
    | 7, ha => exact Or.inr (Or.inr (Or.inr (Or.inr (Or.inr (Or.inr (Or.inr (Or.inl ha)))))))
    | 8, ha => exact Or.inr (Or.inr (Or.inr (Or.inr (Or.inr (Or.inr (Or.inr (Or.inr (ha))))))))
  have h0 : Disjoint (I 0) (I 1 ∪ (I 2 ∪ (I 3 ∪ (I 4 ∪ (I 5 ∪ (I 6 ∪ (I 7 ∪ I 8))))))) := Finset.disjoint_union_right.mpr ⟨hd 0 1 (by decide), Finset.disjoint_union_right.mpr ⟨hd 0 2 (by decide), Finset.disjoint_union_right.mpr ⟨hd 0 3 (by decide), Finset.disjoint_union_right.mpr ⟨hd 0 4 (by decide), Finset.disjoint_union_right.mpr ⟨hd 0 5 (by decide), Finset.disjoint_union_right.mpr ⟨hd 0 6 (by decide), Finset.disjoint_union_right.mpr ⟨hd 0 7 (by decide), hd 0 8 (by decide)⟩⟩⟩⟩⟩⟩⟩
  have h1 : Disjoint (I 1) (I 2 ∪ (I 3 ∪ (I 4 ∪ (I 5 ∪ (I 6 ∪ (I 7 ∪ I 8)))))) := Finset.disjoint_union_right.mpr ⟨hd 1 2 (by decide), Finset.disjoint_union_right.mpr ⟨hd 1 3 (by decide), Finset.disjoint_union_right.mpr ⟨hd 1 4 (by decide), Finset.disjoint_union_right.mpr ⟨hd 1 5 (by decide), Finset.disjoint_union_right.mpr ⟨hd 1 6 (by decide), Finset.disjoint_union_right.mpr ⟨hd 1 7 (by decide), hd 1 8 (by decide)⟩⟩⟩⟩⟩⟩
  have h2 : Disjoint (I 2) (I 3 ∪ (I 4 ∪ (I 5 ∪ (I 6 ∪ (I 7 ∪ I 8))))) := Finset.disjoint_union_right.mpr ⟨hd 2 3 (by decide), Finset.disjoint_union_right.mpr ⟨hd 2 4 (by decide), Finset.disjoint_union_right.mpr ⟨hd 2 5 (by decide), Finset.disjoint_union_right.mpr ⟨hd 2 6 (by decide), Finset.disjoint_union_right.mpr ⟨hd 2 7 (by decide), hd 2 8 (by decide)⟩⟩⟩⟩⟩
  have h3 : Disjoint (I 3) (I 4 ∪ (I 5 ∪ (I 6 ∪ (I 7 ∪ I 8)))) := Finset.disjoint_union_right.mpr ⟨hd 3 4 (by decide), Finset.disjoint_union_right.mpr ⟨hd 3 5 (by decide), Finset.disjoint_union_right.mpr ⟨hd 3 6 (by decide), Finset.disjoint_union_right.mpr ⟨hd 3 7 (by decide), hd 3 8 (by decide)⟩⟩⟩⟩
  have h4 : Disjoint (I 4) (I 5 ∪ (I 6 ∪ (I 7 ∪ I 8))) := Finset.disjoint_union_right.mpr ⟨hd 4 5 (by decide), Finset.disjoint_union_right.mpr ⟨hd 4 6 (by decide), Finset.disjoint_union_right.mpr ⟨hd 4 7 (by decide), hd 4 8 (by decide)⟩⟩⟩
  have h5 : Disjoint (I 5) (I 6 ∪ (I 7 ∪ I 8)) := Finset.disjoint_union_right.mpr ⟨hd 5 6 (by decide), Finset.disjoint_union_right.mpr ⟨hd 5 7 (by decide), hd 5 8 (by decide)⟩⟩
  have h6 : Disjoint (I 6) (I 7 ∪ I 8) := Finset.disjoint_union_right.mpr ⟨hd 6 7 (by decide), hd 6 8 (by decide)⟩
  have h7 : Disjoint (I 7) (I 8) := hd 7 8 (by decide)
  rw [hU, pointsTo_union_eq h0, pointsTo_union_eq h1, pointsTo_union_eq h2, pointsTo_union_eq h3, pointsTo_union_eq h4,
    pointsTo_union_eq h5, pointsTo_union_eq h6, pointsTo_union_eq h7]

/-! ## The array's rows: the columns sent and the eight chunks kept -/

omit [FloatOps F] in
theorem mem_snd (c : Dev nD) (i : S8192x2048.Idx) :
    i ∈ (sndSrc c).view.set ↔ 1024 - 1024 * (c.val % 2) ≤ (i 1).val ∧ (i 1).val < 1024 - 1024 * (c.val % 2) + 1024 := by
  have h0 := ValueIdx.idx2_lt0 i
  rw [show (sndSrc c).view.set = (Rect.unit (s := S8192x2048) (k0_off2 c) S8192x1024.size (k0_off2_inb c)).set from View.set_slice_whole _ _,
    Rect.mem_set_unit, Fin.forall_fin_two, k0_off2_eq]
  simp only [Matrix.cons_val_zero, Matrix.cons_val_one, Matrix.head_cons]
  omega

omit [FloatOps F] in
theorem mem_ld (c : Dev nD) (k : Fin 8) (i : S8192x2048.Idx) :
    i ∈ (ldSrc c k).view.set ↔ (1024 * k.val ≤ (i 0).val ∧ (i 0).val < 1024 * k.val + 1024)
      ∧ (1024 * (c.val % 2) ≤ (i 1).val ∧ (i 1).val < 1024 * (c.val % 2) + 1024) := by
  rw [show (ldSrc c k).view.set = (Rect.unit (s := S8192x2048) (ldOff c k) S1024x1024.size (ldOff_inb c k)).set from View.set_slice_whole _ _,
    Rect.mem_set_unit, Fin.forall_fin_two, ldOff_eq]
  simp only [Matrix.cons_val_zero, Matrix.cons_val_one, Matrix.head_cons]

/-- The nine pieces of a device's rows. -/
def xI (c : Dev nD) : Fin 9 → Finset (Idx ((c : Thread nD τ).loc main_arg0)) := fun t =>
  Fin.cases (motive := fun _ => Finset (Idx ((c : Thread nD τ).loc main_arg0))) (sndSrc c).view.set (fun k => (ldSrc c k).view.set) t

omit [FloatOps F] in
theorem xI_disj (c : Dev nD) : ∀ a b : Fin 9, a < b → Disjoint (xI c a) (xI c b) := by
  intro a b hab
  have hz := mod_two_le c
  rw [Finset.disjoint_left]
  intro (i : S8192x2048.Idx)
  cases a using Fin.cases with
  | zero =>
    cases b using Fin.cases with
    | zero => exact absurd hab (lt_irrefl _)
    | succ k =>
      intro h1 h2
      have h1' := (mem_snd c i).mp h1
      have h2' := (mem_ld c k i).mp h2
      omega
  | succ j =>
    cases b using Fin.cases with
    | zero => exact absurd hab (Fin.not_lt_zero _)
    | succ k =>
      have hjk : j.val < k.val := Fin.succ_lt_succ_iff.mp hab
      intro h1 h2
      have h1' := (mem_ld c j i).mp h1
      have h2' := (mem_ld c k i).mp h2
      omega

omit [FloatOps F] in
theorem xI_cover (c : Dev nD) : ∀ i : S8192x2048.Idx, ∃ a, i ∈ xI c a := by
  intro i
  have h0 : (i 0).val < 8192 := ValueIdx.idx2_lt0 i
  have h1 : (i 1).val < 2048 := ValueIdx.idx2_lt1 i
  have hz := mod_two_le c
  by_cases hA : 1024 - 1024 * (c.val % 2) ≤ (i 1).val ∧ (i 1).val < 1024 - 1024 * (c.val % 2) + 1024
  · exact ⟨0, (mem_snd c i).mpr hA⟩
  · have hk : (i 0).val / 1024 < 8 := by omega
    refine ⟨Fin.succ ⟨(i 0).val / 1024, hk⟩, ?_⟩
    show i ∈ (ldSrc c ⟨(i 0).val / 1024, hk⟩).view.set
    refine (mem_ld c ⟨(i 0).val / 1024, hk⟩ i).mpr ?_
    show (1024 * ((i 0).val / 1024) ≤ (i 0).val ∧ (i 0).val < 1024 * ((i 0).val / 1024) + 1024)
      ∧ (1024 * (c.val % 2) ≤ (i 1).val ∧ (i 1).val < 1024 * (c.val % 2) + 1024)
    omega

omit [FloatOps F] in
/-- A device's rows of the array are the columns it sends and the eight chunks it keeps. -/
theorem x_split (c : Dev nD) :
    ((((c : Thread nD τ).loc main_arg0) ↦{fullShare} xC m c) : sProp 𝕄) ⊣⊢ xParts m c :=
  BIBase.BiEntails.of_eq (pointsTo_cut9 (xI c) (xI_disj c) (xI_cover c))

/-! ## The result: the rows the peer fills and the eight chunks the device fills -/

omit [FloatOps F] in
theorem mem_land (d : Dev nD) (i : S16384x1024.Idx) :
    i ∈ (sndDst d).view.set ↔ 8192 * (d.val % 2) ≤ (i 0).val ∧ (i 0).val < 8192 * (d.val % 2) + 8192 := by
  have h1 := ValueIdx.idx2_lt1 i
  rw [show (sndDst d).view.set = (Rect.unit (s := S16384x1024) (k0_off1 d) S8192x1024.size (k0_off1_inb d)).set from View.set_slice_whole _ _,
    Rect.mem_set_unit, Fin.forall_fin_two, k0_off1_eq]
  simp only [Matrix.cons_val_zero, Matrix.cons_val_one, Matrix.head_cons]
  omega

omit [FloatOps F] in
theorem mem_st (c : Dev nD) (k : Fin 8) (i : S16384x1024.Idx) :
    i ∈ (stDst c k).view.set ↔ 8192 * (c.val % 2) + 1024 * k.val ≤ (i 0).val ∧ (i 0).val < 8192 * (c.val % 2) + 1024 * k.val + 1024 := by
  have h1 := ValueIdx.idx2_lt1 i
  rw [show (stDst c k).view.set = (Rect.unit (s := S16384x1024) (k0_off5 c (BitVec.ofNat 32 (1024 * k.val))) S1024x1024.size (k0_off5_inb c k)).set from View.set_slice_whole _ _,
    Rect.mem_set_unit, Fin.forall_fin_two, k0_off5_eq]
  simp only [Matrix.cons_val_zero, Matrix.cons_val_one, Matrix.head_cons]
  omega

/-- The nine pieces of a device's result. -/
def oI (c : Dev nD) : Fin 9 → Finset (Idx ((c : Thread nD τ).loc main_v1)) := fun t =>
  Fin.cases (motive := fun _ => Finset (Idx ((c : Thread nD τ).loc main_v1))) (sndDst (peer c)).view.set (fun k => (stDst c k).view.set) t

omit [FloatOps F] in
theorem oI_disj (c : Dev nD) : ∀ a b : Fin 9, a < b → Disjoint (oI c a) (oI c b) := by
  intro a b hab
  have hz := mod_two_le c
  have hp := peer_mod c
  rw [Finset.disjoint_left]
  intro (i : S16384x1024.Idx)
  cases a using Fin.cases with
  | zero =>
    cases b using Fin.cases with
    | zero => exact absurd hab (lt_irrefl _)
    | succ k =>
      intro h1 h2
      have h1' := (mem_land (peer c) i).mp h1
      have h2' := (mem_st c k i).mp h2
      have hk := k.isLt
      omega
  | succ j =>
    cases b using Fin.cases with
    | zero => exact absurd hab (Fin.not_lt_zero _)
    | succ k =>
      have hjk : j.val < k.val := Fin.succ_lt_succ_iff.mp hab
      intro h1 h2
      have h1' := (mem_st c j i).mp h1
      have h2' := (mem_st c k i).mp h2
      omega

omit [FloatOps F] in
theorem oI_cover (c : Dev nD) : ∀ i : S16384x1024.Idx, ∃ a, i ∈ oI c a := by
  intro i
  have h0 : (i 0).val < 16384 := ValueIdx.idx2_lt0 i
  have hz := mod_two_le c
  have hp := peer_mod c
  by_cases hA : 8192 * ((peer c).val % 2) ≤ (i 0).val ∧ (i 0).val < 8192 * ((peer c).val % 2) + 8192
  · exact ⟨0, (mem_land (peer c) i).mpr hA⟩
  · have hk : ((i 0).val - 8192 * (c.val % 2)) / 1024 < 8 := by omega
    refine ⟨Fin.succ ⟨((i 0).val - 8192 * (c.val % 2)) / 1024, hk⟩, ?_⟩
    show i ∈ (stDst c ⟨((i 0).val - 8192 * (c.val % 2)) / 1024, hk⟩).view.set
    refine (mem_st c ⟨((i 0).val - 8192 * (c.val % 2)) / 1024, hk⟩ i).mpr ?_
    show 8192 * (c.val % 2) + 1024 * (((i 0).val - 8192 * (c.val % 2)) / 1024) ≤ (i 0).val
      ∧ (i 0).val < 8192 * (c.val % 2) + 1024 * (((i 0).val - 8192 * (c.val % 2)) / 1024) + 1024
    omega

omit [FloatOps F] in
/-- A device's result is the rows its peer fills and the eight chunks it fills itself. -/
theorem o_split (c : Dev nD) (f : Buf (Elt F) ((c : Thread nD τ).loc main_v1)) :
    ((((c : Thread nD τ).loc main_v1) ↦{fullShare} f) : sProp 𝕄) ⊣⊢ oParts c f :=
  BIBase.BiEntails.of_eq (pointsTo_cut9 (oI c) (oI_disj c) (oI_cover c))

/-! ## The scratch: its two slots -/

omit [FloatOps F] in
theorem mem_slot0 (i : S2x1024x1024.Idx) : i ∈ (slot0 : Memref sig .tc .vmem S1024x1024 .f32).view.set ↔ (i 0).val = 0 := by
  have h1 : (i 1).val < 1024 := (i 1).isLt
  have h2 : (i 2).val < 1024 := (i 2).isLt
  rw [show (slot0 : Memref sig .tc .vmem S1024x1024 .f32).view.set
      = (Rect.unit (s := S2x1024x1024) ![0, 0, 0] S1x1024x1024.size inb_S2x1024x1024_S1x1024x1024_0_0_0).set
    from (View.set_reshape _ _).trans (View.set_slice_whole _ _), Rect.mem_set_unit]
  constructor
  · intro h
    have := h 0
    simp only [Matrix.cons_val_zero] at this
    omega
  · intro h a
    match a with
    | ⟨0, _⟩ => show 0 ≤ (i 0).val ∧ (i 0).val < 0 + 1; omega
    | ⟨1, _⟩ => show 0 ≤ (i 1).val ∧ (i 1).val < 0 + 1024; omega
    | ⟨2, _⟩ => show 0 ≤ (i 2).val ∧ (i 2).val < 0 + 1024; omega

omit [FloatOps F] in
theorem mem_slot1 (i : S2x1024x1024.Idx) : i ∈ (slot1 : Memref sig .tc .vmem S1024x1024 .f32).view.set ↔ (i 0).val = 1 := by
  have h1 : (i 1).val < 1024 := (i 1).isLt
  have h2 : (i 2).val < 1024 := (i 2).isLt
  rw [show (slot1 : Memref sig .tc .vmem S1024x1024 .f32).view.set
      = (Rect.unit (s := S2x1024x1024) ![1, 0, 0] S1x1024x1024.size inb_S2x1024x1024_S1x1024x1024_1_0_0).set
    from (View.set_reshape _ _).trans (View.set_slice_whole _ _), Rect.mem_set_unit]
  constructor
  · intro h
    have := h 0
    simp only [Matrix.cons_val_zero] at this
    omega
  · intro h a
    match a with
    | ⟨0, _⟩ => show 1 ≤ (i 0).val ∧ (i 0).val < 1 + 1; omega
    | ⟨1, _⟩ => show 0 ≤ (i 1).val ∧ (i 1).val < 0 + 1024; omega
    | ⟨2, _⟩ => show 0 ≤ (i 2).val ∧ (i 2).val < 0 + 1024; omega

omit [FloatOps F] in
theorem slots_disjoint (c : Dev nD) :
    Disjoint ((slot0 : Memref sig .tc .vmem S1024x1024 .f32).view.set : Finset (Idx ((c : Thread nD τ).loc cc0_scratch0)))
      (slot1 : Memref sig .tc .vmem S1024x1024 .f32).view.set := by
  rw [Finset.disjoint_left]
  intro (i : S2x1024x1024.Idx) h0 h1
  have h0' := (mem_slot0 i).mp h0
  have h1' := (mem_slot1 i).mp h1
  omega

omit [FloatOps F] in
theorem slots_cover (c : Dev nD) :
    ((slot0 : Memref sig .tc .vmem S1024x1024 .f32).view.set : Finset (Idx ((c : Thread nD τ).loc cc0_scratch0)))
      ∪ (slot1 : Memref sig .tc .vmem S1024x1024 .f32).view.set = Finset.univ := by
  ext (i : S2x1024x1024.Idx)
  simp only [Finset.mem_union, Finset.mem_univ, iff_true]
  have h0 : (i 0).val < 2 := (i 0).isLt
  by_cases h : (i 0).val = 0
  · exact Or.inl ((mem_slot0 i).mpr h)
  · exact Or.inr ((mem_slot1 i).mpr (by omega))

omit [FloatOps F] in
/-- The scratch is its two slots. -/
theorem v_split (c : Dev nD) (f : Buf (Elt F) ((c : Thread nD τ).loc cc0_scratch0)) :
    ((((c : Thread nD τ).loc cc0_scratch0) ↦{fullShare} f) : sProp 𝕄) ⊣⊢ vParts c f := by
  refine BIBase.BiEntails.of_eq ?_
  rw [← slots_cover c, pointsTo_union_eq (slots_disjoint c)]
  rfl

omit [FloatOps F] in
/-- Two slots at different contents are still the whole scratch, at some contents. -/
theorem v_join (c : Dev nD) (f₀ f₁ : Buf (Elt F) ((c : Thread nD τ).loc cc0_scratch0)) :
    iprop(slotPts c 0 f₀ ∗ slotPts c 1 f₁)
      ⊢ (∃ f : Buf (Elt F) ((c : Thread nD τ).loc cc0_scratch0), (((c : Thread nD τ).loc cc0_scratch0) ↦{fullShare} f) : sProp 𝕄) := by
  refine (pointsTo_join (ℓ := (c : Thread nD τ).loc cc0_scratch0) (slots_disjoint c)).trans ?_
  rw [slots_cover c]
  iintro H
  iexists _
  iexact H

/-- info: 'Cert.KernelProof.x_split' depends on axioms: [propext, Classical.choice, Quot.sound] -/
#guard_msgs in #print axioms x_split
/-- info: 'Cert.KernelProof.o_split' depends on axioms: [propext, Classical.choice, Quot.sound] -/
#guard_msgs in #print axioms o_split
/-- info: 'Cert.KernelProof.v_split' depends on axioms: [propext, Classical.choice, Quot.sound] -/
#guard_msgs in #print axioms v_split
/-- info: 'Cert.KernelProof.v_join' depends on axioms: [propext, Classical.choice, Quot.sound] -/
#guard_msgs in #print axioms v_join

end Cert.KernelProof

end
-- ==== Proof.Kernel.Launch.lean ====
/-
  The launch: every device's body obligation, the protocol's cells allocated for all devices at once, and the run.
-/
import proofs.«900632_g7700000000000633_dist_a2a_v7x_xyz2x2x2_z_m8192_n1024_f32_1_alg».proof.Proof.Kernel.Body
import proofs.«900632_g7700000000000633_dist_a2a_v7x_xyz2x2x2_z_m8192_n1024_f32_1_alg».proof.Proof.Kernel.Cut
import proofs.«900632_g7700000000000633_dist_a2a_v7x_xyz2x2x2_z_m8192_n1024_f32_1_alg».proof.Proof.Gen.Kernel.Frame

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation: the buffers cut into their pieces, the body over the pieces, the pieces joined -/

namespace AtLaunch

omit [FloatOps F] in
/-- The pipeline has no window: a product over its windows is empty. -/
theorem bigSep_W (Φ : Fin cfg0.W → sProp 𝕄) : bigSep Finset.univ Φ = iprop(emp) := by
  rw [show (Finset.univ : Finset (Fin cfg0.W)) = ∅ from Finset.univ_eq_empty]; exact bigSep_empty

/-- What the obligation's point starts from, -/
def bodyPre' (c : Dev nD) : sProp 𝕄 :=
  iprop(Φ₀ m c ∗ (dats m 0 c).owesAt () t₀.castSucc ∗ emp)
/-- and what it must end with. -/
def bodyPost' (c : Dev nD) : sProp 𝕄 :=
  iprop(Φ₁ m c ∗ (dats m 0 c).owesAt () t₀.succ ∗ emp)

end AtLaunch

open AtLaunch in
set_option maxRecDepth 4000 in
/-- The library's body obligation on device c. -/
theorem body_obligation (c : Dev nD) : BodyObligation (dats (F := F) m 0 c) (defs₀ (F := F)) 𝒱₀ () Set.univ := fun t => by
  rw [fin_N t]
  rw [bigSep_W, bigSep_W]
  show bodyPre' m c ⊢ wp frame (wpE (defs₀ (F := F)) 𝒱₀ c none) Set.univ (theBody (F := F)) (fun _ => bodyPost' m c)
  unfold bodyPre' Φ₀ start
  iintro ⟨⟨⟨⟨%K, Hg⟩, Hb, Hr, Hlev⟩, Hx, ⟨%fo, Ho⟩, ⟨%fv, Hv⟩⟩, Howe, -⟩
  ihave Hx' := (x_split m c).1 $$ Hx
  ihave Ho' := (o_split c fo).1 $$ Ho
  ihave Hv' := (v_split c fv).1 $$ Hv
  iapply (sound_body m K c fun _ => bodyPost' m c)
  unfold bodyPre
  isplitr []
  · isplitl [Hg]; · iexact Hg
    isplitl [Hb]; · iexact Hb
    isplitl [Hr]; · iexact Hr
    isplitl [Hlev]; · iexact Hlev
    isplitl [Howe]; · iexact Howe
    isplitl [Hx']; · iexact Hx'
    isplitl [Ho']
    · iexists fo; iexact Ho'
    · iexists fv; iexact Hv'
  · unfold bodyPost bodyPost' Φ₁
    iintro ⟨Howe, Hx, Ho, ⟨%f0, H0⟩, ⟨%f1, H1⟩, Hs⟩
    ihave Hx' := (x_split m c).2 $$ Hx
    ihave Ho' := (o_split c (outFinal m c)).2 $$ Ho
    ihave Hv' := (v_join c f0 f1) $$ [H0 H1]
    · isplitl [H0] <;> iassumption
    isplitr [Howe]
    · isplitl [Hx']; · iexact Hx'
      isplitl [Ho']; · iexact Ho'
      isplitl [Hv']; · iexact Hv'
      iexact Hs
    · isplitl [Howe]; · iexact Howe
      iempintro

/-! ## The launch -/

theorem ownSemFacts : Pipeline.OwnSemFacts cfg0.spec osem := by decide

namespace AtLaunch

omit [FloatOps F] in
theorem share_eq (c : Dev nD) (w : Fin cfg0.W) : (dats m 0 c).share w = fullShare := w.elim0

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_inj h2
  subst this; rfl
/-- The protocol's cells: seven a device. -/
def protoCells : Finset (GSem nD τ sig) := Finset.univ.map ⟨kcell, kcell_injective⟩

/-- The duties of a device's own cells, listed as (cell, round): the barrier's, the receive cell's, the send cell's; the
    eight loads by chunk; the eight stores by chunk. -/
abbrev tokJ : Fin 19 → Fin 7 × ℕ := fun
  | 0 => (0, 0) | 1 => (6, 0) | 2 => (5, 0)
  | 3 => (1, 0) | 4 => (2, 0) | 5 => (1, 1) | 6 => (2, 1) | 7 => (1, 2) | 8 => (2, 2) | 9 => (1, 3) | 10 => (2, 3)
  | 11 => (3, 0) | 12 => (4, 0) | 13 => (3, 1) | 14 => (4, 1) | 15 => (3, 2) | 16 => (4, 2) | 17 => (3, 3) | 18 => (4, 3)
  | ⟨_ + 19, h⟩ => absurd h (Nat.not_lt.2 (Nat.le_add_left _ _))
theorem tokJ_inj : Function.Injective tokJ := by decide
abbrev tokOf (cj : Dev nD × Fin 19) : GSem nD τ sig × ℕ × Unit := (kcell (cj.1, (tokJ cj.2).1), (tokJ cj.2).2, ())
theorem tokOf_injective : Function.Injective (tokOf : Dev nD × Fin 19 → GSem nD τ sig × ℕ × Unit) := by
  rintro ⟨c, j⟩ ⟨c', j'⟩ h
  have h1 := kcell_injective (congrArg (fun x : GSem nD τ sig × ℕ × Unit => x.1) h)
  have h2 : (tokJ j).2 = (tokJ j').2 := congrArg (fun x : GSem nD τ sig × ℕ × Unit => x.2.1) h
  have hc : c = c' := congrArg Prod.fst h1
  have hj : (tokJ j).1 = (tokJ j').1 := congrArg Prod.snd h1
  have : j = j' := tokJ_inj (Prod.ext hj h2)
  subst hc; subst this; rfl
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 () ∗ dutyTok ER (recvCell c) 0 () ∗ dutyTok ER (sendCell c) 0 () ∗ ldToks c ∗ stToks c)

/-- What the launch element deals device c. -/
def G (c : Dev nD) : sProp 𝕄 :=
  iprop((bigSep Finset.univ fun k : Fin 7 => roundState ER (Rd m) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

omit [FloatOps F] in
theorem toks_of_fin19 (c : Dev nD) :
    (bigSep Finset.univ fun j : Fin 19 => (dutyTok ER (tokOf (c, j)).1 (tokOf (c, j)).2.1 (tokOf (c, j)).2.2 : sProp 𝕄)) ⊢ toks c := by
  rw [bigSep_fin19]
  unfold toks ldToks stToks
  iintro ⟨H0, H1, H2, H3, H4, H5, H6, H7, H8, H9, H10, H11, H12, H13, H14, H15, H16, H17, H18⟩
  isplitl [H0]; · iexact H0
  isplitl [H1]; · iexact H1
  isplitl [H2]; · iexact H2
  isplitl [H3 H4 H5 H6 H7 H8 H9 H10]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

omit [FloatOps F] in
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) ⊢ bigSep Finset.univ fun c : Dev nD => toks c := by
    unfold protoToks; rw [bigSep_map, bigSep_univ_prod]
    exact bigSep_mono fun c _ => toks_of_fin19 c
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- The two load cells, the two store cells, the send and the receive cell are the kernel's own six; -/
theorem ownSems0_eq (c : Dev nD) : (Pipeline.ownSems0 (Ix := Unit) (Name := ℕ) (U := UU) (Lvl := ℕ) (Val := Elt F) (τ := τ) osem c : sProp 𝕄)
    = iprop(semVal (ldCell c 0) 0 ∗ semVal (ldCell c 1) 0 ∗ semVal (stCell c 0) 0 ∗ semVal (stCell c 1) 0 ∗ semVal (sendCell c) 0 ∗ semVal (recvCell c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

omit [FloatOps F] in
theorem inv_at (K : Dev nD × Fin 7 → ℕ) (ck : Dev nD × Fin 7) :
    (bigSep Finset.univ fun ck : Dev nD × Fin 7 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: the tokens of the duties it pays, -/
def keepToks (c : Dev nD) : sProp 𝕄 := iprop(payToks c ∗ ldToks c ∗ stToks c)
/-- and its positions. -/
def linear (c : Dev nD) : sProp 𝕄 := iprop(poss c ∗ keepToks c)

omit [FloatOps F] in
theorem ghost_intro (K : Dev nD × Fin 7 → ℕ) (c : Dev nD) : iprop(records m K ∗ linear c) ⊢ G' m c := by
  unfold records linear keepToks G' ghost invs reacheds
  iintro ⟨⟨#HI, #HR⟩, Hpos, Hpay, Hld, Hst⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (c, 5)); iexact HI
    isplitr; · iapply (inv_at m K (c, 6)); iexact HI
    isplitr; · iapply (inv_at m K (peer c, 0)); iexact HI
    iapply (inv_at m K (peer c, 6)); iexact HI
  isplitl [Hpos]; · iexact Hpos
  isplitr
  · isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    isplitr; · iapply (reached_at (F := F) (c, 6)); iexact HR
    isplitr; · iapply (reached_at (F := F) (peer c, 0)); iexact HR
    iapply (reached_at (F := F) (peer c, 6)); iexact HR
  isplitl [Hpay]; · iexact Hpay
  isplitl [Hld]; · iexact Hld
  iexact Hst

omit [FloatOps F] in
/-- The tokens dealt across each pair: a barrier's token and a receive cell's token go to the peer. -/
theorem toks_around : (bigSep Finset.univ fun c : Dev nD => (toks c : sProp 𝕄)) ⊢ bigSep Finset.univ fun c : Dev nD => keepToks c := by
  unfold toks keepToks payToks
  simp only [bigSep_sep']
  rw [bigSep_univ_equiv peerEquiv (fun c : Dev nD => (dutyTok ER (barCell c) 0 () : sProp 𝕄)),
    bigSep_univ_equiv peerEquiv (fun c : Dev nD => (dutyTok ER (recvCell c) 0 () : sProp 𝕄))]
  iintro ⟨H1, H2, H3, H4, H5⟩
  isplitl [H1 H2 H3]
  · isplitl [H1]; · iexact H1
    isplitl [H2]; · iexact H2
    iexact H3
  isplitl [H4]; · iexact H4
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (Rd m) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (Rd m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) keepToks).symm).trans
      (bigSep_mono fun c _ => show _ ⊢ linear c from Entails.of_eq (by unfold linear poss; rw [bigSep_fin7])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩
theorem recv_ne_bar : (SemLoc.dma recvS.sem : SemLoc sig) ≠ .reg barS := fun h => by cases h

omit [FloatOps F] in
/-- What device d owes device c's barrier cell: a unit if d is c's peer. -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm), Finsupp.zero_apply, Nat.zero_add, tallyAt_apply]
  by_cases h : d = peer c
  · subst h; rw [peer_peer, if_pos ⟨rfl, rfl⟩, if_pos rfl]
  · rw [if_neg (fun ⟨h1, _⟩ => h (((congrArg peer (bar_eq_iff.mp h1)).trans (peer_peer d)).symm)), if_neg h]

omit [FloatOps F] in
/-- What device d owes device c's receive cell: the transfer's credit if d is c's peer. -/
theorem owed_recv (d c : Dev nD) : O₀ d (recvCell c) () = if d = peer c then N8 else 0 := by
  unfold O₀ O₁
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (((congrArg peer (recv_eq_iff.mp h1)).trans (peer_peer d)).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N8 : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N8, if_pos (Finset.mem_univ _)]

omit [FloatOps F] in
theorem creds (c : Dev nD) :
    (Pipeline.launchCred O₀ c : sProp 𝕄) ⊢ iprop(cred (tallyAt (barCell c) () 1) ∗ cred (tallyAt (recvCell c) () N8)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What a device carries into the first point: its start, its rows of the array, its result at any contents; -/
def X (c : Dev nD) : sProp 𝕄 :=
  iprop(start m c ∗ (((c : Thread nD τ).loc main_arg0) ↦{fullShare} xC m c)
    ∗ (∃ f : Buf (Elt F) ((c : Thread nD τ).loc main_v1), ((c : Thread nD τ).loc main_v1) ↦{fullShare} f))
/-- and out of the last: its rows unchanged, its result at its final contents. -/
def Y (c : Dev nD) : sProp 𝕄 :=
  iprop((((c : Thread nD τ).loc main_arg0) ↦{fullShare} xC m c) ∗ (((c : Thread nD τ).loc main_v1) ↦{fullShare} outFinal m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold X start G'
  isplitl
  · isplitl [HG H1 HN Hlev]
    · isplitl [HG]; · iexact HG
      isplitl [H1]; · iexact H1
      isplitl [HN]; · iexact HN
      iexact Hlev
    isplitl [Hx]; · iexact Hx
    iexists _; iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx, Ho⟩, -, Hv⟩
  isplitl [Hs]; · iexact Hs
  isplitl [Hx]; · iexact Hx
  isplitl [Ho]; · iexact Ho
  iexact Hv

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, Hv, Hs⟩
  isplitl [Hx Ho]
  · isplitl [Hx] <;> iassumption
  isplitl [Hs]; · iexact Hs
  iexact Hv

/-- The pipeline stages nothing: it waits on no cell. -/
theorem waits (c : Dev nD) : (levAts L lv : sProp 𝕄) ⊢ Pipeline.cellsWaits cfgs (dats m) () 0 c :=
  Pipeline.cellsWaits_intro cfgs (dats m) () 0 c fun w s t => w.elim0

end AtLaunch

/-! ### The run -/

open AtLaunch in
set_option maxRecDepth 8000 in
/-- At the compiled mesh of eight devices, for any float values, from any memory with zero counters: every weakly fair
    execution of @main terminates, and every final state has each device's rows of the array unchanged and its result at
    `outFinal`. -/
theorem run_main : θ_run defs (onTc (τ := τ) (main (F := F))) (s₀ m ρ) (fun r => ∀ c : Dev nD,
    r.2.mem ((c : Thread nD τ).loc main_arg0) = xC m c ∧ r.2.mem ((c : Thread nD τ).loc main_v1) = outFinal m c) := by
  exact Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_arg0) = xC m c ∧ s.mem ((c : Thread nD τ).loc main_v1) = outFinal m c)
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ hx, Buf.eq_of_forall_mem_univ ho⟩
      iexact HSI)
    (hQ := fun _ h c => (h c).2.2)

/-- info: 'Cert.KernelProof.run_main' depends on axioms: [propext, Classical.choice, Quot.sound] -/
#guard_msgs in #print axioms run_main

end Cert.KernelProof

end
-- ==== Proof.Ref.lean ====
/-
  The reference is the identity on one device: its @main performs no operation and returns its argument.
  Every weakly fair execution therefore ends at once, with every buffer holding what it held at launch.
-/
import proofs.«900632_g7700000000000633_dist_a2a_v7x_xyz2x2x2_z_m8192_n1024_f32_1_alg».proof.Proof.Gen.ReferenceIdeal
import Idealize.ShloMosaic.Lib.StableHlo.Run

noncomputable section

namespace Cert.RefProof

open Idealize.ShloMosaic Idealize.ShloMosaic.TcCoe Idealize.SL.Sem Idealize.ShloMosaic.StableHlo

/-- @main is the empty line of operations. -/
theorem main_eq {F : FTy → Type} [FloatOps F] (c : Dev Cert.ReferenceIdeal.nD) :
    Cert.ReferenceIdeal.main (F := F) c = seq [] := rfl

/-- The signature scopes no buffer -/
theorem scopedRefs_eq : (Finset.univ.filter fun b : Ref Cert.ReferenceIdeal.sig .tc => b.isScoped) = ∅ := by decide
/-- and no semaphore. -/
theorem scopedSems_eq : (Finset.univ.filter fun sm : SemLoc Cert.ReferenceIdeal.sig => sm.isScoped .tc) = ∅ := by decide

/-- From any memory with zero counters the reference runs to its end and its argument, which is its result, is unchanged. -/
theorem ref_run {F : FTy → Type} [FloatOps F]
    (m' : (ℓ : Loc Cert.ReferenceIdeal.nD Cert.ReferenceIdeal.τ Cert.ReferenceIdeal.sig) → Buf (Elt F) ℓ)
    (ρ' : Dev Cert.ReferenceIdeal.nD → PrngReg) :
    θ_run (Cert.ReferenceIdeal.defs (F := F)) (onTc (τ := Cert.ReferenceIdeal.τ) (Cert.ReferenceIdeal.main (F := F))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)) :=
  (θ_run (Cert.ReferenceIdeal.defs (F := F)) _ _).mono (fun _ h c => (h c Cert.ReferenceIdeal.main_arg0).trans rfl)
    (run_seq scopedRefs_eq scopedSems_eq (Cert.ReferenceIdeal.defs (F := F)) (Cert.ReferenceIdeal.main (F := F)) (fun _ => [])
      main_eq (fun _ => trivial) m' ρ')

/-- info: 'Cert.RefProof.ref_run' depends on axioms: [propext, Classical.choice, Quot.sound] -/
#guard_msgs in #print axioms ref_run

end Cert.RefProof

end
-- ==== Proof.Value.lean ====
/-
  The value: device c = (x, y, z) holds rows [8192 z, 8192 z + 8192) of the whole 16384 × 2048 array X and must end with
  columns [1024 z, 1024 z + 1024) of it.  Its final result reads, on its own rows, its own block of X at column offset
  1024 z, and on the other rows the peer's block (the peer holds the other row half) at the same column offset: in both
  cases the element of X at row i and column 1024 z + j.
-/
import Idealize.ShloMosaic.PureOps.Ideal
import Idealize.ShloMosaic.Lib.Layout
import proofs.«900632_g7700000000000633_dist_a2a_v7x_xyz2x2x2_z_m8192_n1024_f32_1_alg».proof.Proof.KernelIdeal.Proto
import proofs.«900632_g7700000000000633_dist_a2a_v7x_xyz2x2x2_z_m8192_n1024_f32_1_alg».proof.ReferenceIdeal

noncomputable section

namespace Cert.ValueProof

open Idealize.ShloMosaic Idealize.SL.Sem Idealize.ShloMosaic.TcCoe

/-- Along the rows' cut device c holds block c mod 2 (its z coordinate), -/
theorem rowBlock0 (c : Dev Cert.KernelIdeal.nD) : ((Layout.meshBlock [2, 2, 2] ![[2], []] c) 0).val = c.val % 2 := by
  revert c; decide
/-- the columns are not cut there; -/
theorem rowBlock1 (c : Dev Cert.KernelIdeal.nD) : ((Layout.meshBlock [2, 2, 2] ![[2], []] c) 1).val = 0 := by
  revert c; decide
/-- along the result's cut the rows are whole -/
theorem colBlock0 (c : Dev Cert.KernelIdeal.nD) : ((Layout.meshBlock [2, 2, 2] ![[], [2]] c) 0).val = 0 := by
  revert c; decide
/-- and device c holds column block c mod 2. -/
theorem colBlock1 (c : Dev Cert.KernelIdeal.nD) : ((Layout.meshBlock [2, 2, 2] ![[], [2]] c) 1).val = c.val % 2 := by
  revert c; decide

/-- Each device's final result is its column block of the whole array. -/
theorem outFinal_block
    (m : (ℓ : Loc Cert.KernelIdeal.nD Cert.KernelIdeal.τ Cert.KernelIdeal.sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (h : ∀ c : Dev Cert.KernelIdeal.nD,
      m ((c.tc : Thread Cert.KernelIdeal.nD Cert.KernelIdeal.τ).loc Cert.KernelIdeal.main_arg0)
        = Layout.blockN ⟨2, ![8192, 2048]⟩ ⟨2, ![16384, 2048]⟩ (Layout.meshBlock [2, 2, 2] ![[2], []] c) X)
    (c : Dev Cert.KernelIdeal.nD) :
    Cert.KernelIdealProof.outFinal m c
      = Layout.blockN ⟨2, ![16384, 1024]⟩ ⟨2, ![16384, 2048]⟩ (Layout.meshBlock [2, 2, 2] ![[], [2]] c) X := by
  funext i
  have h0 : (i 0).val < 16384 := ValueIdx.idx2_lt0 i
  have h1 : (i 1).val < 1024 := ValueIdx.idx2_lt1 i
  have hz : c.val % 2 ≤ 1 := Cert.KernelIdealProof.mod_two_le c
  have hp : (Cert.KernelIdealProof.peer c).val % 2 = 1 - c.val % 2 := Cert.KernelIdealProof.peer_mod c
  unfold Cert.KernelIdealProof.outFinal
  dsimp only
  split
  · next hr =>
    unfold Cert.KernelIdealProof.xC
    rw [h c]
    simp only [Layout.blockN_apply]
    congr 1
    funext b
    refine Fin.ext ?_
    rw [Layout.TilesN.idx_val, Layout.TilesN.idx_val]
    match b with
    | ⟨0, _⟩ =>
      show ((Layout.meshBlock [2, 2, 2] ![[2], []] c) 0).val * 8192 + ((i 0).val - 8192 * (c.val % 2))
        = ((Layout.meshBlock [2, 2, 2] ![[], [2]] c) 0).val * 16384 + (i 0).val
      rw [rowBlock0 c, colBlock0 c]; omega
    | ⟨1, _⟩ =>
      show ((Layout.meshBlock [2, 2, 2] ![[2], []] c) 1).val * 2048 + (1024 * (c.val % 2) + (i 1).val)
        = ((Layout.meshBlock [2, 2, 2] ![[], [2]] c) 1).val * 1024 + (i 1).val
      rw [rowBlock1 c, colBlock1 c]; omega
  · next hr =>
    unfold Cert.KernelIdealProof.xC
    rw [h (Cert.KernelIdealProof.peer c)]
    simp only [Layout.blockN_apply]
    congr 1
    funext b
    refine Fin.ext ?_
    rw [Layout.TilesN.idx_val, Layout.TilesN.idx_val]
    match b with
    | ⟨0, _⟩ =>
      show ((Layout.meshBlock [2, 2, 2] ![[2], []] (Cert.KernelIdealProof.peer c)) 0).val * 8192 + ((i 0).val - (8192 - 8192 * (c.val % 2)))
        = ((Layout.meshBlock [2, 2, 2] ![[], [2]] c) 0).val * 16384 + (i 0).val
      rw [rowBlock0 (Cert.KernelIdealProof.peer c), colBlock0 c, hp]; omega
    | ⟨1, _⟩ =>
      show ((Layout.meshBlock [2, 2, 2] ![[2], []] (Cert.KernelIdealProof.peer c)) 1).val * 2048 + (1024 * (c.val % 2) + (i 1).val)
        = ((Layout.meshBlock [2, 2, 2] ![[], [2]] c) 1).val * 1024 + (i 1).val
      rw [rowBlock1 (Cert.KernelIdealProof.peer c), colBlock1 c]; omega

/-- info: 'Cert.ValueProof.outFinal_block' depends on axioms: [propext, Classical.choice, Quot.sound] -/
#guard_msgs in #print axioms outFinal_block

end Cert.ValueProof

end
-- ==== Proof.lean ====
/-
  The claim assembled: the kernel's run on the eight devices (each device's rows unchanged, its result the column half it
  must hold), read at the word level and at the ideal instance for the frames; the reference's run, which is the identity;
  and the value, each device's final result being its column block of the reference's array.
-/
import proofs.«900632_g7700000000000633_dist_a2a_v7x_xyz2x2x2_z_m8192_n1024_f32_1_alg».proof.Defs
import proofs.«900632_g7700000000000633_dist_a2a_v7x_xyz2x2x2_z_m8192_n1024_f32_1_alg».proof.Proof.Gen.Kernel
import proofs.«900632_g7700000000000633_dist_a2a_v7x_xyz2x2x2_z_m8192_n1024_f32_1_alg».proof.Proof.Gen.Kernel.Skeleton
import proofs.«900632_g7700000000000633_dist_a2a_v7x_xyz2x2x2_z_m8192_n1024_f32_1_alg».proof.Proof.Gen.Kernel.Launch
import proofs.«900632_g7700000000000633_dist_a2a_v7x_xyz2x2x2_z_m8192_n1024_f32_1_alg».proof.Proof.Gen.Kernel.Points
import proofs.«900632_g7700000000000633_dist_a2a_v7x_xyz2x2x2_z_m8192_n1024_f32_1_alg».proof.Proof.Gen.Kernel.Frame
import proofs.«900632_g7700000000000633_dist_a2a_v7x_xyz2x2x2_z_m8192_n1024_f32_1_alg».proof.Proof.Gen.KernelIdeal
import proofs.«900632_g7700000000000633_dist_a2a_v7x_xyz2x2x2_z_m8192_n1024_f32_1_alg».proof.Proof.Gen.KernelIdeal.Skeleton
import proofs.«900632_g7700000000000633_dist_a2a_v7x_xyz2x2x2_z_m8192_n1024_f32_1_alg».proof.Proof.Gen.KernelIdeal.Launch
import proofs.«900632_g7700000000000633_dist_a2a_v7x_xyz2x2x2_z_m8192_n1024_f32_1_alg».proof.Proof.Gen.KernelIdeal.Points
import proofs.«900632_g7700000000000633_dist_a2a_v7x_xyz2x2x2_z_m8192_n1024_f32_1_alg».proof.Proof.Gen.KernelIdeal.Frame
import proofs.«900632_g7700000000000633_dist_a2a_v7x_xyz2x2x2_z_m8192_n1024_f32_1_alg».proof.Proof.Gen.ReferenceIdeal
import proofs.«900632_g7700000000000633_dist_a2a_v7x_xyz2x2x2_z_m8192_n1024_f32_1_alg».proof.Proof.Gen.Pre_finite_inputs_Kernel
import proofs.«900632_g7700000000000633_dist_a2a_v7x_xyz2x2x2_z_m8192_n1024_f32_1_alg».proof.Proof.Gen.Pre_finite_inputs_ReferenceIdeal
import Idealize.ShloMosaic.Adequacy
import Idealize.ShloMosaic.Init
import proofs.«900632_g7700000000000633_dist_a2a_v7x_xyz2x2x2_z_m8192_n1024_f32_1_alg».proof.Proof.KernelIdeal.Launch
import proofs.«900632_g7700000000000633_dist_a2a_v7x_xyz2x2x2_z_m8192_n1024_f32_1_alg».proof.Proof.Kernel.Launch
import proofs.«900632_g7700000000000633_dist_a2a_v7x_xyz2x2x2_z_m8192_n1024_f32_1_alg».proof.Proof.Ref
import proofs.«900632_g7700000000000633_dist_a2a_v7x_xyz2x2x2_z_m8192_n1024_f32_1_alg».proof.Proof.Value

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and leaves each device's rows unchanged
  fun m ρ _ => (θ_run _ _ _).mono (fun _ h c => (h c).1) (Cert.KernelProof.run_main (F := Bits) m ρ),
  -- so does its reading at the ideal instance
  fun m ρ _ => (θ_run _ _ _).mono (fun _ h c => (h c).1) (Cert.KernelIdealProof.run_main (F := Ideal) m ρ),
  -- the reference runs and leaves its array unchanged
  fun m ρ _ => Cert.RefProof.ref_run m ρ,
  -- no operation was rewritten
  trivial,
  -- the reference's result is its argument; each device's result is its column block of it
  fun m ρ m' ρ' _ hagree =>
    ⟨m' (((0 : Dev Cert.ReferenceIdeal.nD).tc : Thread Cert.ReferenceIdeal.nD Cert.ReferenceIdeal.τ).loc Cert.ReferenceIdeal.main_arg0),
      (θ_run _ _ _).mono (fun _ h c => ⟨((h c).2).trans (Cert.ValueProof.outFinal_block m _ hagree c), (h c).1⟩)
        (Cert.KernelIdealProof.run_main (F := Ideal) m ρ),
      (θ_run _ _ _).mono (fun _ h => ⟨h 0, h 0⟩) (Cert.RefProof.ref_run m' ρ')⟩⟩

end Cert.Proof

end
